-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x32 : Shape := ⟨2, ![128, 32]⟩
abbrev S32 : Shape := ⟨1, ![32]⟩
abbrev S32768x256 : Shape := ⟨2, ![32768, 256]⟩
abbrev S256 : Shape := ⟨1, ![256]⟩
abbrev S_ : Shape := ⟨0, ![]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S32768x256 .f32) (main_arg5 : FVec F S256 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x1024x128 .f32) (main_arg1 : FVec F S16x1024x1024 .f32) (main_arg2 : FVec F S128x32 .f32) (main_arg3 : FVec F S32 .f32) (main_arg4 : FVec F S32768x256 .f32) (main_arg5 : FVec F S256 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S16x1024x128 : Shape := ⟨3, ![16, 1024, 128]⟩
abbrev S16x1024x1024 : Shape := ⟨3, ![16, 1024, 1024]⟩
abbrev S128x32 : Shape := ⟨2, ![128, 32]⟩
abbrev S32 : Shape := ⟨1, ![32]⟩
abbrev S32768x256 : Shape := ⟨2, ![32768, 256]⟩
abbrev S256 : Shape := ⟨1, ![256]⟩
abbrev S1x32 : Shape := ⟨2, ![1, 32]⟩
abbrev S1x256 : Shape := ⟨2, ![1, 256]⟩
abbrev S16x256 : Shape := ⟨2, ![16, 256]⟩
abbrev S16x64x1024 : Shape := ⟨3, ![16, 64, 1024]⟩
abbrev S2048x256 : Shape := ⟨2, ![2048, 256]⟩
abbrev S16x1024x32 : Shape := ⟨3, ![16, 1024, 32]⟩
abbrev S16x16x128 : Shape := ⟨3, ![16, 16, 128]⟩
abbrev S1x1024x128 : Shape := ⟨3, ![1, 1024, 128]⟩
abbrev S1024x128 : Shape := ⟨2, ![1024, 128]⟩
abbrev S1024x32 : Shape := ⟨2, ![1024, 32]⟩
abbrev S1x1024x32 : Shape := ⟨3, ![1, 1024, 32]⟩
abbrev S1x64x1024 : Shape := ⟨3, ![1, 64, 1024]⟩
abbrev S64x1024 : Shape := ⟨2, ![64, 1024]⟩
abbrev S64x32 : Shape := ⟨2, ![64, 32]⟩
abbrev S16x4x32 : Shape := ⟨3, ![16, 4, 32]⟩
abbrev S16x1x32 : Shape := ⟨3, ![16, 1, 32]⟩
abbrev S16x32 : Shape := ⟨2, ![16, 32]⟩
abbrev S16x128 : Shape := ⟨2, ![16, 128]⟩
abbrev S1x16x128 : Shape := ⟨3, ![1, 16, 128]⟩
abbrev S16x1x128 : Shape := ⟨3, ![16, 1, 128]⟩
abbrev S128x256 : Shape := ⟨2, ![128, 256]⟩

abbrev nBuf : Space → Nat
  | .hbm => 9
  | .vmem => 11
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x32, .f32⟩
  | .hbm, ⟨3, _⟩ => ⟨S32, .f32⟩
  | .hbm, ⟨4, _⟩ => ⟨S32768x256, .f32⟩
  | .hbm, ⟨5, _⟩ => ⟨S256, .f32⟩
  | .hbm, ⟨6, _⟩ => ⟨S1x32, .f32⟩
  | .hbm, ⟨7, _⟩ => ⟨S1x256, .f32⟩
  | .hbm, ⟨8, _⟩ => ⟨S16x256, .f32⟩
  | .local _ .vmem, ⟨0, _⟩ => ⟨S16x1024x128, .f32⟩
  | .local _ .vmem, ⟨1, _⟩ => ⟨S128x32, .f32⟩
  | .local _ .vmem, ⟨2, _⟩ => ⟨S1x32, .f32⟩
  | .local _ .vmem, ⟨3, _⟩ => ⟨S16x64x1024, .f32⟩
  | .local _ .vmem, ⟨4, _⟩ => ⟨S16x64x1024, .f32⟩
  | .local _ .vmem, ⟨5, _⟩ => ⟨S2048x256, .f32⟩
  | .local _ .vmem, ⟨6, _⟩ => ⟨S2048x256, .f32⟩
  | .local _ .vmem, ⟨7, _⟩ => ⟨S1x256, .f32⟩
  | .local _ .vmem, ⟨8, _⟩ => ⟨S16x256, .f32⟩
  | .local _ .vmem, ⟨9, _⟩ => ⟨S16x1024x32, .bf16⟩
  | .local _ .vmem, ⟨10, _⟩ => ⟨S16x16x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_274 : BitVec 32 := 0#32
  let v484 : BitVec 1 := Scalar.cmpi .eq arg0 c0_i32_274
  let v485 : BitVec 32 := Scalar.extui v484
  let c0_i32_275 : BitVec 32 := 0#32
  let v486 : BitVec 1 := Scalar.cmpi .ne v485 c0_i32_275
  v486

def k0_cond3 (i : grid0.Coords) : BitVec 1 :=
  let arg0 : BitVec 32 := BitVec.ofNat 32 (i 0).val
  let c0_i32_276 : BitVec 32 := 0#32
  let v487 : BitVec 1 := Scalar.cmpi .sgt arg0 c0_i32_276
  let v488 : BitVec 32 := Scalar.extui v487
  let c0_i32_277 : BitVec 32 := 0#32
  let v489 : BitVec 1 := Scalar.cmpi .ne v488 c0_i32_277
  v489

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S32_S1x32 : S32.ShapeCasts S1x32
  shapeCasts_S256_S1x256 : S256.ShapeCasts S1x256
  inb_S16x1024x128_S1x1024x128_0_0_0 : ∀ a, (![0, 0, 0] : Fin 3 → Nat) a + S1x1024x128.size a ≤ S16x1024x128.size a
  h_S1x1024x128 : 0 < S1x1024x128.numel
  shapeCasts_S1x1024x128_S1024x128 : S1x1024x128.ShapeCasts S1024x128
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S16x1024x32_S1x1024x32_0_0_0 : ∀ a, (![0, 0, 0] : Fin 3 → Nat) a + S1x1024x32.size a ≤ S16x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  packedbf16_S16x1024x32_S1x1024x32_0_0_0 : (Rect.unit (s := S16x1024x32) ![0, 0, 0] S1x1024x32.size inb_S16x1024x32_S1x1024x32_0_0_0).PackedRows (EltTy.packing .bf16)
  inb_S16x1024x128_S1x1024x128_1_0_0 : ∀ a, (![1, 0, 0] : Fin 3 → Nat) a + S1x1024x128.size a ≤ S16x1024x128.size a
  inb_S16x1024x32_S1x1024x32_1_0_0 : ∀ a, (![1, 0, 0] : Fin 3 → Nat) a + S1x1024x32.size a ≤ S16x1024x32.size a
  packedbf16_S16x1024x32_S1x1024x32_1_0_0 : (Rect.unit (s := S16x1024x32) ![1, 0, 0] S1x1024x32.size inb_S16x1024x32_S1x1024x32_1_0_0).PackedRows (EltTy.packing .bf16)
  inb_S16x1024x128_S1x1024x128_2_0_0 : ∀ a, (![2, 0, 0] : Fin 3 → Nat) a + S1x1024x128.size a ≤ S16x1024x128.size a
  inb_S16x1024x32_S1x1024x32_2_0_0 : ∀ a, (![2, 0, 0] : Fin 3 → Nat) a + S1x1024x32.size a ≤ S16x1024x32.size a
  packedbf16_S16x1024x32_S1x1024x32_2_0_0 : (Rect.unit (s := S16x1024x32) ![2, 0, 0] S1x1024x32.size inb_S16x1024x32_S1x1024x32_2_0_0).PackedRows (EltTy.packing .bf16)
  inb_S16x1024x128_S1x1024x128_3_0_0 : ∀ a, (![3, 0, 0] : Fin 3 → Nat) a + S1x1024x128.size a ≤ S16x1024x128.size a
  inb_S16x1024x32_S1x1024x32_3_0_0 : ∀ a, (![3, 0, 0] : Fin 3 → Nat) a + S1x1024x32.size a ≤ S16x1024x32.size a
  packedbf16_S16x1024x32_S1x1024x32_3_0_0 : (Rect.unit (s := S16x1024x32) ![3, 0, 0] S1x1024x32.size inb_S16x1024x32_S1x1024x32_3_0_0).PackedRows (EltTy.packing .bf16)
  inb_S16x1024x128_S1x1024x128_4_0_0 : ∀ a, (![4, 0, 0] : Fin 3 → Nat) a + S1x1024x128.size a ≤ S16x1024x128.size a
  inb_S16x1024x32_S1x1024x32_4_0_0 : ∀ a, (![4, 0, 0] : Fin 3 → Nat) a + S1x1024x32.size a ≤ S16x1024x32.size a
  packedbf16_S16x1024x32_S1x1024x32_4_0_0 : (Rect.unit (s := S16x1024x32) ![4, 0, 0] S1x1024x32.size inb_S16x1024x32_S1x1024x32_4_0_0).PackedRows (EltTy.packing .bf16)
  inb_S16x1024x128_S1x1024x128_5_0_0 : ∀ a, (![5, 0, 0] : Fin 3 → Nat) a + S1x1024x128.size a ≤ S16x1024x128.size a
  inb_S16x1024x32_S1x1024x32_5_0_0 : ∀ a, (![5, 0, 0] : Fin 3 → Nat) a + S1x1024x32.size a ≤ S16x1024x32.size a
  packedbf16_S16x1024x32_S1x1024x32_5_0_0 : (Rect.unit (s := S16x1024x32) ![5, 0, 0] S1x1024x32.size inb_S16x1024x32_S1x1024x32_5_0_0).PackedRows (EltTy.packing .bf16)
  inb_S16x1024x128_S1x1024x128_6_0_0 : ∀ a, (![6, 0, 0] : Fin 3 → Nat) a + S1x1024x128.size a ≤ S16x1024x128.size a
  inb_S16x1024x32_S1x1024x32_6_0_0 : ∀ a, (![6, 0, 0] : Fin 3 → Nat) a + S1x1024x32.size a ≤ S16x1024x32.size a
  packedbf16_S16x1024x32_S1x1024x32_6_0_0 : (Rect.unit (s := S16x1024x32) ![6, 0, 0] S1x1024x32.size inb_S16x1024x32_S1x1024x32_6_0_0).PackedRows (EltTy.packing .bf16)
  inb_S16x1024x128_S1x1024x128_7_0_0 : ∀ a, (![7, 0, 0] : Fin 3 → Nat) a + S1x1024x128.size a ≤ S16x1024x128.size a
  inb_S16x1024x32_S1x1024x32_7_0_0 : ∀ a, (![7, 0, 0] : Fin 3 → Nat) a + S1x1024x32.size a ≤ S16x1024x32.size a
  packedbf16_S16x1024x32_S1x1024x32_7_0_0 : (Rect.unit (s := S16x1024x32) ![7, 0, 0] S1x1024x32.size inb_S16x1024x32_S1x1024x32_7_0_0).PackedRows (EltTy.packing .bf16)
  inb_S16x1024x128_S1x1024x128_8_0_0 : ∀ a, (![8, 0, 0] : Fin 3 → Nat) a + S1x1024x128.size a ≤ S16x1024x128.size a
  inb_S16x1024x32_S1x1024x32_8_0_0 : ∀ a, (![8, 0, 0] : Fin 3 → Nat) a + S1x1024x32.size a ≤ S16x1024x32.size a
  packedbf16_S16x1024x32_S1x1024x32_8_0_0 : (Rect.unit (s := S16x1024x32) ![8, 0, 0] S1x1024x32.size inb_S16x1024x32_S1x1024x32_8_0_0).PackedRows (EltTy.packing .bf16)
  inb_S16x1024x128_S1x1024x128_9_0_0 : ∀ a, (![9, 0, 0] : Fin 3 → Nat) a + S1x1024x128.size a ≤ S16x1024x128.size a
  inb_S16x1024x32_S1x1024x32_9_0_0 : ∀ a, (![9, 0, 0] : Fin 3 → Nat) a + S1x1024x32.size a ≤ S16x1024x32.size a
  packedbf16_S16x1024x32_S1x1024x32_9_0_0 : (Rect.unit (s := S16x1024x32) ![9, 0, 0] S1x1024x32.size inb_S16x1024x32_S1x1024x32_9_0_0).PackedRows (EltTy.packing .bf16)
  inb_S16x1024x128_S1x1024x128_10_0_0 : ∀ a, (![10, 0, 0] : Fin 3 → Nat) a + S1x1024x128.size a ≤ S16x1024x128.size a
  inb_S16x1024x32_S1x1024x32_10_0_0 : ∀ a, (![10, 0, 0] : Fin 3 → Nat) a + S1x1024x32.size a ≤ S16x1024x32.size a
  packedbf16_S16x1024x32_S1x1024x32_10_0_0 : (Rect.unit (s := S16x1024x32) ![10, 0, 0] S1x1024x32.size inb_S16x1024x32_S1x1024x32_10_0_0).PackedRows (EltTy.packing .bf16)
  inb_S16x1024x128_S1x1024x128_11_0_0 : ∀ a, (![11, 0, 0] : Fin 3 → Nat) a + S1x1024x128.size a ≤ S16x1024x128.size a
  inb_S16x1024x32_S1x1024x32_11_0_0 : ∀ a, (![11, 0, 0] : Fin 3 → Nat) a + S1x1024x32.size a ≤ S16x1024x32.size a
  packedbf16_S16x1024x32_S1x1024x32_11_0_0 : (Rect.unit (s := S16x1024x32) ![11, 0, 0] S1x1024x32.size inb_S16x1024x32_S1x1024x32_11_0_0).PackedRows (EltTy.packing .bf16)
  inb_S16x1024x128_S1x1024x128_12_0_0 : ∀ a, (![12, 0, 0] : Fin 3 → Nat) a + S1x1024x128.size a ≤ S16x1024x128.size a
  inb_S16x1024x32_S1x1024x32_12_0_0 : ∀ a, (![12, 0, 0] : Fin 3 → Nat) a + S1x1024x32.size a ≤ S16x1024x32.size a
  packedbf16_S16x1024x32_S1x1024x32_12_0_0 : (Rect.unit (s := S16x1024x32) ![12, 0, 0] S1x1024x32.size inb_S16x1024x32_S1x1024x32_12_0_0).PackedRows (EltTy.packing .bf16)
  inb_S16x1024x128_S1x1024x128_13_0_0 : ∀ a, (![13, 0, 0] : Fin 3 → Nat) a + S1x1024x128.size a ≤ S16x1024x128.size a
  inb_S16x1024x32_S1x1024x32_13_0_0 : ∀ a, (![13, 0, 0] : Fin 3 → Nat) a + S1x1024x32.size a ≤ S16x1024x32.size a
  packedbf16_S16x1024x32_S1x1024x32_13_0_0 : (Rect.unit (s := S16x1024x32) ![13, 0, 0] S1x1024x32.size inb_S16x1024x32_S1x1024x32_13_0_0).PackedRows (EltTy.packing .bf16)
  inb_S16x1024x128_S1x1024x128_14_0_0 : ∀ a, (![14, 0, 0] : Fin 3 → Nat) a + S1x1024x128.size a ≤ S16x1024x128.size a
  inb_S16x1024x32_S1x1024x32_14_0_0 : ∀ a, (![14, 0, 0] : Fin 3 → Nat) a + S1x1024x32.size a ≤ S16x1024x32.size a
  packedbf16_S16x1024x32_S1x1024x32_14_0_0 : (Rect.unit (s := S16x1024x32) ![14, 0, 0] S1x1024x32.size inb_S16x1024x32_S1x1024x32_14_0_0).PackedRows (EltTy.packing .bf16)
  inb_S16x1024x128_S1x1024x128_15_0_0 : ∀ a, (![15, 0, 0] : Fin 3 → Nat) a + S1x1024x128.size a ≤ S16x1024x128.size a
  inb_S16x1024x32_S1x1024x32_15_0_0 : ∀ a, (![15, 0, 0] : Fin 3 → Nat) a + S1x1024x32.size a ≤ S16x1024x32.size a
  packedbf16_S16x1024x32_S1x1024x32_15_0_0 : (Rect.unit (s := S16x1024x32) ![15, 0, 0] S1x1024x32.size inb_S16x1024x32_S1x1024x32_15_0_0).PackedRows (EltTy.packing .bf16)
  inb_S16x64x1024_S1x64x1024_0_0_0 : ∀ a, (![0, 0, 0] : Fin 3 → Nat) a + S1x64x1024.size a ≤ S16x64x1024.size a
  h_S1x64x1024 : 0 < S1x64x1024.numel
  shapeCasts_S1x64x1024_S64x1024 : S1x64x1024.ShapeCasts S64x1024
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  shapeCasts_S64x32_S16x4x32 : S64x32.ShapeCasts S16x4x32
  slices_S16x4x32_o0_0_0_S16x1x32 : S16x4x32.Slices ![0, 0, 0] S16x1x32
  shapeCasts_S16x1x32_S16x32 : S16x1x32.ShapeCasts S16x32
  slices_S16x4x32_o0_1_0_S16x1x32 : S16x4x32.Slices ![0, 1, 0] S16x1x32
  slices_S16x4x32_o0_2_0_S16x1x32 : S16x4x32.Slices ![0, 2, 0] S16x1x32
  slices_S16x4x32_o0_3_0_S16x1x32 : S16x4x32.Slices ![0, 3, 0] S16x1x32
  concatenates_S16x32_S16x32_S16x32_S16x32_S16x128_d1 : Shape.Concatenates [S16x32, S16x32, S16x32, S16x32] S16x128 1
  inb_S16x16x128_S1x16x128_0_0_0 : ∀ a, (![0, 0, 0] : Fin 3 → Nat) a + S1x16x128.size a ≤ S16x16x128.size a
  h_S1x16x128 : 0 < S1x16x128.numel
  shapeCasts_S1x16x128_S16x128 : S1x16x128.ShapeCasts S16x128
  shapeCasts_S16x128_S1x16x128 : S16x128.ShapeCasts S1x16x128
  inb_S16x64x1024_S1x64x1024_1_0_0 : ∀ a, (![1, 0, 0] : Fin 3 → Nat) a + S1x64x1024.size a ≤ S16x64x1024.size a
  inb_S16x16x128_S1x16x128_1_0_0 : ∀ a, (![1, 0, 0] : Fin 3 → Nat) a + S1x16x128.size a ≤ S16x16x128.size a
  inb_S16x64x1024_S1x64x1024_2_0_0 : ∀ a, (![2, 0, 0] : Fin 3 → Nat) a + S1x64x1024.size a ≤ S16x64x1024.size a
  inb_S16x16x128_S1x16x128_2_0_0 : ∀ a, (![2, 0, 0] : Fin 3 → Nat) a + S1x16x128.size a ≤ S16x16x128.size a
  inb_S16x64x1024_S1x64x1024_3_0_0 : ∀ a, (![3, 0, 0] : Fin 3 → Nat) a + S1x64x1024.size a ≤ S16x64x1024.size a
  inb_S16x16x128_S1x16x128_3_0_0 : ∀ a, (![3, 0, 0] : Fin 3 → Nat) a + S1x16x128.size a ≤ S16x16x128.size a
  inb_S16x64x1024_S1x64x1024_4_0_0 : ∀ a, (![4, 0, 0] : Fin 3 → Nat) a + S1x64x1024.size a ≤ S16x64x1024.size a
  inb_S16x16x128_S1x16x128_4_0_0 : ∀ a, (![4, 0, 0] : Fin 3 → Nat) a + S1x16x128.size a ≤ S16x16x128.size a
  inb_S16x64x1024_S1x64x1024_5_0_0 : ∀ a, (![5, 0, 0] : Fin 3 → Nat) a + S1x64x1024.size a ≤ S16x64x1024.size a
  inb_S16x16x128_S1x16x128_5_0_0 : ∀ a, (![5, 0, 0] : Fin 3 → Nat) a + S1x16x128.size a ≤ S16x16x128.size a
  inb_S16x64x1024_S1x64x1024_6_0_0 : ∀ a, (![6, 0, 0] : Fin 3 → Nat) a + S1x64x1024.size a ≤ S16x64x1024.size a
  inb_S16x16x128_S1x16x128_6_0_0 : ∀ a, (![6, 0, 0] : Fin 3 → Nat) a + S1x16x128.size a ≤ S16x16x128.size a
  inb_S16x64x1024_S1x64x1024_7_0_0 : ∀ a, (![7, 0, 0] : Fin 3 → Nat) a + S1x64x1024.size a ≤ S16x64x1024.size a
  inb_S16x16x128_S1x16x128_7_0_0 : ∀ a, (![7, 0, 0] : Fin 3 → Nat) a + S1x16x128.size a ≤ S16x16x128.size a
  inb_S16x64x1024_S1x64x1024_8_0_0 : ∀ a, (![8, 0, 0] : Fin 3 → Nat) a + S1x64x1024.size a ≤ S16x64x1024.size a
  inb_S16x16x128_S1x16x128_8_0_0 : ∀ a, (![8, 0, 0] : Fin 3 → Nat) a + S1x16x128.size a ≤ S16x16x128.size a
  inb_S16x64x1024_S1x64x1024_9_0_0 : ∀ a, (![9, 0, 0] : Fin 3 → Nat) a + S1x64x1024.size a ≤ S16x64x1024.size a
  inb_S16x16x128_S1x16x128_9_0_0 : ∀ a, (![9, 0, 0] : Fin 3 → Nat) a + S1x16x128.size a ≤ S16x16x128.size a
  inb_S16x64x1024_S1x64x1024_10_0_0 : ∀ a, (![10, 0, 0] : Fin 3 → Nat) a + S1x64x1024.size a ≤ S16x64x1024.size a
  inb_S16x16x128_S1x16x128_10_0_0 : ∀ a, (![10, 0, 0] : Fin 3 → Nat) a + S1x16x128.size a ≤ S16x16x128.size a
  inb_S16x64x1024_S1x64x1024_11_0_0 : ∀ a, (![11, 0, 0] : Fin 3 → Nat) a + S1x64x1024.size a ≤ S16x64x1024.size a
  inb_S16x16x128_S1x16x128_11_0_0 : ∀ a, (![11, 0, 0] : Fin 3 → Nat) a + S1x16x128.size a ≤ S16x16x128.size a
  inb_S16x64x1024_S1x64x1024_12_0_0 : ∀ a, (![12, 0, 0] : Fin 3 → Nat) a + S1x64x1024.size a ≤ S16x64x1024.size a
  inb_S16x16x128_S1x16x128_12_0_0 : ∀ a, (![12, 0, 0] : Fin 3 → Nat) a + S1x16x128.size a ≤ S16x16x128.size a
  inb_S16x64x1024_S1x64x1024_13_0_0 : ∀ a, (![13, 0, 0] : Fin 3 → Nat) a + S1x64x1024.size a ≤ S16x64x1024.size a
  inb_S16x16x128_S1x16x128_13_0_0 : ∀ a, (![13, 0, 0] : Fin 3 → Nat) a + S1x16x128.size a ≤ S16x16x128.size a
  inb_S16x64x1024_S1x64x1024_14_0_0 : ∀ a, (![14, 0, 0] : Fin 3 → Nat) a + S1x64x1024.size a ≤ S16x64x1024.size a
  inb_S16x16x128_S1x16x128_14_0_0 : ∀ a, (![14, 0, 0] : Fin 3 → Nat) a + S1x16x128.size a ≤ S16x16x128.size a
  inb_S16x64x1024_S1x64x1024_15_0_0 : ∀ a, (![15, 0, 0] : Fin 3 → Nat) a + S1x64x1024.size a ≤ S16x64x1024.size a
  inb_S16x16x128_S1x16x128_15_0_0 : ∀ a, (![15, 0, 0] : Fin 3 → Nat) a + S1x16x128.size a ≤ S16x16x128.size a
  inb_S16x16x128_S16x1x128_0_0_0 : ∀ a, (![0, 0, 0] : Fin 3 → Nat) a + S16x1x128.size a ≤ S16x16x128.size a
  h_S16x1x128 : 0 < S16x1x128.numel
  shapeCasts_S16x1x128_S16x128 : S16x1x128.ShapeCasts S16x128
  inb_S2048x256_S128x256_0_0 : ∀ a, (![0, 0] : Fin 2 → Nat) a + S128x256.size a ≤ S2048x256.size a
  h_S128x256 : 0 < S128x256.numel
  inb_S16x16x128_S16x1x128_0_1_0 : ∀ a, (![0, 1, 0] : Fin 3 → Nat) a + S16x1x128.size a ≤ S16x16x128.size a
  inb_S2048x256_S128x256_128_0 : ∀ a, (![128, 0] : Fin 2 → Nat) a + S128x256.size a ≤ S2048x256.size a
  inb_S16x16x128_S16x1x128_0_2_0 : ∀ a, (![0, 2, 0] : Fin 3 → Nat) a + S16x1x128.size a ≤ S16x16x128.size a
  inb_S2048x256_S128x256_256_0 : ∀ a, (![256, 0] : Fin 2 → Nat) a + S128x256.size a ≤ S2048x256.size a
  inb_S16x16x128_S16x1x128_0_3_0 : ∀ a, (![0, 3, 0] : Fin 3 → Nat) a + S16x1x128.size a ≤ S16x16x128.size a
  inb_S2048x256_S128x256_384_0 : ∀ a, (![384, 0] : Fin 2 → Nat) a + S128x256.size a ≤ S2048x256.size a
  inb_S16x16x128_S16x1x128_0_4_0 : ∀ a, (![0, 4, 0] : Fin 3 → Nat) a + S16x1x128.size a ≤ S16x16x128.size a
  inb_S2048x256_S128x256_512_0 : ∀ a, (![512, 0] : Fin 2 → Nat) a + S128x256.size a ≤ S2048x256.size a
  inb_S16x16x128_S16x1x128_0_5_0 : ∀ a, (![0, 5, 0] : Fin 3 → Nat) a + S16x1x128.size a ≤ S16x16x128.size a
  inb_S2048x256_S128x256_640_0 : ∀ a, (![640, 0] : Fin 2 → Nat) a + S128x256.size a ≤ S2048x256.size a
  inb_S16x16x128_S16x1x128_0_6_0 : ∀ a, (![0, 6, 0] : Fin 3 → Nat) a + S16x1x128.size a ≤ S16x16x128.size a
  inb_S2048x256_S128x256_768_0 : ∀ a, (![768, 0] : Fin 2 → Nat) a + S128x256.size a ≤ S2048x256.size a
  inb_S16x16x128_S16x1x128_0_7_0 : ∀ a, (![0, 7, 0] : Fin 3 → Nat) a + S16x1x128.size a ≤ S16x16x128.size a
  inb_S2048x256_S128x256_896_0 : ∀ a, (![896, 0] : Fin 2 → Nat) a + S128x256.size a ≤ S2048x256.size a
  inb_S16x16x128_S16x1x128_0_8_0 : ∀ a, (![0, 8, 0] : Fin 3 → Nat) a + S16x1x128.size a ≤ S16x16x128.size a
  inb_S2048x256_S128x256_1024_0 : ∀ a, (![1024, 0] : Fin 2 → Nat) a + S128x256.size a ≤ S2048x256.size a
  inb_S16x16x128_S16x1x128_0_9_0 : ∀ a, (![0, 9, 0] : Fin 3 → Nat) a + S16x1x128.size a ≤ S16x16x128.size a
  inb_S2048x256_S128x256_1152_0 : ∀ a, (![1152, 0] : Fin 2 → Nat) a + S128x256.size a ≤ S2048x256.size a
  inb_S16x16x128_S16x1x128_0_10_0 : ∀ a, (![0, 10, 0] : Fin 3 → Nat) a + S16x1x128.size a ≤ S16x16x128.size a
  inb_S2048x256_S128x256_1280_0 : ∀ a, (![1280, 0] : Fin 2 → Nat) a + S128x256.size a ≤ S2048x256.size a
  inb_S16x16x128_S16x1x128_0_11_0 : ∀ a, (![0, 11, 0] : Fin 3 → Nat) a + S16x1x128.size a ≤ S16x16x128.size a
  inb_S2048x256_S128x256_1408_0 : ∀ a, (![1408, 0] : Fin 2 → Nat) a + S128x256.size a ≤ S2048x256.size a
  inb_S16x16x128_S16x1x128_0_12_0 : ∀ a, (![0, 12, 0] : Fin 3 → Nat) a + S16x1x128.size a ≤ S16x16x128.size a
  inb_S2048x256_S128x256_1536_0 : ∀ a, (![1536, 0] : Fin 2 → Nat) a + S128x256.size a ≤ S2048x256.size a
  inb_S16x16x128_S16x1x128_0_13_0 : ∀ a, (![0, 13, 0] : Fin 3 → Nat) a + S16x1x128.size a ≤ S16x16x128.size a
  inb_S2048x256_S128x256_1664_0 : ∀ a, (![1664, 0] : Fin 2 → Nat) a + S128x256.size a ≤ S2048x256.size a
  inb_S16x16x128_S16x1x128_0_14_0 : ∀ a, (![0, 14, 0] : Fin 3 → Nat) a + S16x1x128.size a ≤ S16x16x128.size a
  inb_S2048x256_S128x256_1792_0 : ∀ a, (![1792, 0] : Fin 2 → Nat) a + S128x256.size a ≤ S2048x256.size a
  inb_S16x16x128_S16x1x128_0_15_0 : ∀ a, (![0, 15, 0] : Fin 3 → Nat) a + S16x1x128.size a ≤ S16x16x128.size a
  inb_S2048x256_S128x256_1920_0 : ∀ a, (![1920, 0] : Fin 2 → Nat) a + S128x256.size a ≤ S2048x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  dot_S1024x128_S128x32_S1024x32_1_0_0_1_n_n_wf : DotDims.WF S1024x128 S128x32 S1024x32 [1] [0] [0] [1] [] []
  dot_S64x1024_S1024x32_S64x32_1_0_0_1_n_n_wf : DotDims.WF S64x1024 S1024x32 S64x32 [1] [0] [0] [1] [] []
  dot_S16x128_S128x256_S16x256_1_0_0_1_n_n_wf : DotDims.WF S16x128 S128x256 S16x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S16x1024x128.size a
  hwx0_0 : ∀ i : grid0.Coords, EltTy.bits .f32 = 32 ∨ (Rect.block (s := S16x1024x128) S16x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S16x1024x1024.size a
  hwx0_3 : ∀ i : grid0.Coords, EltTy.bits .f32 = 32 ∨ (Rect.block (s := S16x1024x1024) S16x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S32768x256.size a
  hwx0_4 : ∀ i : grid0.Coords, EltTy.bits .f32 = 32 ∨ (Rect.block (s := S32768x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S64x1024_S1024x32_S64x32_1_0_0_1_n_n : DotDims S64x1024 S1024x32 S64x32 where
  lhsContracting := [1]
  rhsContracting := [0]
  lhsNonContracting := [0]
  rhsNonContracting := [1]
  lhsBatch := []
  rhsBatch := []
  wf := dot_S64x1024_S1024x32_S64x32_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

abbrev win0_0 : Pipeline.Window sig grid0 :=
  Pipeline.Window.ofSpec (Memref.whole main_arg0) S16x1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x32 : Shape := ⟨2, ![128, 32]⟩
abbrev S32 : Shape := ⟨1, ![32]⟩
abbrev S32768x256 : Shape := ⟨2, ![32768, 256]⟩
abbrev S256 : Shape := ⟨1, ![256]⟩
abbrev S16x1024x32 : Shape := ⟨3, ![16, 1024, 32]⟩
abbrev S1x1x32 : Shape := ⟨3, ![1, 1, 32]⟩
abbrev S16x32768 : Shape := ⟨2, ![16, 32768]⟩
abbrev S_ : Shape := ⟨0, ![]⟩
abbrev S16x256 : Shape := ⟨2, ![16, 256]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x32, .f32⟩
  | .hbm, ⟨3, _⟩ => ⟨S32, .f32⟩
  | .hbm, ⟨4, _⟩ => ⟨S32768x256, .f32⟩
  | .hbm, ⟨5, _⟩ => ⟨S256, .f32⟩
  | .hbm, ⟨6, _⟩ => ⟨S16x1024x32, .f32⟩
  | .hbm, ⟨7, _⟩ => ⟨S16x1024x32, .f32⟩
  | .hbm, ⟨8, _⟩ => ⟨S1x1x32, .f32⟩
  | .hbm, ⟨9, _⟩ => ⟨S16x1024x32, .f32⟩
  | .hbm, ⟨10, _⟩ => ⟨S16x1024x32, .f32⟩
  | .hbm, ⟨11, _⟩ => ⟨S16x32768, .f32⟩
  | .hbm, ⟨12, _⟩ => ⟨S_, .f32⟩
  | .hbm, ⟨13, _⟩ => ⟨S16x32768, .f32⟩
  | .hbm, ⟨14, _⟩ => ⟨S16x32768, .f32⟩
  | .hbm, ⟨15, _⟩ => ⟨S16x256, .f32⟩
  | .hbm, ⟨16, _⟩ => ⟨S1x256, .f32⟩
  | .hbm, ⟨17, _⟩ => ⟨S16x256, .f32⟩
  | .hbm, ⟨18, _⟩ => ⟨S16x256, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x1024x32_0_1_2 : S1x1x32.BroadcastsInDim S16x1024x32 (![0, 1, 2] : Fin 3 → Fin S16x1024x32.rank)
  shapeCasts_S16x1024x32_S16x32768 : S16x1024x32.ShapeCasts S16x32768
  bcast_S_S16x32768 : S_.BroadcastsInDim S16x32768 (![] : Fin 0 → Fin S16x32768.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  dot_S16x1024x128_S128x32_S16x1024x32_2_0_01_1_n_n_wf : DotDims.WF S16x1024x128 S128x32 S16x1024x32 [2] [0] [0, 1] [1] [] []
  dot_S16x1024x1024_S16x1024x32_S16x1024x32_2_1_1_2_0_0_wf : DotDims.WF S16x1024x1024 S16x1024x32 S16x1024x32 [2] [1] [1] [2] [0] [0]
  dot_S16x32768_S32768x256_S16x256_1_0_0_1_n_n_wf : DotDims.WF S16x32768 S32768x256 S16x256 [1] [0] [0] [1] [] []

variable [Facts₀]

def dot_S16x1024x128_S128x32_S16x1024x32_2_0_01_1_n_n : DotDims S16x1024x128 S128x32 S16x1024x32 where
  lhsContracting := [2]
  rhsContracting := [0]
  lhsNonContracting := [0, 1]
  rhsNonContracting := [1]
  lhsBatch := []
  rhsBatch := []
  wf := dot_S16x1024x128_S128x32_S16x1024x32_2_0_01_1_n_n_wf
def dot_S16x1024x1024_S16x1024x32_S16x1024x32_2_1_1_2_0_0 : DotDims S16x1024x1024 S16x1024x32 S16x1024x32 where
  lhsContracting := [2]
  rhsContracting := [1]
  lhsNonContracting := [1]
  rhsNonContracting := [2]
  lhsBatch := [0]
  rhsBatch := [0]
  wf := dot_S16x1024x1024_S16x1024x32_S16x1024x32_2_1_1_2_0_0_wf
def dot_S16x32768_S32768x256_S16x256_1_0_0_1_n_n : DotDims S16x32768 S32768x256 S16x256 where
  lhsContracting := [1]
  rhsContracting := [0]
  lhsNonContracting := [0]
  rhsNonContracting := [1]
  lhsBatch := []
  rhsBatch := []
  wf := dot_S16x32768_S32768x256_S16x256_1_0_0_1_n_n_wf

class Facts : Prop extends Facts₀ where

variable [Facts]
-- ==== Proof.BitsBodyShared.lean ====
/-
  What the two runs of the kernel body share.  The grid has sixteen points.  The body has three conditionals on the
  grid coordinate: the first two are taken exactly at point 0 (there the support x·W is computed into the first scratch,
  and the output block is initialised with the bias), the third exactly at points 1..15 (there the output block is
  added to).  Here: those conditions in closed form, the fact that no window is ever idle (the output window's idle
  table is "neither the second nor the third conditional is taken", which happens at no coordinate), the staging
  memrefs the body is called with at a point, the two scratch memrefs, and the region invariant spelt out over them.
-/
import proofs.«148299_g69045894250503_cont_sun_m_1325_18_alg».proof.Proof.Gen.Kernel.Frame
import proofs.«148299_g69045894250503_cont_sun_m_1325_18_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, decided over the grid -/

/-- The first conditional's condition (the support is computed), from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the output is initialised). -/
abbrev cond0_1 (i : grid0.Coords) : Prop := k0_cond2 i = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- The third conditional's condition (the output is added to). -/
abbrev cond0_2 (i : grid0.Coords) : Prop := k0_cond3 i = 1#1
theorem hcond0_2 : ∀ t : Fin cfg0.N, cond0_2 (grid0.coords t) ↔ 1 ≤ t.val :=
  (by decide +kernel : ∀ t : Fin grid0.N, cond0_2 (grid0.coords t) ↔ 1 ≤ t.val)

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window: at every point one of the two conditionals that store into it is taken. -/
theorem liveAt0_6 : ∀ t : Fin cfg0.N, cfg0.idle 6 (grid0.coords t) = false := by decide +kernel
/-- The same at every coordinate vector of the grid. -/
theorem live6 : ∀ i : grid0.Coords, cfg0.idle 6 i = false := by decide +kernel

/-! ## The memrefs the body is called with -/

abbrev ms0_0 (t : Fin cfg0.N) : Memref sig .tc .vmem S16x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x256 .f32 := win0_6.stage (cfg0.slots t 6)
abbrev hs0_6 (t : Fin cfg0.N) : (ms0_6 t).IsWhole := hstage0_6 ((cfg0.slots t 6).cast nbuf0_6)
/-- The scratch operands: the support x·W (carried from point 0 to every later point) and the packed activations. -/
abbrev scM0_0 : Memref sig .tc .vmem S16x1024x32 .bf16 := Memref.whole cc0_scratch0
abbrev scM0_1 : Memref sig .tc .vmem S16x16x128 .f32 := Memref.whole cc0_scratch1
/-- The support scratch and the output's staging buffer as views: what they hold is stated through these. -/
abbrev VS0_0 : View sig .tc .vmem S16x1024x32 .bf16 := scM0_0.view
abbrev VO0_6 : View sig .tc .vmem S16x256 .f32 := (Memref.whole cc0_stg6_0 : Memref sig .tc .vmem S16x256 .f32).view

/-- The region invariant of the launch with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BitsBodyFirst.lean ====
/-
  The kernel body at grid point 0, run once symbolically on arbitrary whole staging memrefs.  At this point the body
  first fills the support scratch (sixteen stores, one per sample: x[b]·W), then fills the packed-activation scratch
  from the network block and the support, forms the sixteen partial products against the weight block, and stores
  their sum plus the bias over the whole output block.  The run's witness is the list of pieces written into the
  output block and the list written into the support scratch; the packed-activation scratch is handed back at some
  contents, which nothing reads at a later point before overwriting.
-/
import proofs.«148299_g69045894250503_cont_sun_m_1325_18_alg».proof.Proof.BitsBodyShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1052000 in
noncomputable def runFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) :
    Σ' (L6 : List (View.Piece (Elt F) S16x256 .f32)), { LS0 : List (View.Piece (Elt F) S16x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _, _; isplitr; swap; · iexact HS1
    ipureintro; rfl

end Cert.Kernel.Hand

end
-- ==== Proof.BitsBodyLater.lean ====
/-
  The kernel body at a grid point after the first, run once symbolically on arbitrary whole staging memrefs.  Here the
  support scratch is only read (it holds what point 0 left, `xs0`) and is handed back untouched; the output block is
  read at what the point before left (`xo6`) and stored back whole as that plus this point's sum of partial products.
  The run's witness is the list of pieces written into the output block.
-/
import proofs.«148299_g69045894250503_cont_sun_m_1325_18_alg».proof.Proof.BitsBodyShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1052000 in
noncomputable def runLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) :
    { L6 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _, _; isplitr; swap; · iexact HS1
    ipureintro; rfl

end Cert.Kernel.Hand

end
-- ==== Proof.BitsFrame.lean ====
/-
  The frame of the kernel program as printed, and with it what the output block holds after every grid point.

  The pipeline runs the body at sixteen points.  Two buffers carry values from one point to the next: the support
  scratch (filled at point 0, read at every point) and the output's staging block (initialised at point 0, added to at
  every later point, written back to the result array after the last point only).  `carried` names both, by recursion
  on the point: at point 0 what the first run's stores leave; at point n+1 the later run's stores over the output
  block as point n left it, the support unchanged.  The proof data say: every input window's buffer holds its block;
  the output window's buffer holds `carried`'s first component; the region invariant holds the support scratch at
  `carried`'s second component from point 1 on.  The body obligation at a point is the matching run.
-/
import proofs.«148299_g69045894250503_cont_sun_m_1325_18_alg».proof.Proof.BitsBodyFirst
import proofs.«148299_g69045894250503_cont_sun_m_1325_18_alg».proof.Proof.BitsBodyLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first run's pieces for the support scratch tile it: sixteen slabs, one per sample. -/
theorem supCover (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (y : S16x1024x32.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5).2.1 S1x1024x32.size (by sl_kernel_rfl) y

/-- The first run's one piece for the output block is the whole block. -/
theorem outCoverFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (y : S16x256.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5).1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5).1 S16x256.size (by sl_kernel_rfl) y

/-- The later run's one piece for the output block is the whole block. -/
theorem outCoverLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) (y : S16x256.Idx) :
    ∃ pc ∈ (runLater c i arg1 harg1 arg2 harg2 arg3 harg3 arg4 harg4 arg5 harg5 arg6 harg6 arg7 harg7 arg8 harg8 arg9 harg9 hc0 hc1 hc2 x0 x1 x2 x3 x4 x5 xo6 xs0).1, y ∈ pc.1.set :=
  View.cover_of_tiledL (runLater c i arg1 harg1 arg2 harg2 arg3 harg3 arg4 harg4 arg5 harg5 arg6 harg6 arg7 harg7 arg8 harg8 arg9 harg9 hc0 hc1 hc2 x0 x1 x2 x3 x4 x5 xo6 xs0).1 S16x256.size (by sl_kernel_rfl) y

/-- The support scratch after point 0: the first run's pieces read back. -/
def supFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) : Vec F S16x1024x32 .bf16 :=
  VS0_0.read (Elt F) (VS0_0.writes (Elt F) VS0_0.junk (runFirst c i arg1 harg1 arg2 harg2 arg3 harg3 arg4 harg4 arg5 harg5 arg6 harg6 arg7 harg7 arg8 harg8 arg9 harg9 hc0 hc1 hc2 x0 x1 x2 x3 x4 x5).2.1)

/-- The output block after point 0. -/
def outFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) : Vec F S16x256 .f32 :=
  VO0_6.read (Elt F) (VO0_6.writes (Elt F) VO0_6.junk (runFirst c i arg1 harg1 arg2 harg2 arg3 harg3 arg4 harg4 arg5 harg5 arg6 harg6 arg7 harg7 arg8 harg8 arg9 harg9 hc0 hc1 hc2 x0 x1 x2 x3 x4 x5).1)

/-- The output block after a later point, over what the point before left in it and in the support scratch. -/
def outLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) : Vec F S16x256 .f32 :=
  VO0_6.read (Elt F) (VO0_6.writes (Elt F) VO0_6.junk (runLater c i arg1 harg1 arg2 harg2 arg3 harg3 arg4 harg4 arg5 harg5 arg6 harg6 arg7 harg7 arg8 harg8 arg9 harg9 hc0 hc1 hc2 x0 x1 x2 x3 x4 x5 xo6 xs0).1)

/-! ## What is carried from point to point -/

theorem lt16 {n : ℕ} (hn : n < cfg0.N) : n < 16 := lt_of_lt_of_eq hn (show cfg0.N = 16 from N_0)

/-- The output block and the support scratch after the body at position `n`. -/
def carried (c : Dev nD) : (n : ℕ) → n < cfg0.N → Vec F S16x256 .f32 × Vec F S16x1024x32 .bf16
  | 0, hn =>
    (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => absurd ((hcond0_2 ⟨0, hn⟩).mp h) (Nat.not_succ_le_zero 0)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
     supFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => absurd ((hcond0_2 ⟨0, hn⟩).mp h) (Nat.not_succ_le_zero 0)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    (outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => absurd ((hcond0_0 ⟨n + 1, hn⟩).mp h) (by have := lt16 hn; dsimp only; omega)) (fun h => absurd ((hcond0_1 ⟨n + 1, hn⟩).mp h) (by have := lt16 hn; dsimp only; omega)) ((hcond0_2 ⟨n + 1, hn⟩).mpr (Nat.succ_le_succ (Nat.zero_le n))) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (carried c n (Nat.lt_of_succ_lt hn)).1 (carried c n (Nat.lt_of_succ_lt hn)).2,
     (carried c n (Nat.lt_of_succ_lt hn)).2)

/-- `carried` at point 0. -/
theorem carried_first (c : Dev nD) (t : Fin cfg0.N) (h0 : t.val = 0) (hc0 : cond0_0 (grid0.coords t)) (hc1 : cond0_1 (grid0.coords t)) (hc2 : ¬cond0_2 (grid0.coords t)) :
    carried m c t.val t.isLt = (outFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t),
      supFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t)) := by
  obtain ⟨n, hn⟩ := t
  cases n with
  | zero => rfl
  | succ n => exact absurd h0 (Nat.succ_ne_zero n)

/-- `carried` at a later point, over the point before. -/
theorem carried_later (c : Dev nD) (t : Fin cfg0.N) (h0 : t.val ≠ 0) (hc0 : ¬cond0_0 (grid0.coords t)) (hc1 : ¬cond0_1 (grid0.coords t)) (hc2 : cond0_2 (grid0.coords t)) :
    carried m c t.val t.isLt = (outLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) (carried m c (t.val - 1) (Nat.lt_of_le_of_lt (Nat.sub_le _ _) t.isLt)).1 (carried m c (t.val - 1) (Nat.lt_of_le_of_lt (Nat.sub_le _ _) t.isLt)).2,
      (carried m c (t.val - 1) (Nat.lt_of_le_of_lt (Nat.sub_le _ _) t.isLt)).2) := by
  obtain ⟨n, hn⟩ := t
  cases n with
  | zero => exact absurd rfl h0
  | succ n => rfl

/-- The region invariant before position `n`: before the first point every scratch at anything; afterwards the support
    scratch at what the point before left, the other scratch at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((carried m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((carried m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((carried m c (n - 1) (by omega)).2) ∗ (∃ d, owns (c : Thread nD τ) scM0_1 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (carried m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (carried m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later point the output's staging block holds what the body left at the point before: the block is written
    back only after the last point, and the window is live and uncut. -/
theorem before0_6_later (c : Dev nD) (t : Fin cfg0.N) (h0 : t.val ≠ 0) (d) :
    (dats m 0 c).before 6 t d = (carried m c (t.val - 1) (Nat.lt_of_le_of_lt (Nat.sub_le _ _) t.isLt)).1 := by
  have hN : t.val < 16 := lt16 t.isLt
  rw [Dat.before_out_kept _ 6 rfl t h0 (Bool.eq_false_iff.mpr fun h => by have := (flush0_6 _).mp h; dsimp only at this; omega)
    live6 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt16 t.isLt
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hz : t.val = 0
  · have hc0 : cond0_0 (grid0.coords t) := (hcond0_0 t).mpr (by omega)
    have hc1 : cond0_1 (grid0.coords t) := (hcond0_1 t).mpr (by omega)
    have hc2 : ¬cond0_2 (grid0.coords t) := fun h => by have := (hcond0_2 t).mp h; omega
    rw [carried_first m c t hz hc0 hc1 hc2]
    dsimp only
    unfold outFirst supFirst
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ _ _ hc0 hc1 hc2 (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, ⟨%es0, HS0⟩, HS1⟩
    isplitl [HS0 HS1 Hg]
    · isplitl [HS0 HS1]
      · isplitl [HS0]
        · unfold owns; iexists _; isplitr
          swap; · iexact HS0
          ipureintro; exact View.read_writes_of_cover _ _ _ _ _ (supCover c _ _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (outCoverFirst c _ _ _ _ _ _ _ _ _ _ _ _ _ _ _ _ _ _ _ _ _ _ _ _ _ _ _ _)
  · have hc0 : ¬cond0_0 (grid0.coords t) := fun h => by have := (hcond0_0 t).mp h; omega
    have hc1 : ¬cond0_1 (grid0.coords t) := fun h => by have := (hcond0_1 t).mp h; omega
    have hc2 : cond0_2 (grid0.coords t) := (hcond0_2 t).mpr (by omega)
    rw [carried_later m c t hz hc0 hc1 hc2]
    dsimp only
    simp only [before0_6_later m c t hz]
    unfold outLater
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (outCoverLater c _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- Every weakly fair execution of the program terminates, every array of the pipeline ends at what the proof data
    compute (the result array at what the write-back after the last point put there), every other buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealBodyShared.lean ====
/-
  What the two runs of the kernel body share.  The grid has sixteen points.  The body has three conditionals on the
  grid coordinate: the first two are taken exactly at point 0 (there the support x·W is computed into the first scratch,
  and the output block is initialised with the bias), the third exactly at points 1..15 (there the output block is
  added to).  Here: those conditions in closed form, the fact that no window is ever idle (the output window's idle
  table is "neither the second nor the third conditional is taken", which happens at no coordinate), the staging
  memrefs the body is called with at a point, the two scratch memrefs, and the region invariant spelt out over them.
-/
import proofs.«148299_g69045894250503_cont_sun_m_1325_18_alg».proof.Proof.Gen.KernelIdeal.Frame
import proofs.«148299_g69045894250503_cont_sun_m_1325_18_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, decided over the grid -/

/-- The first conditional's condition (the support is computed), from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the output is initialised). -/
abbrev cond0_1 (i : grid0.Coords) : Prop := k0_cond2 i = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- The third conditional's condition (the output is added to). -/
abbrev cond0_2 (i : grid0.Coords) : Prop := k0_cond3 i = 1#1
theorem hcond0_2 : ∀ t : Fin cfg0.N, cond0_2 (grid0.coords t) ↔ 1 ≤ t.val :=
  (by decide +kernel : ∀ t : Fin grid0.N, cond0_2 (grid0.coords t) ↔ 1 ≤ t.val)

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window: at every point one of the two conditionals that store into it is taken. -/
theorem liveAt0_6 : ∀ t : Fin cfg0.N, cfg0.idle 6 (grid0.coords t) = false := by decide +kernel
/-- The same at every coordinate vector of the grid. -/
theorem live6 : ∀ i : grid0.Coords, cfg0.idle 6 i = false := by decide +kernel

/-! ## The memrefs the body is called with -/

abbrev ms0_0 (t : Fin cfg0.N) : Memref sig .tc .vmem S16x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x256 .f32 := win0_6.stage (cfg0.slots t 6)
abbrev hs0_6 (t : Fin cfg0.N) : (ms0_6 t).IsWhole := hstage0_6 ((cfg0.slots t 6).cast nbuf0_6)
/-- The scratch operands: the support x·W (carried from point 0 to every later point) and the packed activations. -/
abbrev scM0_0 : Memref sig .tc .vmem S16x1024x32 .bf16 := Memref.whole cc0_scratch0
abbrev scM0_1 : Memref sig .tc .vmem S16x16x128 .f32 := Memref.whole cc0_scratch1
/-- The support scratch and the output's staging buffer as views: what they hold is stated through these. -/
abbrev VS0_0 : View sig .tc .vmem S16x1024x32 .bf16 := scM0_0.view
abbrev VO0_6 : View sig .tc .vmem S16x256 .f32 := (Memref.whole cc0_stg6_0 : Memref sig .tc .vmem S16x256 .f32).view

/-- The region invariant of the launch with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.IdealBodyFirst.lean ====
/-
  The kernel body at grid point 0, run once symbolically on arbitrary whole staging memrefs.  At this point the body
  first fills the support scratch (sixteen stores, one per sample: x[b]·W), then fills the packed-activation scratch
  from the network block and the support, forms the sixteen partial products against the weight block, and stores
  their sum plus the bias over the whole output block.  The run's witness is the list of pieces written into the
  output block and the list written into the support scratch; the packed-activation scratch is handed back at some
  contents, which nothing reads at a later point before overwriting.
-/
import proofs.«148299_g69045894250503_cont_sun_m_1325_18_alg».proof.Proof.IdealBodyShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1052000 in
noncomputable def runFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) :
    Σ' (L6 : List (View.Piece (Elt F) S16x256 .f32)), { LS0 : List (View.Piece (Elt F) S16x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _, _; isplitr; swap; · iexact HS1
    ipureintro; rfl

end Cert.KernelIdeal.Hand

end
-- ==== Proof.IdealBodyLater.lean ====
/-
  The kernel body at a grid point after the first, run once symbolically on arbitrary whole staging memrefs.  Here the
  support scratch is only read (it holds what point 0 left, `xs0`) and is handed back untouched; the output block is
  read at what the point before left (`xo6`) and stored back whole as that plus this point's sum of partial products.
  The run's witness is the list of pieces written into the output block.
-/
import proofs.«148299_g69045894250503_cont_sun_m_1325_18_alg».proof.Proof.IdealBodyShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1052000 in
noncomputable def runLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) :
    { L6 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _, _; isplitr; swap; · iexact HS1
    ipureintro; rfl

end Cert.KernelIdeal.Hand

end
-- ==== Proof.IdealFrame.lean ====
/-
  The frame of the idealized kernel program, and with it what the output block holds after every grid point.

  The pipeline runs the body at sixteen points.  Two buffers carry values from one point to the next: the support
  scratch (filled at point 0, read at every point) and the output's staging block (initialised at point 0, added to at
  every later point, written back to the result array after the last point only).  `carried` names both, by recursion
  on the point: at point 0 what the first run's stores leave; at point n+1 the later run's stores over the output
  block as point n left it, the support unchanged.  The proof data say: every input window's buffer holds its block;
  the output window's buffer holds `carried`'s first component; the region invariant holds the support scratch at
  `carried`'s second component from point 1 on.  The body obligation at a point is the matching run.
-/
import proofs.«148299_g69045894250503_cont_sun_m_1325_18_alg».proof.Proof.IdealBodyFirst
import proofs.«148299_g69045894250503_cont_sun_m_1325_18_alg».proof.Proof.IdealBodyLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first run's pieces for the support scratch tile it: sixteen slabs, one per sample. -/
theorem supCover (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (y : S16x1024x32.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5).2.1 S1x1024x32.size (by sl_kernel_rfl) y

/-- The first run's one piece for the output block is the whole block. -/
theorem outCoverFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (y : S16x256.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5).1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5).1 S16x256.size (by sl_kernel_rfl) y

/-- The later run's one piece for the output block is the whole block. -/
theorem outCoverLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) (y : S16x256.Idx) :
    ∃ pc ∈ (runLater c i arg1 harg1 arg2 harg2 arg3 harg3 arg4 harg4 arg5 harg5 arg6 harg6 arg7 harg7 arg8 harg8 arg9 harg9 hc0 hc1 hc2 x0 x1 x2 x3 x4 x5 xo6 xs0).1, y ∈ pc.1.set :=
  View.cover_of_tiledL (runLater c i arg1 harg1 arg2 harg2 arg3 harg3 arg4 harg4 arg5 harg5 arg6 harg6 arg7 harg7 arg8 harg8 arg9 harg9 hc0 hc1 hc2 x0 x1 x2 x3 x4 x5 xo6 xs0).1 S16x256.size (by sl_kernel_rfl) y

/-- The support scratch after point 0: the first run's pieces read back. -/
def supFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) : Vec F S16x1024x32 .bf16 :=
  VS0_0.read (Elt F) (VS0_0.writes (Elt F) VS0_0.junk (runFirst c i arg1 harg1 arg2 harg2 arg3 harg3 arg4 harg4 arg5 harg5 arg6 harg6 arg7 harg7 arg8 harg8 arg9 harg9 hc0 hc1 hc2 x0 x1 x2 x3 x4 x5).2.1)

/-- The output block after point 0. -/
def outFirst (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) : Vec F S16x256 .f32 :=
  VO0_6.read (Elt F) (VO0_6.writes (Elt F) VO0_6.junk (runFirst c i arg1 harg1 arg2 harg2 arg3 harg3 arg4 harg4 arg5 harg5 arg6 harg6 arg7 harg7 arg8 harg8 arg9 harg9 hc0 hc1 hc2 x0 x1 x2 x3 x4 x5).1)

/-- The output block after a later point, over what the point before left in it and in the support scratch. -/
def outLater (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec F S16x1024x128 .f32) (x1 : Vec F S128x32 .f32) (x2 : Vec F S1x32 .f32) (x3 : Vec F S16x64x1024 .f32) (x4 : Vec F S2048x256 .f32) (x5 : Vec F S1x256 .f32) (xo6 : Vec F S16x256 .f32) (xs0 : Vec F S16x1024x32 .bf16) : Vec F S16x256 .f32 :=
  VO0_6.read (Elt F) (VO0_6.writes (Elt F) VO0_6.junk (runLater c i arg1 harg1 arg2 harg2 arg3 harg3 arg4 harg4 arg5 harg5 arg6 harg6 arg7 harg7 arg8 harg8 arg9 harg9 hc0 hc1 hc2 x0 x1 x2 x3 x4 x5 xo6 xs0).1)

/-! ## What is carried from point to point -/

theorem lt16 {n : ℕ} (hn : n < cfg0.N) : n < 16 := lt_of_lt_of_eq hn (show cfg0.N = 16 from N_0)

/-- The output block and the support scratch after the body at position `n`. -/
def carried (c : Dev nD) : (n : ℕ) → n < cfg0.N → Vec F S16x256 .f32 × Vec F S16x1024x32 .bf16
  | 0, hn =>
    (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => absurd ((hcond0_2 ⟨0, hn⟩).mp h) (Nat.not_succ_le_zero 0)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
     supFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => absurd ((hcond0_2 ⟨0, hn⟩).mp h) (Nat.not_succ_le_zero 0)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    (outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => absurd ((hcond0_0 ⟨n + 1, hn⟩).mp h) (by have := lt16 hn; dsimp only; omega)) (fun h => absurd ((hcond0_1 ⟨n + 1, hn⟩).mp h) (by have := lt16 hn; dsimp only; omega)) ((hcond0_2 ⟨n + 1, hn⟩).mpr (Nat.succ_le_succ (Nat.zero_le n))) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (carried c n (Nat.lt_of_succ_lt hn)).1 (carried c n (Nat.lt_of_succ_lt hn)).2,
     (carried c n (Nat.lt_of_succ_lt hn)).2)

/-- `carried` at point 0. -/
theorem carried_first (c : Dev nD) (t : Fin cfg0.N) (h0 : t.val = 0) (hc0 : cond0_0 (grid0.coords t)) (hc1 : cond0_1 (grid0.coords t)) (hc2 : ¬cond0_2 (grid0.coords t)) :
    carried m c t.val t.isLt = (outFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t),
      supFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t)) := by
  obtain ⟨n, hn⟩ := t
  cases n with
  | zero => rfl
  | succ n => exact absurd h0 (Nat.succ_ne_zero n)

/-- `carried` at a later point, over the point before. -/
theorem carried_later (c : Dev nD) (t : Fin cfg0.N) (h0 : t.val ≠ 0) (hc0 : ¬cond0_0 (grid0.coords t)) (hc1 : ¬cond0_1 (grid0.coords t)) (hc2 : cond0_2 (grid0.coords t)) :
    carried m c t.val t.isLt = (outLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) (carried m c (t.val - 1) (Nat.lt_of_le_of_lt (Nat.sub_le _ _) t.isLt)).1 (carried m c (t.val - 1) (Nat.lt_of_le_of_lt (Nat.sub_le _ _) t.isLt)).2,
      (carried m c (t.val - 1) (Nat.lt_of_le_of_lt (Nat.sub_le _ _) t.isLt)).2) := by
  obtain ⟨n, hn⟩ := t
  cases n with
  | zero => exact absurd rfl h0
  | succ n => rfl

/-- The region invariant before position `n`: before the first point every scratch at anything; afterwards the support
    scratch at what the point before left, the other scratch at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((carried m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((carried m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((carried m c (n - 1) (by omega)).2) ∗ (∃ d, owns (c : Thread nD τ) scM0_1 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (carried m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (carried m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later point the output's staging block holds what the body left at the point before: the block is written
    back only after the last point, and the window is live and uncut. -/
theorem before0_6_later (c : Dev nD) (t : Fin cfg0.N) (h0 : t.val ≠ 0) (d) :
    (dats m 0 c).before 6 t d = (carried m c (t.val - 1) (Nat.lt_of_le_of_lt (Nat.sub_le _ _) t.isLt)).1 := by
  have hN : t.val < 16 := lt16 t.isLt
  rw [Dat.before_out_kept _ 6 rfl t h0 (Bool.eq_false_iff.mpr fun h => by have := (flush0_6 _).mp h; dsimp only at this; omega)
    live6 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt16 t.isLt
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hz : t.val = 0
  · have hc0 : cond0_0 (grid0.coords t) := (hcond0_0 t).mpr (by omega)
    have hc1 : cond0_1 (grid0.coords t) := (hcond0_1 t).mpr (by omega)
    have hc2 : ¬cond0_2 (grid0.coords t) := fun h => by have := (hcond0_2 t).mp h; omega
    rw [carried_first m c t hz hc0 hc1 hc2]
    dsimp only
    unfold outFirst supFirst
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ _ _ hc0 hc1 hc2 (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, ⟨%es0, HS0⟩, HS1⟩
    isplitl [HS0 HS1 Hg]
    · isplitl [HS0 HS1]
      · isplitl [HS0]
        · unfold owns; iexists _; isplitr
          swap; · iexact HS0
          ipureintro; exact View.read_writes_of_cover _ _ _ _ _ (supCover c _ _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (outCoverFirst c _ _ _ _ _ _ _ _ _ _ _ _ _ _ _ _ _ _ _ _ _ _ _ _ _ _ _ _)
  · have hc0 : ¬cond0_0 (grid0.coords t) := fun h => by have := (hcond0_0 t).mp h; omega
    have hc1 : ¬cond0_1 (grid0.coords t) := fun h => by have := (hcond0_1 t).mp h; omega
    have hc2 : cond0_2 (grid0.coords t) := (hcond0_2 t).mpr (by omega)
    rw [carried_later m c t hz hc0 hc1 hc2]
    dsimp only
    simp only [before0_6_later m c t hz]
    unfold outLater
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ _ _ _ _ hc0 hc1 hc2 (iblk m c 0 t) (iblk m c 1 t) (iblk m c 2 t) (iblk m c 3 t) (iblk m c 4 t) (iblk m c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (outCoverLater c _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- Every weakly fair execution of the program terminates, every array of the pipeline ends at what the proof data
    compute (the result array at what the write-back after the last point put there), every other buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.PayloadAct.lean ====
/-
  One sample's packed activations.  For sample b the kernel multiplies the 64 x 1024 chunk of the adjacency by the
  sample's 1024 x 32 support, adds the bias row, takes the maximum with zero, and packs the 64 x 32 result four nodes
  to a row of 128 lanes: lane j of row g holds node 4 g + j / 32, channel j % 32.  The sixteen samples' stores carry
  sixteen differently cut spellings of this one computation; each is read here at a row and a lane.
-/
import proofs.«148299_g69045894250503_cont_sun_m_1325_18_alg».proof.Proof.Gen.KernelIdeal.Skeleton
import proofs.«148299_g69045894250503_cont_sun_m_1325_18_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-- The 64 x 32 activations of one sample before packing: the adjacency chunk times the support, plus the bias row,
    clamped below at zero. -/
private def actCore (nb : Vec Ideal S1x64x1024 .f32) (sb : Vec Ideal S1x1024x32 .bf16) (gb : Vec Ideal S1x32 .f32) :
    FVec Ideal S64x32 .f32 :=
  have a1 : FVec Ideal S64x1024 .f32 := shapeCast S64x1024 nb shapeCasts_S1x64x1024_S64x1024
  have a2 : FVec Ideal S64x1024 .bf16 := truncf .bf16 a1 bitsLt_bf16_f32
  have s1 : FVec Ideal S1024x32 .bf16 := shapeCast S1024x32 sb shapeCasts_S1x1024x32_S1024x32
  have z : FVec Ideal S64x32 .f32 := constant S64x32 .f32 0x00000000#32
  have d : FVec Ideal S64x32 .f32 := matmul dot_S64x1024_S1024x32_S64x32_1_0_0_1_n_n none a2 s1 z
  have b1 : FVec Ideal S1x32 .f32 := shapeCast S1x32 gb shapeCasts_S1x32_S1x32
  have b2 : FVec Ideal S64x32 .f32 := broadcastTo S64x32 b1 broadcasts_S1x32_S64x32
  have e : FVec Ideal S64x32 .f32 := addf d b2
  have c0 : Ideal .f32 := Scalar.ofBits .f32 0x00000000#32
  have z2 : FVec Ideal S64x32 .f32 := broadcast S64x32 c0
  maximumf e z2

/-- Node p, channel q of the activations: the contraction over the 1024 neighbours plus the bias, clamped at zero. -/
private theorem actCore_apply (nb : Vec Ideal S1x64x1024 .f32) (sb : Vec Ideal S1x1024x32 .bf16) (gb : Vec Ideal S1x32 .f32)
    (p : Fin 64) (q : Fin 32) :
    actCore nb sb gb (ix2 p q)
      = max (∑ m : Fin 1024, nb (ix3 (0 : Fin 1) p m) * sb (ix3 (0 : Fin 1) m q) + gb (ix2 (0 : Fin 1) q)) 0 := by
  show max (FloatOps.matmul dot_S64x1024_S1024x32_S64x32_1_0_0_1_n_n none
        (truncf .bf16 (shapeCast S64x1024 nb shapeCasts_S1x64x1024_S64x1024 : FVec Ideal S64x1024 .f32) bitsLt_bf16_f32 : FVec Ideal S64x1024 .bf16)
        (shapeCast S1024x32 sb shapeCasts_S1x1024x32_S1024x32 : FVec Ideal S1024x32 .bf16) (constant S64x32 .f32 0x00000000#32) (ix2 p q)
      + broadcastTo S64x32 (shapeCast S1x32 gb shapeCasts_S1x32_S1x32 : FVec Ideal S1x32 .f32) broadcasts_S1x32_S64x32 (ix2 p q))
      (Ideal.ofBits .f32 0x00000000#32) = _
  rw [Ideal.ofBits_zero_f32, Ideal.matmul_constant_zero_apply, broadcastTo_1b_ab_apply, shapeCast_self,
    PlainDot.sum_eq _ rfl rfl rfl rfl rfl rfl]
  refine congrArg (fun x => max (x + gb (ix2 (0 : Fin 1) q)) 0) (Finset.sum_congr rfl fun m _ => ?_)
  rw [truncf_apply, shapeCast_1ab_ab_apply, shapeCast_1ab_ab_apply]

/-- Row g, column o of the [16,4,32] view of a [64,32] array is its row 4 g + o. -/
private theorem view_apply (X : FVec Ideal S64x32 .f32) (g : Fin 16) (o : Fin 4) (c : Fin 32) :
    shapeCast S16x4x32 X shapeCasts_S64x32_S16x4x32 (ix3 g o c) = X (ix2 ⟨4 * g.val + o.val, by omega⟩ c) :=
  shapeCast_apply X shapeCasts_S64x32_S16x4x32 _ _ (by
    rw [Shape.rowMajor_val_three, Shape.rowMajor_val_two]
    show (4 * g.val + o.val) * 32 + c.val = (g.val * 4 + o.val) * 32 + c.val
    omega)

/-- The lane group cut at node offset o out of a [16,4,32] array, as a [16,32] array. -/
private theorem lane_apply (Y : FVec Ideal S16x4x32 .f32) (o : Nat) (h : S16x4x32.Slices ![0, o, 0] S16x1x32) (ho : o < 4)
    (g : Fin 16) (c : Fin 32) :
    shapeCast S16x32 (extractStridedSlice S16x1x32 ![0, o, 0] Y h) shapeCasts_S16x1x32_S16x32 (ix2 g c) = Y (ix3 g ⟨o, ho⟩ c) := by
  refine (shapeCast_apply _ shapeCasts_S16x1x32_S16x32 (ix2 g c) (ix3 g (0 : Fin 1) c) (by
    rw [Shape.rowMajor_val_three, Shape.rowMajor_val_two]
    show (g.val * 1 + 0) * 32 + c.val = g.val * 32 + c.val
    omega)).trans ?_
  exact slice3_axis1_apply o Y h g (0 : Fin 1) c ⟨o, ho⟩ rfl

/-- Four [16,32] arrays laid side by side along the lanes: lane 32 k + c of row g is piece k at (g, c). -/
private theorem concat4_apply (A : Fin 4 → FVec Ideal S16x32 .f32) (g : Fin 16) (k : Fin 4) (c : Fin 32) (j : Fin 128)
    (hj : j.val = 32 * k.val + c.val) :
    concatenate S16x128 1 [⟨S16x32, A 0⟩, ⟨S16x32, A 1⟩, ⟨S16x32, A 2⟩, ⟨S16x32, A 3⟩]
      concatenates_S16x32_S16x32_S16x32_S16x32_S16x128_d1 (ix2 g j) = A k (ix2 g c) := by
  have hi : ∀ b : Fin S16x32.rank, b.cast (rfl : S16x32.rank = S16x128.rank) ≠ (1 : Fin S16x128.rank) →
      ((ix2 g c : S16x32.Idx) b).val = ((ix2 g j : S16x128.Idx) (b.cast rfl)).val := fun b hb => by
    match b with
    | ⟨0, _⟩ => rfl
    | ⟨1, _⟩ => exact absurd rfl hb
  match k, hj with
  | ⟨0, _⟩, hj =>
    exact concatenate_apply_piece (1 : Fin S16x128.rank) [⟨S16x32, A 0⟩, ⟨S16x32, A 1⟩, ⟨S16x32, A 2⟩, ⟨S16x32, A 3⟩]
      concatenates_S16x32_S16x32_S16x32_S16x32_S16x128_d1 (ix2 g j)
      0 (by show 0 < 4; omega) S16x32 (A 0) rfl rfl 0 rfl (ix2 g c) hi (by show 0 + c.val = j.val; simp only at hj; omega)
  | ⟨1, _⟩, hj =>
    exact concatenate_apply_piece (1 : Fin S16x128.rank) [⟨S16x32, A 0⟩, ⟨S16x32, A 1⟩, ⟨S16x32, A 2⟩, ⟨S16x32, A 3⟩]
      concatenates_S16x32_S16x32_S16x32_S16x32_S16x128_d1 (ix2 g j)
      1 (by show 1 < 4; omega) S16x32 (A 1) rfl rfl 32 rfl (ix2 g c) hi (by show 32 + c.val = j.val; simp only at hj; omega)
  | ⟨2, _⟩, hj =>
    exact concatenate_apply_piece (1 : Fin S16x128.rank) [⟨S16x32, A 0⟩, ⟨S16x32, A 1⟩, ⟨S16x32, A 2⟩, ⟨S16x32, A 3⟩]
      concatenates_S16x32_S16x32_S16x32_S16x32_S16x128_d1 (ix2 g j)
      2 (by show 2 < 4; omega) S16x32 (A 2) rfl rfl 64 rfl (ix2 g c) hi (by show 64 + c.val = j.val; simp only at hj; omega)
  | ⟨3, _⟩, hj =>
    exact concatenate_apply_piece (1 : Fin S16x128.rank) [⟨S16x32, A 0⟩, ⟨S16x32, A 1⟩, ⟨S16x32, A 2⟩, ⟨S16x32, A 3⟩]
      concatenates_S16x32_S16x32_S16x32_S16x32_S16x128_d1 (ix2 g j)
      3 (by show 3 < 4; omega) S16x32 (A 3) rfl rfl 96 rfl (ix2 g c) hi (by show 96 + c.val = j.val; simp only at hj; omega)

/-- A [16,4,32] array packed four nodes to a row of 128 lanes: the four lane groups cut out, laid side by side, and
    given a leading unit axis. -/
private def packY (Y : FVec Ideal S16x4x32 .f32) : FVec Ideal S1x16x128 .f32 :=
  have l0 : FVec Ideal S16x32 .f32 := shapeCast S16x32 (extractStridedSlice S16x1x32 ![0, 0, 0] Y slices_S16x4x32_o0_0_0_S16x1x32) shapeCasts_S16x1x32_S16x32
  have l1 : FVec Ideal S16x32 .f32 := shapeCast S16x32 (extractStridedSlice S16x1x32 ![0, 1, 0] Y slices_S16x4x32_o0_1_0_S16x1x32) shapeCasts_S16x1x32_S16x32
  have l2 : FVec Ideal S16x32 .f32 := shapeCast S16x32 (extractStridedSlice S16x1x32 ![0, 2, 0] Y slices_S16x4x32_o0_2_0_S16x1x32) shapeCasts_S16x1x32_S16x32
  have l3 : FVec Ideal S16x32 .f32 := shapeCast S16x32 (extractStridedSlice S16x1x32 ![0, 3, 0] Y slices_S16x4x32_o0_3_0_S16x1x32) shapeCasts_S16x1x32_S16x32
  have w : FVec Ideal S16x128 .f32 := concatenate S16x128 1 [⟨S16x32, l0⟩, ⟨S16x32, l1⟩, ⟨S16x32, l2⟩, ⟨S16x32, l3⟩] concatenates_S16x32_S16x32_S16x32_S16x32_S16x128_d1
  shapeCast S1x16x128 w shapeCasts_S16x128_S1x16x128

/-- Lane 32 k + c of row g of the packed array is the entry (g, k, c). -/
private theorem packY_apply (Y : FVec Ideal S16x4x32 .f32) (g : Fin 16) (k : Fin 4) (c : Fin 32) (j : Fin 128)
    (hj : j.val = 32 * k.val + c.val) : packY Y (ix3 (0 : Fin 1) g j) = Y (ix3 g k c) := by
  unfold packY
  show shapeCast S1x16x128 _ shapeCasts_S16x128_S1x16x128 (ix3 (0 : Fin 1) g j) = _
  refine (shapeCast_ab_1ab_apply _ shapeCasts_S16x128_S1x16x128 (0 : Fin 1) g j).trans ?_
  refine (concat4_apply
    ![shapeCast S16x32 (extractStridedSlice S16x1x32 ![0, 0, 0] Y slices_S16x4x32_o0_0_0_S16x1x32) shapeCasts_S16x1x32_S16x32,
      shapeCast S16x32 (extractStridedSlice S16x1x32 ![0, 1, 0] Y slices_S16x4x32_o0_1_0_S16x1x32) shapeCasts_S16x1x32_S16x32,
      shapeCast S16x32 (extractStridedSlice S16x1x32 ![0, 2, 0] Y slices_S16x4x32_o0_2_0_S16x1x32) shapeCasts_S16x1x32_S16x32,
      shapeCast S16x32 (extractStridedSlice S16x1x32 ![0, 3, 0] Y slices_S16x4x32_o0_3_0_S16x1x32) shapeCasts_S16x1x32_S16x32]
    g k c j hj).trans ?_
  match k with
  | ⟨0, _⟩ => exact lane_apply Y 0 slices_S16x4x32_o0_0_0_S16x1x32 (by omega) g c
  | ⟨1, _⟩ => exact lane_apply Y 1 slices_S16x4x32_o0_1_0_S16x1x32 (by omega) g c
  | ⟨2, _⟩ => exact lane_apply Y 2 slices_S16x4x32_o0_2_0_S16x1x32 (by omega) g c
  | ⟨3, _⟩ => exact lane_apply Y 3 slices_S16x4x32_o0_3_0_S16x1x32 (by omega) g c

/-- The packing of a [64,32] array: lane j of row g is node 4 g + j / 32, channel j % 32. -/
private theorem pack_apply (X : FVec Ideal S64x32 .f32) (g : Fin 16) (j : Fin 128) :
    packY (shapeCast S16x4x32 X shapeCasts_S64x32_S16x4x32) (ix3 (0 : Fin 1) g j)
      = X (ix2 ⟨4 * g.val + j.val / 32, by omega⟩ ⟨j.val % 32, Nat.mod_lt _ (by decide)⟩) := by
  refine (packY_apply _ g ⟨j.val / 32, by omega⟩ ⟨j.val % 32, Nat.mod_lt _ (by decide)⟩ j (by show j.val = 32 * (j.val / 32) + j.val % 32; omega)).trans ?_
  exact view_apply X g ⟨j.val / 32, by omega⟩ ⟨j.val % 32, Nat.mod_lt _ (by decide)⟩

/-- The packed activations of one sample, as the composition of the two parts above. -/
private theorem packed_apply (nb : Vec Ideal S1x64x1024 .f32) (sb : Vec Ideal S1x1024x32 .bf16) (gb : Vec Ideal S1x32 .f32) (g : Fin 16) (j : Fin 128) :
    packY (shapeCast S16x4x32 (actCore nb sb gb) shapeCasts_S64x32_S16x4x32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  (pack_apply (actCore nb sb gb) g j).trans (actCore_apply nb sb gb _ _)

theorem actRow0_apply (nb : Vec Ideal S1x64x1024 .f32) (sb : Vec Ideal S1x1024x32 .bf16) (gb : Vec Ideal S1x32 .f32) (g : Fin 16) (j : Fin 128) :
    (k0_pay23 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow1_apply (nb : Vec Ideal S1x64x1024 .f32) (sb : Vec Ideal S1x1024x32 .bf16) (gb : Vec Ideal S1x32 .f32) (g : Fin 16) (j : Fin 128) :
    (k0_pay25 (k0_pay24 nb sb) gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow2_apply (nb : Vec Ideal S1x64x1024 .f32) (sb : Vec Ideal S1x1024x32 .bf16) (gb : Vec Ideal S1x32 .f32) (g : Fin 16) (j : Fin 128) :
    (k0_pay27 (k0_pay26 nb sb gb) : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow3_apply (nb : Vec Ideal S1x64x1024 .f32) (sb : Vec Ideal S1x1024x32 .bf16) (gb : Vec Ideal S1x32 .f32) (g : Fin 16) (j : Fin 128) :
    (k0_pay28 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow4_apply (nb : Vec Ideal S1x64x1024 .f32) (sb : Vec Ideal S1x1024x32 .bf16) (gb : Vec Ideal S1x32 .f32) (g : Fin 16) (j : Fin 128) :
    (k0_pay31 (k0_pay29 nb sb) (k0_pay30 gb) : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow5_apply (nb : Vec Ideal S1x64x1024 .f32) (sb : Vec Ideal S1x1024x32 .bf16) (gb : Vec Ideal S1x32 .f32) (g : Fin 16) (j : Fin 128) :
    (k0_pay32 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow6_apply (nb : Vec Ideal S1x64x1024 .f32) (sb : Vec Ideal S1x1024x32 .bf16) (gb : Vec Ideal S1x32 .f32) (g : Fin 16) (j : Fin 128) :
    (k0_pay33 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow7_apply (nb : Vec Ideal S1x64x1024 .f32) (sb : Vec Ideal S1x1024x32 .bf16) (gb : Vec Ideal S1x32 .f32) (g : Fin 16) (j : Fin 128) :
    (k0_pay35 (k0_pay34 nb sb gb) (Scalar.ofBits .f32 0x00000000#32) : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow8_apply (nb : Vec Ideal S1x64x1024 .f32) (sb : Vec Ideal S1x1024x32 .bf16) (gb : Vec Ideal S1x32 .f32) (g : Fin 16) (j : Fin 128) :
    (k0_pay36 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow9_apply (nb : Vec Ideal S1x64x1024 .f32) (sb : Vec Ideal S1x1024x32 .bf16) (gb : Vec Ideal S1x32 .f32) (g : Fin 16) (j : Fin 128) :
    (k0_pay37 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow10_apply (nb : Vec Ideal S1x64x1024 .f32) (sb : Vec Ideal S1x1024x32 .bf16) (gb : Vec Ideal S1x32 .f32) (g : Fin 16) (j : Fin 128) :
    (k0_pay39 (k0_pay38 nb sb gb) : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow11_apply (nb : Vec Ideal S1x64x1024 .f32) (sb : Vec Ideal S1x1024x32 .bf16) (gb : Vec Ideal S1x32 .f32) (g : Fin 16) (j : Fin 128) :
    (k0_pay40 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow12_apply (nb : Vec Ideal S1x64x1024 .f32) (sb : Vec Ideal S1x1024x32 .bf16) (gb : Vec Ideal S1x32 .f32) (g : Fin 16) (j : Fin 128) :
    (k0_pay42 (k0_pay41 nb) sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow13_apply (nb : Vec Ideal S1x64x1024 .f32) (sb : Vec Ideal S1x1024x32 .bf16) (gb : Vec Ideal S1x32 .f32) (g : Fin 16) (j : Fin 128) :
    (k0_pay46 (k0_pay43 nb sb gb) (k0_pay44 nb sb gb) (k0_pay45 nb sb gb) : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow14_apply (nb : Vec Ideal S1x64x1024 .f32) (sb : Vec Ideal S1x1024x32 .bf16) (gb : Vec Ideal S1x32 .f32) (g : Fin 16) (j : Fin 128) :
    (k0_pay47 nb sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

theorem actRow15_apply (nb : Vec Ideal S1x64x1024 .f32) (sb : Vec Ideal S1x1024x32 .bf16) (gb : Vec Ideal S1x32 .f32) (g : Fin 16) (j : Fin 128) :
    (k0_pay49 (k0_pay48 nb) sb gb : FVec Ideal S1x16x128 .f32) (ix3 (0 : Fin 1) g j)
      = max (∑ m : Fin 1024, nb (ix3 (0 : Fin 1) ⟨4 * g.val + j.val / 32, by omega⟩ m) * sb (ix3 (0 : Fin 1) m ⟨j.val % 32, Nat.mod_lt _ (by decide)⟩) + gb (ix2 (0 : Fin 1) ⟨j.val % 32, Nat.mod_lt _ (by decide)⟩)) 0 :=
  packed_apply nb sb gb g j

end Cert.KernelIdeal.Hand

end
-- ==== Proof.IdealPacked.lean ====
/-
  What the body's stores leave, as values over the extended reals (first half: the packed activations).

  At every grid point the body fills the packed-activation scratch with sixteen stores, one per sample, and then reads it
  back sixteen times, one row group at a time.  Here: a load of a whole buffer through a box reads the contents at the
  box's index; the sixteen stored rows are blocks of ONE function of the scratch's index — lane j of row group g of
  sample b is max (∑ m, A[b, 4 g + j / 32, m] · S[b, m, j % 32] + β[j % 32]) 0 —; so every read-back is that function
  at the box's index.  The support S enters through the sixteen per-sample slabs the body loaded; where those come
  from (the scratch as an earlier point left it, or this point's own stores read back) is a parameter.
-/
import proofs.«148299_g69045894250503_cont_sun_m_1325_18_alg».proof.Proof.IdealBodyShared
import proofs.«148299_g69045894250503_cont_sun_m_1325_18_alg».proof.Proof.PayloadAct
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Loads of a whole buffer through a box -/

/-- A load of slab k of a rank-3 whole buffer reads the contents at (k, r, m). -/
theorem slab3_read {Val : EltTy → Type} {e : EltTy} {N0 n1 n2 : ℕ} (a : Memref sig .tc .vmem ⟨3, ![N0, n1, n2]⟩ e) (ha : a.IsWhole)
    (X : (⟨3, ![N0, n1, n2]⟩ : Shape).Idx → Val e) (k : ℕ) (hk : k < N0)
    (inb : ∀ d, (![k, 0, 0] : Fin 3 → ℕ) d + (⟨3, ![1, n1, n2]⟩ : Shape).size d ≤ (⟨3, ![N0, n1, n2]⟩ : Shape).size d)
    (r : Fin n1) (m : Fin n2) :
    View.readAt Val a.view (Rect.unit (s := ⟨3, ![N0, n1, n2]⟩) ![k, 0, 0] (⟨3, ![1, n1, n2]⟩ : Shape).size inb).toLoadRect (ha.unread X) (ix3 (0 : Fin 1) r m)
      = X (ix3 ⟨k, hk⟩ r m) := by
  rw [View.readAt_apply, ha.read_unread]
  congr 1
  funext d
  apply Fin.ext
  match d with
  | ⟨0, _⟩ => show k + 1 * 0 = k; omega
  | ⟨1, _⟩ => show 0 + 1 * r.val = r.val; omega
  | ⟨2, _⟩ => show 0 + 1 * m.val = m.val; omega

/-- A load of rows k .. k + n1 - 1 of a rank-2 whole buffer reads the contents at (k + r, q). -/
theorem rows2_read {Val : EltTy → Type} {e : EltTy} {N0 n1 n2 : ℕ} (a : Memref sig .tc .vmem ⟨2, ![N0, n2]⟩ e) (ha : a.IsWhole)
    (X : (⟨2, ![N0, n2]⟩ : Shape).Idx → Val e) (k : ℕ)
    (inb : ∀ d, (![k, 0] : Fin 2 → ℕ) d + (⟨2, ![n1, n2]⟩ : Shape).size d ≤ (⟨2, ![N0, n2]⟩ : Shape).size d)
    (r : Fin n1) (q : Fin n2) (hk : k + r.val < N0) :
    View.readAt Val a.view (Rect.unit (s := ⟨2, ![N0, n2]⟩) ![k, 0] (⟨2, ![n1, n2]⟩ : Shape).size inb).toLoadRect (ha.unread X) (ix2 r q)
      = X (ix2 ⟨k + r.val, hk⟩ q) := by
  rw [View.readAt_apply, ha.read_unread]
  congr 1
  funext d
  apply Fin.ext
  match d with
  | ⟨0, _⟩ => show k + 1 * r.val = k + r.val; omega
  | ⟨1, _⟩ => show 0 + 1 * q.val = q.val; omega

/-- A load of a whole buffer through the whole-shape box reads the contents. -/
theorem whole_read {Val : EltTy → Type} {e : EltTy} {S : Shape} (a : Memref sig .tc .vmem S e) (ha : a.IsWhole) (X : S.Idx → Val e)
    {off : Fin S.rank → ℕ} (h : off = fun _ => 0) (inb : ∀ d, off d + S.size d ≤ S.size d) :
    View.readAt Val a.view (Rect.unit off S.size inb).toLoadRect (ha.unread X) = X := by
  rw [View.readAt_eq_ld, ha.read_unread, View.ld_unit_zero h]

/-! ## The packed activations as one function of the scratch's index -/

/-- Lane j of row group g of sample b. -/
def packedAt (x3 : Vec Ideal S16x64x1024 .f32) (S : Vec Ideal S16x1024x32 .bf16) (x2 : Vec Ideal S1x32 .f32)
    (b : Fin 16) (g : Fin 16) (j : Fin 128) : Elt Ideal .f32 :=
  max (∑ m : Fin 1024, x3 (ix3 b ⟨4 * g.val + j.val / 32, by omega⟩ m) * S (ix3 b m ⟨j.val % 32, Nat.mod_lt _ (by decide)⟩) + x2 (ix2 (0 : Fin 1) ⟨j.val % 32, Nat.mod_lt _ (by decide)⟩)) 0

def packed (x3 : Vec Ideal S16x64x1024 .f32) (S : Vec Ideal S16x1024x32 .bf16) (x2 : Vec Ideal S1x32 .f32) : Vec Ideal S16x16x128 .f32 :=
  fun y => packedAt x3 S x2 (y 0) (y 1) (y 2)

theorem packed_apply (x3 : Vec Ideal S16x64x1024 .f32) (S : Vec Ideal S16x1024x32 .bf16) (x2 : Vec Ideal S1x32 .f32) (b g : Fin 16) (j : Fin 128) :
    packed x3 S x2 (ix3 b g j) = packedAt x3 S x2 b g j := rfl

/-- The sixteen rows the body stores into the packed-activation scratch, last store first.  `sl k` is the support slab
    of sample k as the body loaded it. -/
def packedPieces (arg3 : Memref sig .tc .vmem S1x32 .f32) (harg3 : arg3.IsWhole) (arg4 : Memref sig .tc .vmem S16x64x1024 .f32) (harg4 : arg4.IsWhole)
    (x2 : Vec Ideal S1x32 .f32) (x3 : Vec Ideal S16x64x1024 .f32)
    (sl : (k : ℕ) → (∀ d, (![k, 0, 0] : Fin 3 → ℕ) d + S1x1024x32.size d ≤ S16x1024x32.size d) → Vec Ideal S1x1024x32 .bf16) :
    List (View.Piece (Elt Ideal) S16x16x128 .f32) :=
  [
    ⟨Rect.unit (s := S16x16x128) ![15, 0, 0] S1x16x128.size inb_S16x16x128_S1x16x128_15_0_0,
      k0_pay49 (k0_pay48 (View.readAt (Elt Ideal) arg4.view (Rect.unit (s := S16x64x1024) ![15, 0, 0] S1x64x1024.size inb_S16x64x1024_S1x64x1024_15_0_0).toLoadRect (harg4.unread x3))) (sl 15 inb_S16x1024x32_S1x1024x32_15_0_0) (View.readAt (Elt Ideal) arg3.view (Rect.unit (s := S1x32) ![0, 0] S1x32.size inb_S1x32_S1x32_0_0).toLoadRect (harg3.unread x2))⟩,
    ⟨Rect.unit (s := S16x16x128) ![14, 0, 0] S1x16x128.size inb_S16x16x128_S1x16x128_14_0_0,
      k0_pay47 (View.readAt (Elt Ideal) arg4.view (Rect.unit (s := S16x64x1024) ![14, 0, 0] S1x64x1024.size inb_S16x64x1024_S1x64x1024_14_0_0).toLoadRect (harg4.unread x3)) (sl 14 inb_S16x1024x32_S1x1024x32_14_0_0) (View.readAt (Elt Ideal) arg3.view (Rect.unit (s := S1x32) ![0, 0] S1x32.size inb_S1x32_S1x32_0_0).toLoadRect (harg3.unread x2))⟩,
    ⟨Rect.unit (s := S16x16x128) ![13, 0, 0] S1x16x128.size inb_S16x16x128_S1x16x128_13_0_0,
      k0_pay46 (k0_pay43 (View.readAt (Elt Ideal) arg4.view (Rect.unit (s := S16x64x1024) ![13, 0, 0] S1x64x1024.size inb_S16x64x1024_S1x64x1024_13_0_0).toLoadRect (harg4.unread x3)) (sl 13 inb_S16x1024x32_S1x1024x32_13_0_0) (View.readAt (Elt Ideal) arg3.view (Rect.unit (s := S1x32) ![0, 0] S1x32.size inb_S1x32_S1x32_0_0).toLoadRect (harg3.unread x2))) (k0_pay44 (View.readAt (Elt Ideal) arg4.view (Rect.unit (s := S16x64x1024) ![13, 0, 0] S1x64x1024.size inb_S16x64x1024_S1x64x1024_13_0_0).toLoadRect (harg4.unread x3)) (sl 13 inb_S16x1024x32_S1x1024x32_13_0_0) (View.readAt (Elt Ideal) arg3.view (Rect.unit (s := S1x32) ![0, 0] S1x32.size inb_S1x32_S1x32_0_0).toLoadRect (harg3.unread x2))) (k0_pay45 (View.readAt (Elt Ideal) arg4.view (Rect.unit (s := S16x64x1024) ![13, 0, 0] S1x64x1024.size inb_S16x64x1024_S1x64x1024_13_0_0).toLoadRect (harg4.unread x3)) (sl 13 inb_S16x1024x32_S1x1024x32_13_0_0) (View.readAt (Elt Ideal) arg3.view (Rect.unit (s := S1x32) ![0, 0] S1x32.size inb_S1x32_S1x32_0_0).toLoadRect (harg3.unread x2)))⟩,
    ⟨Rect.unit (s := S16x16x128) ![12, 0, 0] S1x16x128.size inb_S16x16x128_S1x16x128_12_0_0,
      k0_pay42 (k0_pay41 (View.readAt (Elt Ideal) arg4.view (Rect.unit (s := S16x64x1024) ![12, 0, 0] S1x64x1024.size inb_S16x64x1024_S1x64x1024_12_0_0).toLoadRect (harg4.unread x3))) (sl 12 inb_S16x1024x32_S1x1024x32_12_0_0) (View.readAt (Elt Ideal) arg3.view (Rect.unit (s := S1x32) ![0, 0] S1x32.size inb_S1x32_S1x32_0_0).toLoadRect (harg3.unread x2))⟩,
    ⟨Rect.unit (s := S16x16x128) ![11, 0, 0] S1x16x128.size inb_S16x16x128_S1x16x128_11_0_0,
      k0_pay40 (View.readAt (Elt Ideal) arg4.view (Rect.unit (s := S16x64x1024) ![11, 0, 0] S1x64x1024.size inb_S16x64x1024_S1x64x1024_11_0_0).toLoadRect (harg4.unread x3)) (sl 11 inb_S16x1024x32_S1x1024x32_11_0_0) (View.readAt (Elt Ideal) arg3.view (Rect.unit (s := S1x32) ![0, 0] S1x32.size inb_S1x32_S1x32_0_0).toLoadRect (harg3.unread x2))⟩,
    ⟨Rect.unit (s := S16x16x128) ![10, 0, 0] S1x16x128.size inb_S16x16x128_S1x16x128_10_0_0,
      k0_pay39 (k0_pay38 (View.readAt (Elt Ideal) arg4.view (Rect.unit (s := S16x64x1024) ![10, 0, 0] S1x64x1024.size inb_S16x64x1024_S1x64x1024_10_0_0).toLoadRect (harg4.unread x3)) (sl 10 inb_S16x1024x32_S1x1024x32_10_0_0) (View.readAt (Elt Ideal) arg3.view (Rect.unit (s := S1x32) ![0, 0] S1x32.size inb_S1x32_S1x32_0_0).toLoadRect (harg3.unread x2)))⟩,
    ⟨Rect.unit (s := S16x16x128) ![9, 0, 0] S1x16x128.size inb_S16x16x128_S1x16x128_9_0_0,
      k0_pay37 (View.readAt (Elt Ideal) arg4.view (Rect.unit (s := S16x64x1024) ![9, 0, 0] S1x64x1024.size inb_S16x64x1024_S1x64x1024_9_0_0).toLoadRect (harg4.unread x3)) (sl 9 inb_S16x1024x32_S1x1024x32_9_0_0) (View.readAt (Elt Ideal) arg3.view (Rect.unit (s := S1x32) ![0, 0] S1x32.size inb_S1x32_S1x32_0_0).toLoadRect (harg3.unread x2))⟩,
    ⟨Rect.unit (s := S16x16x128) ![8, 0, 0] S1x16x128.size inb_S16x16x128_S1x16x128_8_0_0,
      k0_pay36 (View.readAt (Elt Ideal) arg4.view (Rect.unit (s := S16x64x1024) ![8, 0, 0] S1x64x1024.size inb_S16x64x1024_S1x64x1024_8_0_0).toLoadRect (harg4.unread x3)) (sl 8 inb_S16x1024x32_S1x1024x32_8_0_0) (View.readAt (Elt Ideal) arg3.view (Rect.unit (s := S1x32) ![0, 0] S1x32.size inb_S1x32_S1x32_0_0).toLoadRect (harg3.unread x2))⟩,
    ⟨Rect.unit (s := S16x16x128) ![7, 0, 0] S1x16x128.size inb_S16x16x128_S1x16x128_7_0_0,
      k0_pay35 (k0_pay34 (View.readAt (Elt Ideal) arg4.view (Rect.unit (s := S16x64x1024) ![7, 0, 0] S1x64x1024.size inb_S16x64x1024_S1x64x1024_7_0_0).toLoadRect (harg4.unread x3)) (sl 7 inb_S16x1024x32_S1x1024x32_7_0_0) (View.readAt (Elt Ideal) arg3.view (Rect.unit (s := S1x32) ![0, 0] S1x32.size inb_S1x32_S1x32_0_0).toLoadRect (harg3.unread x2))) (FloatOps.ofBits FTy.f32 0#32)⟩,
    ⟨Rect.unit (s := S16x16x128) ![6, 0, 0] S1x16x128.size inb_S16x16x128_S1x16x128_6_0_0,
      k0_pay33 (View.readAt (Elt Ideal) arg4.view (Rect.unit (s := S16x64x1024) ![6, 0, 0] S1x64x1024.size inb_S16x64x1024_S1x64x1024_6_0_0).toLoadRect (harg4.unread x3)) (sl 6 inb_S16x1024x32_S1x1024x32_6_0_0) (View.readAt (Elt Ideal) arg3.view (Rect.unit (s := S1x32) ![0, 0] S1x32.size inb_S1x32_S1x32_0_0).toLoadRect (harg3.unread x2))⟩,
    ⟨Rect.unit (s := S16x16x128) ![5, 0, 0] S1x16x128.size inb_S16x16x128_S1x16x128_5_0_0,
      k0_pay32 (View.readAt (Elt Ideal) arg4.view (Rect.unit (s := S16x64x1024) ![5, 0, 0] S1x64x1024.size inb_S16x64x1024_S1x64x1024_5_0_0).toLoadRect (harg4.unread x3)) (sl 5 inb_S16x1024x32_S1x1024x32_5_0_0) (View.readAt (Elt Ideal) arg3.view (Rect.unit (s := S1x32) ![0, 0] S1x32.size inb_S1x32_S1x32_0_0).toLoadRect (harg3.unread x2))⟩,
    ⟨Rect.unit (s := S16x16x128) ![4, 0, 0] S1x16x128.size inb_S16x16x128_S1x16x128_4_0_0,
      k0_pay31 (k0_pay29 (View.readAt (Elt Ideal) arg4.view (Rect.unit (s := S16x64x1024) ![4, 0, 0] S1x64x1024.size inb_S16x64x1024_S1x64x1024_4_0_0).toLoadRect (harg4.unread x3)) (sl 4 inb_S16x1024x32_S1x1024x32_4_0_0)) (k0_pay30 (View.readAt (Elt Ideal) arg3.view (Rect.unit (s := S1x32) ![0, 0] S1x32.size inb_S1x32_S1x32_0_0).toLoadRect (harg3.unread x2)))⟩,
    ⟨Rect.unit (s := S16x16x128) ![3, 0, 0] S1x16x128.size inb_S16x16x128_S1x16x128_3_0_0,
      k0_pay28 (View.readAt (Elt Ideal) arg4.view (Rect.unit (s := S16x64x1024) ![3, 0, 0] S1x64x1024.size inb_S16x64x1024_S1x64x1024_3_0_0).toLoadRect (harg4.unread x3)) (sl 3 inb_S16x1024x32_S1x1024x32_3_0_0) (View.readAt (Elt Ideal) arg3.view (Rect.unit (s := S1x32) ![0, 0] S1x32.size inb_S1x32_S1x32_0_0).toLoadRect (harg3.unread x2))⟩,
    ⟨Rect.unit (s := S16x16x128) ![2, 0, 0] S1x16x128.size inb_S16x16x128_S1x16x128_2_0_0,
      k0_pay27 (k0_pay26 (View.readAt (Elt Ideal) arg4.view (Rect.unit (s := S16x64x1024) ![2, 0, 0] S1x64x1024.size inb_S16x64x1024_S1x64x1024_2_0_0).toLoadRect (harg4.unread x3)) (sl 2 inb_S16x1024x32_S1x1024x32_2_0_0) (View.readAt (Elt Ideal) arg3.view (Rect.unit (s := S1x32) ![0, 0] S1x32.size inb_S1x32_S1x32_0_0).toLoadRect (harg3.unread x2)))⟩,
    ⟨Rect.unit (s := S16x16x128) ![1, 0, 0] S1x16x128.size inb_S16x16x128_S1x16x128_1_0_0,
      k0_pay25 (k0_pay24 (View.readAt (Elt Ideal) arg4.view (Rect.unit (s := S16x64x1024) ![1, 0, 0] S1x64x1024.size inb_S16x64x1024_S1x64x1024_1_0_0).toLoadRect (harg4.unread x3)) (sl 1 inb_S16x1024x32_S1x1024x32_1_0_0)) (View.readAt (Elt Ideal) arg3.view (Rect.unit (s := S1x32) ![0, 0] S1x32.size inb_S1x32_S1x32_0_0).toLoadRect (harg3.unread x2))⟩,
    ⟨Rect.unit (s := S16x16x128) ![0, 0, 0] S1x16x128.size inb_S16x16x128_S1x16x128_0_0_0,
      k0_pay23 (View.readAt (Elt Ideal) arg4.view (Rect.unit (s := S16x64x1024) ![0, 0, 0] S1x64x1024.size inb_S16x64x1024_S1x64x1024_0_0_0).toLoadRect (harg4.unread x3)) (sl 0 inb_S16x1024x32_S1x1024x32_0_0_0) (View.readAt (Elt Ideal) arg3.view (Rect.unit (s := S1x32) ![0, 0] S1x32.size inb_S1x32_S1x32_0_0).toLoadRect (harg3.unread x2))⟩]

/-- A stored row whose payload is sample k's packed activations is the block of `packed` its rectangle names. -/
theorem row_isBlock (x3 : Vec Ideal S16x64x1024 .f32) (S : Vec Ideal S16x1024x32 .bf16) (x2 : Vec Ideal S1x32 .f32)
    (k : ℕ) (hk : k < 16) (inbP : ∀ d, (![k, 0, 0] : Fin 3 → ℕ) d + S1x16x128.size d ≤ S16x16x128.size d)
    (pay : FVec Ideal S1x16x128 .f32) (hpay : ∀ (g : Fin 16) (j : Fin 128), pay (ix3 (0 : Fin 1) g j) = packedAt x3 S x2 ⟨k, hk⟩ g j)
    (x : (Rect.unit (s := S16x16x128) ![k, 0, 0] S1x16x128.size inbP).shape.Idx) :
    pay x = packed x3 S x2 ((Rect.unit (s := S16x16x128) ![k, 0, 0] S1x16x128.size inbP).emb x) := by
  obtain ⟨a, g, j, rfl⟩ : ∃ (a : Fin 1) (g : Fin 16) (j : Fin 128), x = ix3 a g j := ⟨x 0, x 1, x 2, eq_ix3 x⟩
  obtain rfl : a = 0 := Subsingleton.elim _ _
  rw [hpay g j]
  have e : (Rect.unit (s := S16x16x128) ![k, 0, 0] S1x16x128.size inbP).emb (ix3 (0 : Fin 1) g j) = ix3 (⟨k, hk⟩ : Fin 16) g j := by
    funext d
    apply Fin.ext
    match d with
    | ⟨0, _⟩ => show k + 1 * 0 = k; omega
    | ⟨1, _⟩ => show 0 + 1 * g.val = g.val; omega
    | ⟨2, _⟩ => show 0 + 1 * j.val = j.val; omega
  rw [e]; rfl

/-- One sample's row value, with the loads read back to the buffers' contents. -/
theorem rowVal (arg3 : Memref sig .tc .vmem S1x32 .f32) (harg3 : arg3.IsWhole) (arg4 : Memref sig .tc .vmem S16x64x1024 .f32) (harg4 : arg4.IsWhole)
    (x2 : Vec Ideal S1x32 .f32) (x3 : Vec Ideal S16x64x1024 .f32) (S : Vec Ideal S16x1024x32 .bf16)
    (k : ℕ) (hk : k < 16) (inbN : ∀ d, (![k, 0, 0] : Fin 3 → ℕ) d + S1x64x1024.size d ≤ S16x64x1024.size d)
    (sb : Vec Ideal S1x1024x32 .bf16) (hsb : ∀ (m : Fin 1024) (h : Fin 32), sb (ix3 (0 : Fin 1) m h) = S (ix3 (⟨k, hk⟩ : Fin 16) m h))
    (g : Fin 16) (j : Fin 128) :
    max (∑ m : Fin 1024, (View.readAt (Elt Ideal) arg4.view (Rect.unit (s := S16x64x1024) ![k, 0, 0] S1x64x1024.size inbN).toLoadRect (harg4.unread x3)) (ix3 (0 : Fin 1) ⟨4 * g.val + j.val / 32, by omega⟩ m) * sb (ix3 (0 : Fin 1) m ⟨j.val % 32, Nat.mod_lt _ (by decide)⟩)
        + (View.readAt (Elt Ideal) arg3.view (Rect.unit (s := S1x32) ![0, 0] S1x32.size inb_S1x32_S1x32_0_0).toLoadRect (harg3.unread x2)) (ix2 (0 : Fin 1) ⟨j.val % 32, Nat.mod_lt _ (by decide)⟩)) 0
      = packedAt x3 S x2 ⟨k, hk⟩ g j := by
  have hB : View.readAt (Elt Ideal) arg3.view (Rect.unit (s := S1x32) ![0, 0] S1x32.size inb_S1x32_S1x32_0_0).toLoadRect (harg3.unread x2) = x2 :=
    whole_read arg3 harg3 x2 (by funext d; match d with | ⟨0, _⟩ => rfl | ⟨1, _⟩ => rfl) _
  unfold packedAt
  rw [hB]
  simp only [hsb, slab3_read arg4 harg4 x3 k hk inbN]

/-- Each of the sixteen stored rows is the block of `packed` its rectangle names, when the sixteen loaded support slabs
    are the slabs of one array S. -/
theorem packedPieces_isBlock (arg3 : Memref sig .tc .vmem S1x32 .f32) (harg3 : arg3.IsWhole) (arg4 : Memref sig .tc .vmem S16x64x1024 .f32) (harg4 : arg4.IsWhole)
    (x2 : Vec Ideal S1x32 .f32) (x3 : Vec Ideal S16x64x1024 .f32)
    (sl : (k : ℕ) → (∀ d, (![k, 0, 0] : Fin 3 → ℕ) d + S1x1024x32.size d ≤ S16x1024x32.size d) → Vec Ideal S1x1024x32 .bf16)
    (S : Vec Ideal S16x1024x32 .bf16)
    (hsl : ∀ (k : ℕ) (inb) (hk : k < 16) (m : Fin 1024) (h : Fin 32), sl k inb (ix3 (0 : Fin 1) m h) = S (ix3 (⟨k, hk⟩ : Fin 16) m h)) :
    ∀ p ∈ packedPieces arg3 harg3 arg4 harg4 x2 x3 sl, ∀ x : p.1.shape.Idx, p.2 x = packed x3 S x2 (p.1.emb x) := by
  intro p hp
  unfold packedPieces at hp
  simp only [List.mem_cons, List.not_mem_nil, or_false] at hp
  rcases hp with rfl | rfl | rfl | rfl | rfl | rfl | rfl | rfl | rfl | rfl | rfl | rfl | rfl | rfl | rfl | rfl
  · intro x
    exact row_isBlock x3 S x2 15 (by decide) inb_S16x16x128_S1x16x128_15_0_0 _ (fun g j => (actRow15_apply _ _ _ g j).trans (rowVal arg3 harg3 arg4 harg4 x2 x3 S 15 (by decide) inb_S16x64x1024_S1x64x1024_15_0_0 _ (hsl 15 inb_S16x1024x32_S1x1024x32_15_0_0 (by decide)) g j)) x
  · intro x
    exact row_isBlock x3 S x2 14 (by decide) inb_S16x16x128_S1x16x128_14_0_0 _ (fun g j => (actRow14_apply _ _ _ g j).trans (rowVal arg3 harg3 arg4 harg4 x2 x3 S 14 (by decide) inb_S16x64x1024_S1x64x1024_14_0_0 _ (hsl 14 inb_S16x1024x32_S1x1024x32_14_0_0 (by decide)) g j)) x
  · intro x
    exact row_isBlock x3 S x2 13 (by decide) inb_S16x16x128_S1x16x128_13_0_0 _ (fun g j => (actRow13_apply _ _ _ g j).trans (rowVal arg3 harg3 arg4 harg4 x2 x3 S 13 (by decide) inb_S16x64x1024_S1x64x1024_13_0_0 _ (hsl 13 inb_S16x1024x32_S1x1024x32_13_0_0 (by decide)) g j)) x
  · intro x
    exact row_isBlock x3 S x2 12 (by decide) inb_S16x16x128_S1x16x128_12_0_0 _ (fun g j => (actRow12_apply _ _ _ g j).trans (rowVal arg3 harg3 arg4 harg4 x2 x3 S 12 (by decide) inb_S16x64x1024_S1x64x1024_12_0_0 _ (hsl 12 inb_S16x1024x32_S1x1024x32_12_0_0 (by decide)) g j)) x
  · intro x
    exact row_isBlock x3 S x2 11 (by decide) inb_S16x16x128_S1x16x128_11_0_0 _ (fun g j => (actRow11_apply _ _ _ g j).trans (rowVal arg3 harg3 arg4 harg4 x2 x3 S 11 (by decide) inb_S16x64x1024_S1x64x1024_11_0_0 _ (hsl 11 inb_S16x1024x32_S1x1024x32_11_0_0 (by decide)) g j)) x
  · intro x
    exact row_isBlock x3 S x2 10 (by decide) inb_S16x16x128_S1x16x128_10_0_0 _ (fun g j => (actRow10_apply _ _ _ g j).trans (rowVal arg3 harg3 arg4 harg4 x2 x3 S 10 (by decide) inb_S16x64x1024_S1x64x1024_10_0_0 _ (hsl 10 inb_S16x1024x32_S1x1024x32_10_0_0 (by decide)) g j)) x
  · intro x
    exact row_isBlock x3 S x2 9 (by decide) inb_S16x16x128_S1x16x128_9_0_0 _ (fun g j => (actRow9_apply _ _ _ g j).trans (rowVal arg3 harg3 arg4 harg4 x2 x3 S 9 (by decide) inb_S16x64x1024_S1x64x1024_9_0_0 _ (hsl 9 inb_S16x1024x32_S1x1024x32_9_0_0 (by decide)) g j)) x
  · intro x
    exact row_isBlock x3 S x2 8 (by decide) inb_S16x16x128_S1x16x128_8_0_0 _ (fun g j => (actRow8_apply _ _ _ g j).trans (rowVal arg3 harg3 arg4 harg4 x2 x3 S 8 (by decide) inb_S16x64x1024_S1x64x1024_8_0_0 _ (hsl 8 inb_S16x1024x32_S1x1024x32_8_0_0 (by decide)) g j)) x
  · intro x
    exact row_isBlock x3 S x2 7 (by decide) inb_S16x16x128_S1x16x128_7_0_0 _ (fun g j => (actRow7_apply _ _ _ g j).trans (rowVal arg3 harg3 arg4 harg4 x2 x3 S 7 (by decide) inb_S16x64x1024_S1x64x1024_7_0_0 _ (hsl 7 inb_S16x1024x32_S1x1024x32_7_0_0 (by decide)) g j)) x
  · intro x
    exact row_isBlock x3 S x2 6 (by decide) inb_S16x16x128_S1x16x128_6_0_0 _ (fun g j => (actRow6_apply _ _ _ g j).trans (rowVal arg3 harg3 arg4 harg4 x2 x3 S 6 (by decide) inb_S16x64x1024_S1x64x1024_6_0_0 _ (hsl 6 inb_S16x1024x32_S1x1024x32_6_0_0 (by decide)) g j)) x
  · intro x
    exact row_isBlock x3 S x2 5 (by decide) inb_S16x16x128_S1x16x128_5_0_0 _ (fun g j => (actRow5_apply _ _ _ g j).trans (rowVal arg3 harg3 arg4 harg4 x2 x3 S 5 (by decide) inb_S16x64x1024_S1x64x1024_5_0_0 _ (hsl 5 inb_S16x1024x32_S1x1024x32_5_0_0 (by decide)) g j)) x
  · intro x
    exact row_isBlock x3 S x2 4 (by decide) inb_S16x16x128_S1x16x128_4_0_0 _ (fun g j => (actRow4_apply _ _ _ g j).trans (rowVal arg3 harg3 arg4 harg4 x2 x3 S 4 (by decide) inb_S16x64x1024_S1x64x1024_4_0_0 _ (hsl 4 inb_S16x1024x32_S1x1024x32_4_0_0 (by decide)) g j)) x
  · intro x
    exact row_isBlock x3 S x2 3 (by decide) inb_S16x16x128_S1x16x128_3_0_0 _ (fun g j => (actRow3_apply _ _ _ g j).trans (rowVal arg3 harg3 arg4 harg4 x2 x3 S 3 (by decide) inb_S16x64x1024_S1x64x1024_3_0_0 _ (hsl 3 inb_S16x1024x32_S1x1024x32_3_0_0 (by decide)) g j)) x
  · intro x
    exact row_isBlock x3 S x2 2 (by decide) inb_S16x16x128_S1x16x128_2_0_0 _ (fun g j => (actRow2_apply _ _ _ g j).trans (rowVal arg3 harg3 arg4 harg4 x2 x3 S 2 (by decide) inb_S16x64x1024_S1x64x1024_2_0_0 _ (hsl 2 inb_S16x1024x32_S1x1024x32_2_0_0 (by decide)) g j)) x
  · intro x
    exact row_isBlock x3 S x2 1 (by decide) inb_S16x16x128_S1x16x128_1_0_0 _ (fun g j => (actRow1_apply _ _ _ g j).trans (rowVal arg3 harg3 arg4 harg4 x2 x3 S 1 (by decide) inb_S16x64x1024_S1x64x1024_1_0_0 _ (hsl 1 inb_S16x1024x32_S1x1024x32_1_0_0 (by decide)) g j)) x
  · intro x
    exact row_isBlock x3 S x2 0 (by decide) inb_S16x16x128_S1x16x128_0_0_0 _ (fun g j => (actRow0_apply _ _ _ g j).trans (rowVal arg3 harg3 arg4 harg4 x2 x3 S 0 (by decide) inb_S16x64x1024_S1x64x1024_0_0_0 _ (hsl 0 inb_S16x1024x32_S1x1024x32_0_0_0 (by decide)) g j)) x

/-- The sixteen rows tile the scratch. -/
theorem packedPieces_cover (arg3 : Memref sig .tc .vmem S1x32 .f32) (harg3 : arg3.IsWhole) (arg4 : Memref sig .tc .vmem S16x64x1024 .f32) (harg4 : arg4.IsWhole)
    (x2 : Vec Ideal S1x32 .f32) (x3 : Vec Ideal S16x64x1024 .f32)
    (sl : (k : ℕ) → (∀ d, (![k, 0, 0] : Fin 3 → ℕ) d + S1x1024x32.size d ≤ S16x1024x32.size d) → Vec Ideal S1x1024x32 .bf16)
    (y : S16x16x128.Idx) : ∃ p ∈ packedPieces arg3 harg3 arg4 harg4 x2 x3 sl, y ∈ p.1.set :=
  View.cover_of_tiledL (packedPieces arg3 harg3 arg4 harg4 x2 x3 sl) S1x16x128.size (by sl_kernel_rfl) y

/-- A load of row group g of the scratch, after stores whose rows are blocks of one function G that tile it, reads G. -/
theorem rowGroup_read (arg9 : Memref sig .tc .vmem S16x16x128 .f32) (L : List (View.Piece (Elt Ideal) S16x16x128 .f32)) (G : Vec Ideal S16x16x128 .f32)
    (hL : ∀ p ∈ L, ∀ x : p.1.shape.Idx, p.2 x = G (p.1.emb x)) (hcov : ∀ y : S16x16x128.Idx, ∃ p ∈ L, y ∈ p.1.set)
    (g : ℕ) (hg : g < 16) (inb : ∀ d, (![0, g, 0] : Fin 3 → ℕ) d + S16x1x128.size d ≤ S16x16x128.size d) (b : Fin 16) (j : Fin 128) :
    arg9.view.readCov L (Rect.unit (s := S16x16x128) ![0, g, 0] S16x1x128.size inb).toLoadRect (ix3 b (0 : Fin 1) j) = G (ix3 b (⟨g, hg⟩ : Fin 16) j) := by
  rw [View.readCov_eq_canon']
  show View.canon L _ = _
  rw [View.canon_apply_of_pieces G L hL _ (hcov _)]
  congr 1
  funext d
  apply Fin.ext
  match d with
  | ⟨0, _⟩ => show 0 + 1 * b.val = b.val; omega
  | ⟨1, _⟩ => show g + 1 * 0 = g; omega
  | ⟨2, _⟩ => show 0 + 1 * j.val = j.val; omega

end Cert.KernelIdeal.Hand

end
-- ==== Proof.PayloadSupport.lean ====
/-
  One sample's slab of the support: the 1024 x 128 feature block times the 128 x 32 weight, stored as one
  1 x 1024 x 32 piece (the change of float format is the identity over the extended reals).  The sixteen stores carry
  sixteen spellings of this one computation; each is read here at a node and a channel.
-/
import proofs.«148299_g69045894250503_cont_sun_m_1325_18_alg».proof.Proof.Gen.KernelIdeal.Skeleton
import proofs.«148299_g69045894250503_cont_sun_m_1325_18_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

theorem supRow0_apply (xb : Vec Ideal S1x1024x128 .f32) (w : Vec Ideal S128x32 .f32) (n : Fin 1024) (h : Fin 32) :
    (k0_pay4 xb w : FVec Ideal S1x1024x32 .bf16) (ix3 (0 : Fin 1) n h) = ∑ f : Fin 128, xb (ix3 (0 : Fin 1) n f) * w (ix2 f h) := by
  unfold k0_pay4
  -- the outer reshape only adds the unit axis; the change of format is the identity
  refine (shapeCast_ab_1ab_apply _ _ (0 : Fin 1) n h).trans ?_
  refine (truncf_apply (ψ := .bf16) _ bitsLt_bf16_f32 _).trans ?_
  -- the product into the zero accumulator is the bare contraction sum, re-indexed over the 128 features
  refine (Ideal.matmul_constant_zero_apply _ _ _ _ _).trans ?_
  refine (PlainDot.sum_eq (M := EReal) dot_S1024x128_S128x32_S1024x32_1_0_0_1_n_n rfl rfl rfl rfl rfl rfl _ _ n h).trans ?_
  -- the inner reshape only drops the unit axis
  refine Finset.sum_congr rfl fun f _ => ?_
  exact congrArg (· * w (ix2 f h)) (shapeCast_1ab_ab_apply xb _ n f)

theorem supRow1_apply (xb : Vec Ideal S1x1024x128 .f32) (w : Vec Ideal S128x32 .f32) (n : Fin 1024) (h : Fin 32) :
    (k0_pay5 xb w : FVec Ideal S1x1024x32 .bf16) (ix3 (0 : Fin 1) n h) = ∑ f : Fin 128, xb (ix3 (0 : Fin 1) n f) * w (ix2 f h) :=
  supRow0_apply xb w n h

theorem supRow2_apply (xb : Vec Ideal S1x1024x128 .f32) (w : Vec Ideal S128x32 .f32) (n : Fin 1024) (h : Fin 32) :
    (k0_pay6 xb w : FVec Ideal S1x1024x32 .bf16) (ix3 (0 : Fin 1) n h) = ∑ f : Fin 128, xb (ix3 (0 : Fin 1) n f) * w (ix2 f h) :=
  supRow0_apply xb w n h

theorem supRow3_apply (xb : Vec Ideal S1x1024x128 .f32) (w : Vec Ideal S128x32 .f32) (n : Fin 1024) (h : Fin 32) :
    (k0_pay8 (k0_pay7 xb) w : FVec Ideal S1x1024x32 .bf16) (ix3 (0 : Fin 1) n h) = ∑ f : Fin 128, xb (ix3 (0 : Fin 1) n f) * w (ix2 f h) :=
  supRow0_apply xb w n h

theorem supRow4_apply (xb : Vec Ideal S1x1024x128 .f32) (w : Vec Ideal S128x32 .f32) (n : Fin 1024) (h : Fin 32) :
    (k0_pay9 xb w : FVec Ideal S1x1024x32 .bf16) (ix3 (0 : Fin 1) n h) = ∑ f : Fin 128, xb (ix3 (0 : Fin 1) n f) * w (ix2 f h) :=
  supRow0_apply xb w n h

theorem supRow5_apply (xb : Vec Ideal S1x1024x128 .f32) (w : Vec Ideal S128x32 .f32) (n : Fin 1024) (h : Fin 32) :
    (k0_pay10 xb w : FVec Ideal S1x1024x32 .bf16) (ix3 (0 : Fin 1) n h) = ∑ f : Fin 128, xb (ix3 (0 : Fin 1) n f) * w (ix2 f h) :=
  supRow0_apply xb w n h

theorem supRow6_apply (xb : Vec Ideal S1x1024x128 .f32) (w : Vec Ideal S128x32 .f32) (n : Fin 1024) (h : Fin 32) :
    (k0_pay12 (k0_pay11 xb w) : FVec Ideal S1x1024x32 .bf16) (ix3 (0 : Fin 1) n h) = ∑ f : Fin 128, xb (ix3 (0 : Fin 1) n f) * w (ix2 f h) :=
  supRow0_apply xb w n h

theorem supRow7_apply (xb : Vec Ideal S1x1024x128 .f32) (w : Vec Ideal S128x32 .f32) (n : Fin 1024) (h : Fin 32) :
    (k0_pay13 xb w : FVec Ideal S1x1024x32 .bf16) (ix3 (0 : Fin 1) n h) = ∑ f : Fin 128, xb (ix3 (0 : Fin 1) n f) * w (ix2 f h) :=
  supRow0_apply xb w n h

theorem supRow8_apply (xb : Vec Ideal S1x1024x128 .f32) (w : Vec Ideal S128x32 .f32) (n : Fin 1024) (h : Fin 32) :
    (k0_pay14 xb w : FVec Ideal S1x1024x32 .bf16) (ix3 (0 : Fin 1) n h) = ∑ f : Fin 128, xb (ix3 (0 : Fin 1) n f) * w (ix2 f h) :=
  supRow0_apply xb w n h

theorem supRow9_apply (xb : Vec Ideal S1x1024x128 .f32) (w : Vec Ideal S128x32 .f32) (n : Fin 1024) (h : Fin 32) :
    (k0_pay15 xb w : FVec Ideal S1x1024x32 .bf16) (ix3 (0 : Fin 1) n h) = ∑ f : Fin 128, xb (ix3 (0 : Fin 1) n f) * w (ix2 f h) :=
  supRow0_apply xb w n h

theorem supRow10_apply (xb : Vec Ideal S1x1024x128 .f32) (w : Vec Ideal S128x32 .f32) (n : Fin 1024) (h : Fin 32) :
    (k0_pay16 xb w : FVec Ideal S1x1024x32 .bf16) (ix3 (0 : Fin 1) n h) = ∑ f : Fin 128, xb (ix3 (0 : Fin 1) n f) * w (ix2 f h) :=
  supRow0_apply xb w n h

theorem supRow11_apply (xb : Vec Ideal S1x1024x128 .f32) (w : Vec Ideal S128x32 .f32) (n : Fin 1024) (h : Fin 32) :
    (k0_pay17 xb w : FVec Ideal S1x1024x32 .bf16) (ix3 (0 : Fin 1) n h) = ∑ f : Fin 128, xb (ix3 (0 : Fin 1) n f) * w (ix2 f h) :=
  supRow0_apply xb w n h

theorem supRow12_apply (xb : Vec Ideal S1x1024x128 .f32) (w : Vec Ideal S128x32 .f32) (n : Fin 1024) (h : Fin 32) :
    (k0_pay18 xb w : FVec Ideal S1x1024x32 .bf16) (ix3 (0 : Fin 1) n h) = ∑ f : Fin 128, xb (ix3 (0 : Fin 1) n f) * w (ix2 f h) :=
  supRow0_apply xb w n h

theorem supRow13_apply (xb : Vec Ideal S1x1024x128 .f32) (w : Vec Ideal S128x32 .f32) (n : Fin 1024) (h : Fin 32) :
    (k0_pay20 (k0_pay19 xb) w : FVec Ideal S1x1024x32 .bf16) (ix3 (0 : Fin 1) n h) = ∑ f : Fin 128, xb (ix3 (0 : Fin 1) n f) * w (ix2 f h) :=
  supRow0_apply xb w n h

theorem supRow14_apply (xb : Vec Ideal S1x1024x128 .f32) (w : Vec Ideal S128x32 .f32) (n : Fin 1024) (h : Fin 32) :
    (k0_pay21 xb w : FVec Ideal S1x1024x32 .bf16) (ix3 (0 : Fin 1) n h) = ∑ f : Fin 128, xb (ix3 (0 : Fin 1) n f) * w (ix2 f h) :=
  supRow0_apply xb w n h

theorem supRow15_apply (xb : Vec Ideal S1x1024x128 .f32) (w : Vec Ideal S128x32 .f32) (n : Fin 1024) (h : Fin 32) :
    (k0_pay22 xb w : FVec Ideal S1x1024x32 .bf16) (ix3 (0 : Fin 1) n h) = ∑ f : Fin 128, xb (ix3 (0 : Fin 1) n f) * w (ix2 f h) :=
  supRow0_apply xb w n h

end Cert.KernelIdeal.Hand

end
-- ==== Proof.IdealSupportRows.lean ====
/-
  What the first run leaves in the support scratch, as values over the extended reals.

  At grid point 0 the body stores sixteen slabs, one per sample: slab b is the sample's 1024 x 128 features times the
  128 x 32 layer weight.  The sixteen stored slabs are blocks of ONE function of the scratch's index,
  S[b, n, h] = ∑ f, x[b, n, f] · W[f, h], and they tile the scratch; so the scratch after point 0 holds S, and a load of
  slab k later at the same point reads S at (k, n, h).
-/
import proofs.«148299_g69045894250503_cont_sun_m_1325_18_alg».proof.Proof.IdealPacked
import proofs.«148299_g69045894250503_cont_sun_m_1325_18_alg».proof.Proof.PayloadSupport

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- S[b, n, h] = ∑ f, x[b, n, f] · W[f, h], as a function of the scratch's index. -/
def supportFn (x0 : Vec Ideal S16x1024x128 .f32) (x1 : Vec Ideal S128x32 .f32) : Vec Ideal S16x1024x32 .bf16 :=
  fun y => ∑ f : Fin 128, x0 (ix3 (y 0) (y 1) f) * x1 (ix2 f (y 2))

theorem supportFn_apply (x0 : Vec Ideal S16x1024x128 .f32) (x1 : Vec Ideal S128x32 .f32) (b : Fin 16) (n : Fin 1024) (h : Fin 32) :
    supportFn x0 x1 (ix3 b n h) = ∑ f : Fin 128, x0 (ix3 b n f) * x1 (ix2 f h) := rfl

/-- The sixteen slabs the body stores into the support scratch at point 0, last store first. -/
def supportPieces (arg1 : Memref sig .tc .vmem S16x1024x128 .f32) (harg1 : arg1.IsWhole) (arg2 : Memref sig .tc .vmem S128x32 .f32) (harg2 : arg2.IsWhole)
    (x0 : Vec Ideal S16x1024x128 .f32) (x1 : Vec Ideal S128x32 .f32) : List (View.Piece (Elt Ideal) S16x1024x32 .bf16) :=
  [
    ⟨Rect.unit (s := S16x1024x32) ![15, 0, 0] S1x1024x32.size inb_S16x1024x32_S1x1024x32_15_0_0,
      k0_pay22 (View.readAt (Elt Ideal) arg1.view (Rect.unit (s := S16x1024x128) ![15, 0, 0] S1x1024x128.size inb_S16x1024x128_S1x1024x128_15_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![14, 0, 0] S1x1024x32.size inb_S16x1024x32_S1x1024x32_14_0_0,
      k0_pay21 (View.readAt (Elt Ideal) arg1.view (Rect.unit (s := S16x1024x128) ![14, 0, 0] S1x1024x128.size inb_S16x1024x128_S1x1024x128_14_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![13, 0, 0] S1x1024x32.size inb_S16x1024x32_S1x1024x32_13_0_0,
      k0_pay20 (k0_pay19 (View.readAt (Elt Ideal) arg1.view (Rect.unit (s := S16x1024x128) ![13, 0, 0] S1x1024x128.size inb_S16x1024x128_S1x1024x128_13_0_0).toLoadRect (harg1.unread x0))) (View.readAt (Elt Ideal) arg2.view (Rect.unit (s := S128x32) ![0, 0] S128x32.size inb_S128x32_S128x32_0_0).toLoadRect (harg2.unread x1))⟩,
    ⟨Rect.unit (s := S16x1024x32) ![12, 0, 0] S1x1024x32.size inb_S16x1024x32_S1x1024x32_12_0_0,
      k0_pay18 (View.readAt (Elt Ideal) arg1.view (Rect.unit (s := S16x1024x128) ![12, 0, 0] S1x1024x128.size inb_S16x1024x128_S1x1024x128_12_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![11, 0, 0] S1x1024x32.size inb_S16x1024x32_S1x1024x32_11_0_0,
      k0_pay17 (View.readAt (Elt Ideal) arg1.view (Rect.unit (s := S16x1024x128) ![11, 0, 0] S1x1024x128.size inb_S16x1024x128_S1x1024x128_11_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![10, 0, 0] S1x1024x32.size inb_S16x1024x32_S1x1024x32_10_0_0,
      k0_pay16 (View.readAt (Elt Ideal) arg1.view (Rect.unit (s := S16x1024x128) ![10, 0, 0] S1x1024x128.size inb_S16x1024x128_S1x1024x128_10_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![9, 0, 0] S1x1024x32.size inb_S16x1024x32_S1x1024x32_9_0_0,
      k0_pay15 (View.readAt (Elt Ideal) arg1.view (Rect.unit (s := S16x1024x128) ![9, 0, 0] S1x1024x128.size inb_S16x1024x128_S1x1024x128_9_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![8, 0, 0] S1x1024x32.size inb_S16x1024x32_S1x1024x32_8_0_0,
      k0_pay14 (View.readAt (Elt Ideal) arg1.view (Rect.unit (s := S16x1024x128) ![8, 0, 0] S1x1024x128.size inb_S16x1024x128_S1x1024x128_8_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![7, 0, 0] S1x1024x32.size inb_S16x1024x32_S1x1024x32_7_0_0,
      k0_pay13 (View.readAt (Elt Ideal) arg1.view (Rect.unit (s := S16x1024x128) ![7, 0, 0] S1x1024x128.size inb_S16x1024x128_S1x1024x128_7_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![6, 0, 0] S1x1024x32.size inb_S16x1024x32_S1x1024x32_6_0_0,
      k0_pay12 (k0_pay11 (View.readAt (Elt Ideal) arg1.view (Rect.unit (s := S16x1024x128) ![6, 0, 0] S1x1024x128.size inb_S16x1024x128_S1x1024x128_6_0_0).toLoadRect (harg1.unread x0)) (View.readAt (Elt Ideal) arg2.view (Rect.unit (s := S128x32) ![0, 0] S128x32.size inb_S128x32_S128x32_0_0).toLoadRect (harg2.unread x1)))⟩,
    ⟨Rect.unit (s := S16x1024x32) ![5, 0, 0] S1x1024x32.size inb_S16x1024x32_S1x1024x32_5_0_0,
      k0_pay10 (View.readAt (Elt Ideal) arg1.view (Rect.unit (s := S16x1024x128) ![5, 0, 0] S1x1024x128.size inb_S16x1024x128_S1x1024x128_5_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![4, 0, 0] S1x1024x32.size inb_S16x1024x32_S1x1024x32_4_0_0,
      k0_pay9 (View.readAt (Elt Ideal) arg1.view (Rect.unit (s := S16x1024x128) ![4, 0, 0] S1x1024x128.size inb_S16x1024x128_S1x1024x128_4_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![3, 0, 0] S1x1024x32.size inb_S16x1024x32_S1x1024x32_3_0_0,
      k0_pay8 (k0_pay7 (View.readAt (Elt Ideal) arg1.view (Rect.unit (s := S16x1024x128) ![3, 0, 0] S1x1024x128.size inb_S16x1024x128_S1x1024x128_3_0_0).toLoadRect (harg1.unread x0))) (View.readAt (Elt Ideal) arg2.view (Rect.unit (s := S128x32) ![0, 0] S128x32.size inb_S128x32_S128x32_0_0).toLoadRect (harg2.unread x1))⟩,
    ⟨Rect.unit (s := S16x1024x32) ![2, 0, 0] S1x1024x32.size inb_S16x1024x32_S1x1024x32_2_0_0,
      k0_pay6 (View.readAt (Elt Ideal) arg1.view (Rect.unit (s := S16x1024x128) ![2, 0, 0] S1x1024x128.size inb_S16x1024x128_S1x1024x128_2_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![1, 0, 0] S1x1024x32.size inb_S16x1024x32_S1x1024x32_1_0_0,
      k0_pay5 (View.readAt (Elt Ideal) arg1.view (Rect.unit (s := S16x1024x128) ![1, 0, 0] S1x1024x128.size inb_S16x1024x128_S1x1024x128_1_0_0).toLoadRect (harg1.unread x0)) (View.readAt (Elt Ideal) arg2.view (Rect.unit (s := S128x32) ![0, 0] S128x32.size inb_S128x32_S128x32_0_0).toLoadRect (harg2.unread x1))⟩,
    ⟨Rect.unit (s := S16x1024x32) ![0, 0, 0] S1x1024x32.size inb_S16x1024x32_S1x1024x32_0_0_0,
      k0_pay4 (View.readAt (Elt Ideal) arg1.view (Rect.unit (s := S16x1024x128) ![0, 0, 0] S1x1024x128.size inb_S16x1024x128_S1x1024x128_0_0_0).toLoadRect (harg1.unread x0)) (View.readAt (Elt Ideal) arg2.view (Rect.unit (s := S128x32) ![0, 0] S128x32.size inb_S128x32_S128x32_0_0).toLoadRect (harg2.unread x1))⟩]

/-- One sample's slab value, with the loads read back to the buffers' contents. -/
theorem slabVal (arg1 : Memref sig .tc .vmem S16x1024x128 .f32) (harg1 : arg1.IsWhole) (arg2 : Memref sig .tc .vmem S128x32 .f32) (harg2 : arg2.IsWhole)
    (x0 : Vec Ideal S16x1024x128 .f32) (x1 : Vec Ideal S128x32 .f32)
    (k : ℕ) (hk : k < 16) (inbX : ∀ d, (![k, 0, 0] : Fin 3 → ℕ) d + S1x1024x128.size d ≤ S16x1024x128.size d)
    (n : Fin 1024) (h : Fin 32) :
    (∑ f : Fin 128, (View.readAt (Elt Ideal) arg1.view (Rect.unit (s := S16x1024x128) ![k, 0, 0] S1x1024x128.size inbX).toLoadRect (harg1.unread x0)) (ix3 (0 : Fin 1) n f)
        * (View.readAt (Elt Ideal) arg2.view (Rect.unit (s := S128x32) ![0, 0] S128x32.size inb_S128x32_S128x32_0_0).toLoadRect (harg2.unread x1)) (ix2 f h))
      = ∑ f : Fin 128, x0 (ix3 (⟨k, hk⟩ : Fin 16) n f) * x1 (ix2 f h) := by
  have hW : View.readAt (Elt Ideal) arg2.view (Rect.unit (s := S128x32) ![0, 0] S128x32.size inb_S128x32_S128x32_0_0).toLoadRect (harg2.unread x1) = x1 :=
    whole_read arg2 harg2 x1 (by funext d; match d with | ⟨0, _⟩ => rfl | ⟨1, _⟩ => rfl) _
  rw [hW]
  simp only [slab3_read arg1 harg1 x0 k hk inbX]

/-- A stored slab whose payload is sample k's support is the block of `supportFn` its rectangle names. -/
theorem slab_isBlock (x0 : Vec Ideal S16x1024x128 .f32) (x1 : Vec Ideal S128x32 .f32)
    (k : ℕ) (hk : k < 16) (inbP : ∀ d, (![k, 0, 0] : Fin 3 → ℕ) d + S1x1024x32.size d ≤ S16x1024x32.size d)
    (pay : FVec Ideal S1x1024x32 .bf16) (hpay : ∀ (n : Fin 1024) (h : Fin 32), pay (ix3 (0 : Fin 1) n h) = ∑ f : Fin 128, x0 (ix3 (⟨k, hk⟩ : Fin 16) n f) * x1 (ix2 f h))
    (x : (Rect.unit (s := S16x1024x32) ![k, 0, 0] S1x1024x32.size inbP).shape.Idx) :
    pay x = supportFn x0 x1 ((Rect.unit (s := S16x1024x32) ![k, 0, 0] S1x1024x32.size inbP).emb x) := by
  obtain ⟨a, n, h, rfl⟩ : ∃ (a : Fin 1) (n : Fin 1024) (h : Fin 32), x = ix3 a n h := ⟨x 0, x 1, x 2, eq_ix3 x⟩
  obtain rfl : a = 0 := Subsingleton.elim _ _
  rw [hpay n h]
  have e : (Rect.unit (s := S16x1024x32) ![k, 0, 0] S1x1024x32.size inbP).emb (ix3 (0 : Fin 1) n h) = ix3 (⟨k, hk⟩ : Fin 16) n h := by
    funext d
    apply Fin.ext
    match d with
    | ⟨0, _⟩ => show k + 1 * 0 = k; omega
    | ⟨1, _⟩ => show 0 + 1 * n.val = n.val; omega
    | ⟨2, _⟩ => show 0 + 1 * h.val = h.val; omega
  rw [e]; rfl

theorem supportPieces_isBlock (arg1 : Memref sig .tc .vmem S16x1024x128 .f32) (harg1 : arg1.IsWhole) (arg2 : Memref sig .tc .vmem S128x32 .f32) (harg2 : arg2.IsWhole)
    (x0 : Vec Ideal S16x1024x128 .f32) (x1 : Vec Ideal S128x32 .f32) :
    ∀ p ∈ supportPieces arg1 harg1 arg2 harg2 x0 x1, ∀ x : p.1.shape.Idx, p.2 x = supportFn x0 x1 (p.1.emb x) := by
  intro p hp
  unfold supportPieces at hp
  simp only [List.mem_cons, List.not_mem_nil, or_false] at hp
  rcases hp with rfl | rfl | rfl | rfl | rfl | rfl | rfl | rfl | rfl | rfl | rfl | rfl | rfl | rfl | rfl | rfl
  · intro x
    exact slab_isBlock x0 x1 15 (by decide) inb_S16x1024x32_S1x1024x32_15_0_0 _ (fun n h => (supRow15_apply _ _ n h).trans (slabVal arg1 harg1 arg2 harg2 x0 x1 15 (by decide) inb_S16x1024x128_S1x1024x128_15_0_0 n h)) x
  · intro x
    exact slab_isBlock x0 x1 14 (by decide) inb_S16x1024x32_S1x1024x32_14_0_0 _ (fun n h => (supRow14_apply _ _ n h).trans (slabVal arg1 harg1 arg2 harg2 x0 x1 14 (by decide) inb_S16x1024x128_S1x1024x128_14_0_0 n h)) x
  · intro x
    exact slab_isBlock x0 x1 13 (by decide) inb_S16x1024x32_S1x1024x32_13_0_0 _ (fun n h => (supRow13_apply _ _ n h).trans (slabVal arg1 harg1 arg2 harg2 x0 x1 13 (by decide) inb_S16x1024x128_S1x1024x128_13_0_0 n h)) x
  · intro x
    exact slab_isBlock x0 x1 12 (by decide) inb_S16x1024x32_S1x1024x32_12_0_0 _ (fun n h => (supRow12_apply _ _ n h).trans (slabVal arg1 harg1 arg2 harg2 x0 x1 12 (by decide) inb_S16x1024x128_S1x1024x128_12_0_0 n h)) x
  · intro x
    exact slab_isBlock x0 x1 11 (by decide) inb_S16x1024x32_S1x1024x32_11_0_0 _ (fun n h => (supRow11_apply _ _ n h).trans (slabVal arg1 harg1 arg2 harg2 x0 x1 11 (by decide) inb_S16x1024x128_S1x1024x128_11_0_0 n h)) x
  · intro x
    exact slab_isBlock x0 x1 10 (by decide) inb_S16x1024x32_S1x1024x32_10_0_0 _ (fun n h => (supRow10_apply _ _ n h).trans (slabVal arg1 harg1 arg2 harg2 x0 x1 10 (by decide) inb_S16x1024x128_S1x1024x128_10_0_0 n h)) x
  · intro x
    exact slab_isBlock x0 x1 9 (by decide) inb_S16x1024x32_S1x1024x32_9_0_0 _ (fun n h => (supRow9_apply _ _ n h).trans (slabVal arg1 harg1 arg2 harg2 x0 x1 9 (by decide) inb_S16x1024x128_S1x1024x128_9_0_0 n h)) x
  · intro x
    exact slab_isBlock x0 x1 8 (by decide) inb_S16x1024x32_S1x1024x32_8_0_0 _ (fun n h => (supRow8_apply _ _ n h).trans (slabVal arg1 harg1 arg2 harg2 x0 x1 8 (by decide) inb_S16x1024x128_S1x1024x128_8_0_0 n h)) x
  · intro x
    exact slab_isBlock x0 x1 7 (by decide) inb_S16x1024x32_S1x1024x32_7_0_0 _ (fun n h => (supRow7_apply _ _ n h).trans (slabVal arg1 harg1 arg2 harg2 x0 x1 7 (by decide) inb_S16x1024x128_S1x1024x128_7_0_0 n h)) x
  · intro x
    exact slab_isBlock x0 x1 6 (by decide) inb_S16x1024x32_S1x1024x32_6_0_0 _ (fun n h => (supRow6_apply _ _ n h).trans (slabVal arg1 harg1 arg2 harg2 x0 x1 6 (by decide) inb_S16x1024x128_S1x1024x128_6_0_0 n h)) x
  · intro x
    exact slab_isBlock x0 x1 5 (by decide) inb_S16x1024x32_S1x1024x32_5_0_0 _ (fun n h => (supRow5_apply _ _ n h).trans (slabVal arg1 harg1 arg2 harg2 x0 x1 5 (by decide) inb_S16x1024x128_S1x1024x128_5_0_0 n h)) x
  · intro x
    exact slab_isBlock x0 x1 4 (by decide) inb_S16x1024x32_S1x1024x32_4_0_0 _ (fun n h => (supRow4_apply _ _ n h).trans (slabVal arg1 harg1 arg2 harg2 x0 x1 4 (by decide) inb_S16x1024x128_S1x1024x128_4_0_0 n h)) x
  · intro x
    exact slab_isBlock x0 x1 3 (by decide) inb_S16x1024x32_S1x1024x32_3_0_0 _ (fun n h => (supRow3_apply _ _ n h).trans (slabVal arg1 harg1 arg2 harg2 x0 x1 3 (by decide) inb_S16x1024x128_S1x1024x128_3_0_0 n h)) x
  · intro x
    exact slab_isBlock x0 x1 2 (by decide) inb_S16x1024x32_S1x1024x32_2_0_0 _ (fun n h => (supRow2_apply _ _ n h).trans (slabVal arg1 harg1 arg2 harg2 x0 x1 2 (by decide) inb_S16x1024x128_S1x1024x128_2_0_0 n h)) x
  · intro x
    exact slab_isBlock x0 x1 1 (by decide) inb_S16x1024x32_S1x1024x32_1_0_0 _ (fun n h => (supRow1_apply _ _ n h).trans (slabVal arg1 harg1 arg2 harg2 x0 x1 1 (by decide) inb_S16x1024x128_S1x1024x128_1_0_0 n h)) x
  · intro x
    exact slab_isBlock x0 x1 0 (by decide) inb_S16x1024x32_S1x1024x32_0_0_0 _ (fun n h => (supRow0_apply _ _ n h).trans (slabVal arg1 harg1 arg2 harg2 x0 x1 0 (by decide) inb_S16x1024x128_S1x1024x128_0_0_0 n h)) x

theorem supportPieces_cover (arg1 : Memref sig .tc .vmem S16x1024x128 .f32) (harg1 : arg1.IsWhole) (arg2 : Memref sig .tc .vmem S128x32 .f32) (harg2 : arg2.IsWhole)
    (x0 : Vec Ideal S16x1024x128 .f32) (x1 : Vec Ideal S128x32 .f32) (y : S16x1024x32.Idx) :
    ∃ p ∈ supportPieces arg1 harg1 arg2 harg2 x0 x1, y ∈ p.1.set :=
  View.cover_of_tiledL (supportPieces arg1 harg1 arg2 harg2 x0 x1) S1x1024x32.size (by sl_kernel_rfl) y

/-- A load of slab k of the support scratch, after the sixteen stores, reads S at (k, n, h). -/
theorem supportSlab_read (arg8 : Memref sig .tc .vmem S16x1024x32 .bf16) (arg1 : Memref sig .tc .vmem S16x1024x128 .f32) (harg1 : arg1.IsWhole) (arg2 : Memref sig .tc .vmem S128x32 .f32) (harg2 : arg2.IsWhole)
    (x0 : Vec Ideal S16x1024x128 .f32) (x1 : Vec Ideal S128x32 .f32)
    (k : ℕ) (hk : k < 16) (inb : ∀ d, (![k, 0, 0] : Fin 3 → ℕ) d + S1x1024x32.size d ≤ S16x1024x32.size d) (n : Fin 1024) (h : Fin 32) :
    arg8.view.readCov (supportPieces arg1 harg1 arg2 harg2 x0 x1) (Rect.unit (s := S16x1024x32) ![k, 0, 0] S1x1024x32.size inb).toLoadRect (ix3 (0 : Fin 1) n h)
      = supportFn x0 x1 (ix3 (⟨k, hk⟩ : Fin 16) n h) := by
  rw [View.readCov_eq_canon']
  show View.canon _ _ = _
  rw [View.canon_apply_of_pieces (supportFn x0 x1) _ (supportPieces_isBlock arg1 harg1 arg2 harg2 x0 x1) _ (supportPieces_cover arg1 harg1 arg2 harg2 x0 x1 _)]
  congr 1
  funext d
  apply Fin.ext
  match d with
  | ⟨0, _⟩ => show k + 1 * 0 = k; omega
  | ⟨1, _⟩ => show 0 + 1 * n.val = n.val; omega
  | ⟨2, _⟩ => show 0 + 1 * h.val = h.val; omega

end Cert.KernelIdeal.Hand

end
-- ==== Proof.PayloadSum.lean ====
/-
  One grid point's sum of partial products.  The kernel starts from a zero 16 x 256 block and adds, left to right,
  sixteen products of a 16 x 128 row group of the packed activations (loaded as 16 x 1 x 128) with 128 rows of the
  weight chunk.  Over the extended reals the left-nested sum is the sum over the sixteen groups of the 128-term
  products.  At point 0 the bias row is then added; at a later point the block's previous contents are added in front.
-/
import proofs.«148299_g69045894250503_cont_sun_m_1325_18_alg».proof.Proof.Gen.KernelIdeal.Skeleton
import proofs.«148299_g69045894250503_cont_sun_m_1325_18_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-- The sixteen products' left-nested sum, as the body's parts compose it. -/
def chain {F : FTy → Type} [FloatOps F] (H : Fin 16 → Vec F S16x1x128 .f32) (U : Fin 16 → Vec F S128x256 .f32) : FVec F S16x256 .f32 :=
  k0_pay1 (k0_pay54 (k0_pay52 (k0_pay50 (H 0) (U 0) (H 1) (U 1)) (k0_pay51 (H 2)) (U 2) (H 3) (U 3) (H 4) (U 4) (H 5) (U 5) (H 6) (U 6)) (k0_pay53 (H 7) (U 7)) (H 8) (U 8) (H 9) (U 9) (H 10) (U 10) (H 11) (U 11) (H 12) (U 12)) (H 13) (U 13) (H 14) (U 14) (H 15) (U 15)

/-- A [a, 1, c] array cast to [a, c] reads, at (i, j), the operand at (i, 0, j): the two row-major positions
    agree, the middle axis having one element. -/
private theorem shapeCast_a1c_ac_apply {α : Type} {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- One product read at (b, o): the 128-term sum of the row group's entries times the weight rows' entries. -/
private theorem prod_apply (Hg : Vec Ideal S16x1x128 .f32) (Ug : Vec Ideal S128x256 .f32)
    (h : S16x1x128.ShapeCasts S16x128) (b : Fin 16) (o : Fin 256) :
    (matmul (F := Ideal) (φ₁ := .f32) (φ₂ := .f32) dot_S16x128_S128x256_S16x256_1_0_0_1_n_n none
        (shapeCast S16x128 Hg h) Ug (constant S16x256 .f32 0x00000000#32)) (ix2 b o)
      = ∑ j : Fin 128, Hg (ix3 b (0 : Fin 1) j) * Ug (ix2 j o) := by
  refine (Ideal.matmul_constant_zero_apply (φ₁ := .f32) (φ₂ := .f32) _ none _ _ _).trans ?_
  refine (PlainDot.sum_eq (M := EReal) dot_S16x128_S128x256_S16x256_1_0_0_1_n_n rfl rfl rfl rfl rfl rfl
    (shapeCast S16x128 Hg h) Ug b o).trans ?_
  exact Finset.sum_congr rfl fun j _ => congrArg (· * Ug (ix2 j o)) (shapeCast_a1c_ac_apply Hg h b j)

/-- A sum over sixteen indices written out left to right. -/
private theorem sum_fin16 {M : Type} [AddCommMonoid M] (f : Fin 16 → M) :
    ∑ g, f g = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem chain_apply (H : Fin 16 → Vec Ideal S16x1x128 .f32) (U : Fin 16 → Vec Ideal S128x256 .f32) (b : Fin 16) (o : Fin 256) :
    chain (F := Ideal) H U (ix2 b o) = ∑ g : Fin 16, ∑ j : Fin 128, H g (ix3 b (0 : Fin 1) j) * U g (ix2 j o) := by
  unfold chain k0_pay1 k0_pay54 k0_pay52 k0_pay50 k0_pay51 k0_pay53
  simp only [addf_apply, prod_apply, broadcast_apply]
  have hz : FloatOps.ofBits (F := Ideal) .f32 0x00000000#32 = (0 : EReal) := Ideal.ofBits_zero_f32
  rw [sum_fin16, hz, zero_add]

/-- The block stored at point 0: the chain plus the broadcast bias row. -/
theorem firstStore_apply (H : Fin 16 → Vec Ideal S16x1x128 .f32) (U : Fin 16 → Vec Ideal S128x256 .f32) (fb : Vec Ideal S1x256 .f32) (b : Fin 16) (o : Fin 256) :
    (k0_pay2 (k0_pay54 (k0_pay52 (k0_pay50 (H 0) (U 0) (H 1) (U 1)) (k0_pay51 (H 2)) (U 2) (H 3) (U 3) (H 4) (U 4) (H 5) (U 5) (H 6) (U 6)) (k0_pay53 (H 7) (U 7)) (H 8) (U 8) (H 9) (U 9) (H 10) (U 10) (H 11) (U 11) (H 12) (U 12)) (H 13) (U 13) (H 14) (U 14) (H 15) (U 15) fb : FVec Ideal S16x256 .f32) (ix2 b o)
      = chain (F := Ideal) H U (ix2 b o) + fb (ix2 (0 : Fin 1) o) := by
  unfold k0_pay2
  refine (addf_apply _ _ _).trans ?_
  refine congrArg₂ (· + ·) rfl ?_
  refine (broadcastTo_1b_ab_apply _ _ b o).trans ?_
  exact congrFun (shapeCast_self fb _) _

/-- The block stored at a later point: the previous contents plus the chain. -/
theorem laterStore_apply (H : Fin 16 → Vec Ideal S16x1x128 .f32) (U : Fin 16 → Vec Ideal S128x256 .f32) (prev : Vec Ideal S16x256 .f32) (b : Fin 16) (o : Fin 256) :
    (k0_pay3 (k0_pay54 (k0_pay52 (k0_pay50 (H 0) (U 0) (H 1) (U 1)) (k0_pay51 (H 2)) (U 2) (H 3) (U 3) (H 4) (U 4) (H 5) (U 5) (H 6) (U 6)) (k0_pay53 (H 7) (U 7)) (H 8) (U 8) (H 9) (U 9) (H 10) (U 10) (H 11) (U 11) (H 12) (U 12)) (H 13) (U 13) (H 14) (U 14) (H 15) (U 15) prev : FVec Ideal S16x256 .f32) (ix2 b o)
      = prev (ix2 b o) + chain (F := Ideal) H U (ix2 b o) := by
  unfold k0_pay3
  refine (addf_apply _ _ _).trans ?_
  refine congrArg₂ (· + ·) ?_ rfl
  exact congrFun (shapeCast_self prev _) _

end Cert.KernelIdeal.Hand

end
-- ==== Proof.Spec.lean ====
/-
  The mathematics both programs compute, stated once over the extended reals, coordinate by coordinate.

  A graph-convolution layer followed by a dense layer, for 16 samples of 1024 nodes:
    support   S[b,n,h]  = ∑ f < 128, x[b,n,f] · W[f,h]                                   (32 channels)
    activation a[b,n,h] = max (∑ m < 1024, A[b,n,m] · S[b,m,h] + β[h]) 0
    result    y[b,o]    = ∑ j < 32768, a[b, j / 32, j % 32] · U[j,o] + γ[o]               (256 outputs)
  The reference computes y in one sum over the flattened index j.  The kernel visits the nodes in sixteen chunks of
  64; chunk n contributes `point`: the sum over 16 groups of 4 nodes, each group one 128-term product against 128
  consecutive rows of U.  The output block after chunk 0 is that contribution plus γ; after chunk n+1, the block
  after chunk n plus chunk n+1's contribution (`blockAfter`).  `blockAfter_last`: after the last chunk the block is y.
  Only commutativity and associativity of + on the extended reals are used, so no finiteness is needed.
-/
import Idealize.ShloMosaic.PureOps.Ideal
import Idealize.ShloMosaic.Lib.ValueIdx

noncomputable section

namespace Cert.Spec

open Idealize.ShloMosaic

/-- S[b,n,h] = ∑ f, x[b,n,f] · W[f,h]. -/
def support (x : Fin 16 → Fin 1024 → Fin 128 → EReal) (w : Fin 128 → Fin 32 → EReal)
    (b : Fin 16) (n : Fin 1024) (h : Fin 32) : EReal :=
  ∑ f : Fin 128, x b n f * w f h

/-- a[b,r,h] = max (∑ m, A[b,r,m] · S[b,m,h] + β[h]) 0, for any number R of rows of A. -/
def act {R : ℕ} (net : Fin 16 → Fin R → Fin 1024 → EReal) (S : Fin 16 → Fin 1024 → Fin 32 → EReal) (gb : Fin 32 → EReal)
    (b : Fin 16) (r : Fin R) (h : Fin 32) : EReal :=
  max (∑ m : Fin 1024, net b r m * S b m h + gb h) 0

/-- One chunk's contribution, in the kernel's arrangement: 16 groups g of 4 nodes; lane j < 128 of group g is node
    4g + j / 32, channel j % 32, and meets row 128 g + j of the chunk's 2048 rows of U. -/
def pointSum (a : Fin 16 → Fin 64 → Fin 32 → EReal) (fw : Fin 2048 → Fin 256 → EReal) (b : Fin 16) (o : Fin 256) : EReal :=
  ∑ g : Fin 16, ∑ j : Fin 128,
    a b ⟨4 * g.val + j.val / 32, by omega⟩ ⟨j.val % 32, Nat.mod_lt _ (by decide)⟩ * fw ⟨128 * g.val + j.val, by omega⟩ o

/-- Rows 64 n .. 64 n + 63 of A. -/
def netChunk (net : Fin 16 → Fin 1024 → Fin 1024 → EReal) (n : Fin 16) : Fin 16 → Fin 64 → Fin 1024 → EReal :=
  fun b r m => net b ⟨64 * n.val + r.val, by omega⟩ m

/-- Rows 2048 n .. 2048 n + 2047 of U. -/
def fwChunk (fw : Fin 32768 → Fin 256 → EReal) (n : Fin 16) : Fin 2048 → Fin 256 → EReal :=
  fun r o => fw ⟨2048 * n.val + r.val, by omega⟩ o

/-- Chunk n's contribution to y. -/
def point (net : Fin 16 → Fin 1024 → Fin 1024 → EReal) (S : Fin 16 → Fin 1024 → Fin 32 → EReal) (gb : Fin 32 → EReal)
    (fw : Fin 32768 → Fin 256 → EReal) (n : Fin 16) : Fin 16 → Fin 256 → EReal :=
  pointSum (act (netChunk net n) S gb) (fwChunk fw n)

/-- The output block after chunk n. -/
def blockAfter (net : Fin 16 → Fin 1024 → Fin 1024 → EReal) (S : Fin 16 → Fin 1024 → Fin 32 → EReal) (gb : Fin 32 → EReal)
    (fw : Fin 32768 → Fin 256 → EReal) (fb : Fin 256 → EReal) : (n : ℕ) → n < 16 → Fin 16 → Fin 256 → EReal
  | 0, h => fun b o => point net S gb fw ⟨0, h⟩ b o + fb o
  | n + 1, h => fun b o => blockAfter net S gb fw fb n (Nat.lt_of_succ_lt h) b o + point net S gb fw ⟨n + 1, h⟩ b o

/-- y[b,o], as the reference sums it. -/
def total (net : Fin 16 → Fin 1024 → Fin 1024 → EReal) (S : Fin 16 → Fin 1024 → Fin 32 → EReal) (gb : Fin 32 → EReal)
    (fw : Fin 32768 → Fin 256 → EReal) (fb : Fin 256 → EReal) (b : Fin 16) (o : Fin 256) : EReal :=
  (∑ j : Fin 32768, act net S gb b ⟨j.val / 32, by omega⟩ ⟨j.val % 32, Nat.mod_lt _ (by decide)⟩ * fw j o) + fb o

end Cert.Spec

end
-- ==== Proof.IdealValue.lean ====
/-
  What the two runs of the body leave in the output block, as values over the extended reals.

  At a later grid point the stored block is the block's previous contents plus the chunk's contribution; at point 0 it
  is the chunk's contribution plus the bias row, with the support taken from this point's own stores.  The chunk's
  contribution is the specification's `pointSum` of the activations of the point's adjacency block against the
  point's block of the dense weight: each of the sixteen products reads one row group of the packed activations
  (a read-back through the sixteen stored rows) and 128 rows of the weight block.
-/
import proofs.«148299_g69045894250503_cont_sun_m_1325_18_alg».proof.Proof.IdealFrame
import proofs.«148299_g69045894250503_cont_sun_m_1325_18_alg».proof.Proof.IdealPacked
import proofs.«148299_g69045894250503_cont_sun_m_1325_18_alg».proof.Proof.IdealSupportRows
import proofs.«148299_g69045894250503_cont_sun_m_1325_18_alg».proof.Proof.PayloadSum
import proofs.«148299_g69045894250503_cont_sun_m_1325_18_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The chunk's contribution from the point's blocks and a support array. -/
def pointOf (x2 : Vec Ideal S1x32 .f32) (x3 : Vec Ideal S16x64x1024 .f32) (x4 : Vec Ideal S2048x256 .f32) (S : Vec Ideal S16x1024x32 .bf16) :
    Fin 16 → Fin 256 → EReal :=
  Cert.Spec.pointSum (Cert.Spec.act (fun b r m => x3 (ix3 b r m)) (fun b m h => S (ix3 b m h)) (fun h => x2 (ix2 (0 : Fin 1) h))) (fun r o => x4 (ix2 r o))

theorem inbH (g : Fin 16) : ∀ d, (![0, g.val, 0] : Fin 3 → ℕ) d + S16x1x128.size d ≤ S16x16x128.size d := by
  intro d
  match d with
  | ⟨0, _⟩ => show 0 + 16 ≤ 16; omega
  | ⟨1, _⟩ => show g.val + 1 ≤ 16; omega
  | ⟨2, _⟩ => show 0 + 128 ≤ 128; omega

theorem inbU (g : Fin 16) : ∀ d, (![128 * g.val, 0] : Fin 2 → ℕ) d + S128x256.size d ≤ S2048x256.size d := by
  intro d
  match d with
  | ⟨0, _⟩ => show 128 * g.val + 128 ≤ 2048; omega
  | ⟨1, _⟩ => show 0 + 256 ≤ 256; omega

/-- The sum of the sixteen products, each reading one row group of the packed activations and 128 rows of the weight
    block, is the chunk's contribution. -/
theorem products_eq (arg3 : Memref sig .tc .vmem S1x32 .f32) (harg3 : arg3.IsWhole) (arg4 : Memref sig .tc .vmem S16x64x1024 .f32) (harg4 : arg4.IsWhole)
    (arg5 : Memref sig .tc .vmem S2048x256 .f32) (harg5 : arg5.IsWhole) (arg9 : Memref sig .tc .vmem S16x16x128 .f32)
    (x2 : Vec Ideal S1x32 .f32) (x3 : Vec Ideal S16x64x1024 .f32) (x4 : Vec Ideal S2048x256 .f32)
    (sl : (k : ℕ) → (∀ d, (![k, 0, 0] : Fin 3 → ℕ) d + S1x1024x32.size d ≤ S16x1024x32.size d) → Vec Ideal S1x1024x32 .bf16)
    (S : Vec Ideal S16x1024x32 .bf16)
    (hsl : ∀ (k : ℕ) (inb) (hk : k < 16) (m : Fin 1024) (h : Fin 32), sl k inb (ix3 (0 : Fin 1) m h) = S (ix3 (⟨k, hk⟩ : Fin 16) m h))
    (b : Fin 16) (o : Fin 256) :
    chain (F := Ideal)
        (fun g => arg9.view.readCov (packedPieces arg3 harg3 arg4 harg4 x2 x3 sl) (Rect.unit (s := S16x16x128) ![0, g.val, 0] S16x1x128.size (inbH g)).toLoadRect)
        (fun g => View.readAt (Elt Ideal) arg5.view (Rect.unit (s := S2048x256) ![128 * g.val, 0] S128x256.size (inbU g)).toLoadRect (harg5.unread x4))
        (ix2 b o)
      = pointOf x2 x3 x4 S b o := by
  rw [chain_apply]
  unfold pointOf Cert.Spec.pointSum
  refine Finset.sum_congr rfl fun g _ => Finset.sum_congr rfl fun j _ => ?_
  dsimp only
  rw [rowGroup_read arg9 _ (packed x3 S x2) (packedPieces_isBlock arg3 harg3 arg4 harg4 x2 x3 sl S hsl) (packedPieces_cover arg3 harg3 arg4 harg4 x2 x3 sl) g.val g.isLt (inbH g) b j,
    rows2_read arg5 harg5 x4 (128 * g.val) (inbU g) j o (by omega)]
  rfl

set_option maxHeartbeats 4000000 in
/-- The block a later point stores: the previous contents plus the chunk's contribution. -/
theorem outLater_apply (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : ¬cond0_0 i) (hc1 : ¬cond0_1 i) (hc2 : cond0_2 i)
    (x0 : Vec Ideal S16x1024x128 .f32) (x1 : Vec Ideal S128x32 .f32) (x2 : Vec Ideal S1x32 .f32) (x3 : Vec Ideal S16x64x1024 .f32) (x4 : Vec Ideal S2048x256 .f32) (x5 : Vec Ideal S1x256 .f32) (xo6 : Vec Ideal S16x256 .f32) (xs0 : Vec Ideal S16x1024x32 .bf16) (b : Fin 16) (o : Fin 256) :
    outLater (F := Ideal) c i arg1 harg1 arg2 harg2 arg3 harg3 arg4 harg4 arg5 harg5 arg6 harg6 arg7 harg7 arg8 harg8 arg9 harg9 hc0 hc1 hc2 x0 x1 x2 x3 x4 x5 xo6 xs0 (ix2 b o)
      = xo6 (ix2 b o) + pointOf x2 x3 x4 xs0 b o := by
  unfold outLater
  rw [View.read_writes_eq_canon _ _ _ (outCoverLater c i arg1 harg1 arg2 harg2 arg3 harg3 arg4 harg4 arg5 harg5 arg6 harg6 arg7 harg7 arg8 harg8 arg9 harg9 hc0 hc1 hc2 x0 x1 x2 x3 x4 x5 xo6 xs0)]
  unfold runLater
  dsimp only
  sl_unfold_words
  rw [View.canon_unit_zero (by funext d; match d with | ⟨0, _⟩ => rfl | ⟨1, _⟩ => rfl)]
  refine (laterStore_apply
      (fun g => arg9.view.readCov (packedPieces arg3 harg3 arg4 harg4 x2 x3
          (fun k inb => View.readAt (Elt Ideal) arg8.view (Rect.unit (s := S16x1024x32) ![k, 0, 0] S1x1024x32.size inb).toLoadRect (harg8.unread xs0)))
        (Rect.unit (s := S16x16x128) ![0, g.val, 0] S16x1x128.size (inbH g)).toLoadRect)
      (fun g => View.readAt (Elt Ideal) arg5.view (Rect.unit (s := S2048x256) ![128 * g.val, 0] S128x256.size (inbU g)).toLoadRect (harg5.unread x4))
      (View.readAt (Elt Ideal) arg7.view (Rect.unit (s := S16x256) ![0, 0] S16x256.size inb_S16x256_S16x256_0_0).toLoadRect (harg7.unread xo6)) b o).trans ?_
  rw [products_eq arg3 harg3 arg4 harg4 arg5 harg5 arg9 x2 x3 x4 _ xs0 (fun k inb hk m h => slab3_read arg8 harg8 xs0 k hk inb m h) b o,
    whole_read arg7 harg7 xo6 (by funext d; match d with | ⟨0, _⟩ => rfl | ⟨1, _⟩ => rfl) _]

set_option maxHeartbeats 4000000 in
/-- The support scratch after point 0 holds S = x · W. -/
theorem supFirst_eq (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec Ideal S16x1024x128 .f32) (x1 : Vec Ideal S128x32 .f32) (x2 : Vec Ideal S1x32 .f32) (x3 : Vec Ideal S16x64x1024 .f32) (x4 : Vec Ideal S2048x256 .f32) (x5 : Vec Ideal S1x256 .f32) :
    supFirst (F := Ideal) c i arg1 harg1 arg2 harg2 arg3 harg3 arg4 harg4 arg5 harg5 arg6 harg6 arg7 harg7 arg8 harg8 arg9 harg9 hc0 hc1 hc2 x0 x1 x2 x3 x4 x5 = supportFn x0 x1 := by
  unfold supFirst
  rw [View.read_writes_eq_canon _ _ _ (supCover c i arg1 harg1 arg2 harg2 arg3 harg3 arg4 harg4 arg5 harg5 arg6 harg6 arg7 harg7 arg8 harg8 arg9 harg9 hc0 hc1 hc2 x0 x1 x2 x3 x4 x5)]
  unfold runFirst
  dsimp only
  sl_unfold_words
  funext y
  exact View.canon_apply_of_pieces (supportFn x0 x1) (supportPieces arg1 harg1 arg2 harg2 x0 x1)
    (supportPieces_isBlock arg1 harg1 arg2 harg2 x0 x1) y (supportPieces_cover arg1 harg1 arg2 harg2 x0 x1 y)

set_option maxHeartbeats 4000000 in
/-- The block point 0 stores: the chunk's contribution, the support taken from this point's own stores, plus the bias row. -/
theorem outFirst_apply (c : Dev nD) (i : grid0.Coords) (arg1 : Memref sig .tc .vmem S16x1024x128 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S16x64x1024 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x1024x32 .bf16) (harg8 : arg8.IsWhole) (arg9 : Memref sig .tc .vmem S16x16x128 .f32) (harg9 : arg9.IsWhole) (hc0 : cond0_0 i) (hc1 : cond0_1 i) (hc2 : ¬cond0_2 i)
    (x0 : Vec Ideal S16x1024x128 .f32) (x1 : Vec Ideal S128x32 .f32) (x2 : Vec Ideal S1x32 .f32) (x3 : Vec Ideal S16x64x1024 .f32) (x4 : Vec Ideal S2048x256 .f32) (x5 : Vec Ideal S1x256 .f32) (b : Fin 16) (o : Fin 256) :
    outFirst (F := Ideal) c i arg1 harg1 arg2 harg2 arg3 harg3 arg4 harg4 arg5 harg5 arg6 harg6 arg7 harg7 arg8 harg8 arg9 harg9 hc0 hc1 hc2 x0 x1 x2 x3 x4 x5 (ix2 b o)
      = pointOf x2 x3 x4 (supportFn x0 x1) b o + x5 (ix2 (0 : Fin 1) o) := by
  unfold outFirst
  rw [View.read_writes_eq_canon _ _ _ (outCoverFirst c i arg1 harg1 arg2 harg2 arg3 harg3 arg4 harg4 arg5 harg5 arg6 harg6 arg7 harg7 arg8 harg8 arg9 harg9 hc0 hc1 hc2 x0 x1 x2 x3 x4 x5)]
  unfold runFirst
  dsimp only
  sl_unfold_words
  rw [View.canon_unit_zero (by funext d; match d with | ⟨0, _⟩ => rfl | ⟨1, _⟩ => rfl)]
  refine (firstStore_apply
      (fun g => arg9.view.readCov (packedPieces arg3 harg3 arg4 harg4 x2 x3
          (fun k inb => arg8.view.readCov (supportPieces arg1 harg1 arg2 harg2 x0 x1) (Rect.unit (s := S16x1024x32) ![k, 0, 0] S1x1024x32.size inb).toLoadRect))
        (Rect.unit (s := S16x16x128) ![0, g.val, 0] S16x1x128.size (inbH g)).toLoadRect)
      (fun g => View.readAt (Elt Ideal) arg5.view (Rect.unit (s := S2048x256) ![128 * g.val, 0] S128x256.size (inbU g)).toLoadRect (harg5.unread x4))
      (View.readAt (Elt Ideal) arg6.view (Rect.unit (s := S1x256) ![0, 0] S1x256.size inb_S1x256_S1x256_0_0).toLoadRect (harg6.unread x5)) b o).trans ?_
  rw [products_eq arg3 harg3 arg4 harg4 arg5 harg5 arg9 x2 x3 x4 _ (supportFn x0 x1)
      (fun k inb hk m h => supportSlab_read arg8 arg1 harg1 arg2 harg2 x0 x1 k hk inb m h) b o,
    whole_read arg6 harg6 x5 (by funext d; match d with | ⟨0, _⟩ => rfl | ⟨1, _⟩ => rfl) _]

end Cert.KernelIdeal.Hand

end
-- ==== Proof.Blocks.lean ====
/-
  Each window's block at a grid point, read back to the argument arrays.  The features, the layer weight, and the two
  bias rows are one whole block at every point; the two bias rows reach the call through a host reshape of a vector
  into a one-row matrix.  The adjacency window's block at point t is rows 64 t .. 64 t + 63 of every sample; the dense
  weight's block at point t is rows 2048 t .. 2048 t + 2047.
-/
import proofs.«148299_g69045894250503_cont_sun_m_1325_18_alg».proof.Proof.Gen.KernelIdeal.Frame
import Idealize.ShloMosaic.Lib.ValueIdx
import Idealize.ShloMosaic.Lib.Pipeline.Value
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem Cert.KernelIdeal Cert.KernelIdeal.Gen

variable {F : FTy → Type} [FloatOps F]
variable (m : (ℓ : Loc nD τ sig) → Buf (Elt F) ℓ)

theorem blk0_apply (c : Dev nD) (t : Fin cfg0.N) (b : Fin 16) (n : Fin 1024) (f : Fin 128) :
    (iblk m c 0 t : Vec F S16x1024x128 .f32) (ix3 b n f) = (m ((c : Thread nD τ).loc main_arg0) : Vec F S16x1024x128 .f32) (ix3 b n f) := by
  have hidx : ∀ t : Fin cfg0.N, win0_0.index t (0 : Fin 3) = 0 ∧ win0_0.index t (1 : Fin 3) = 0 ∧ win0_0.index t (2 : Fin 3) = 0 :=
    (by decide +kernel : ∀ t : Fin grid0.N, _)
  obtain ⟨e0, e1, e2⟩ := hidx t
  show V m c main_arg0 (((cfg0.win 0).blk t).view.emb (ix3 b n f)) = _
  rw [V_main_arg0]
  refine congrArg _ ?_
  funext a; apply Fin.ext
  match a with
  | ⟨0, _⟩ => show win0_0.index t (0 : Fin 3) * 16 + 1 * b.val = b.val; omega
  | ⟨1, _⟩ => show win0_0.index t (1 : Fin 3) * 1024 + 1 * n.val = n.val; omega
  | ⟨2, _⟩ => show win0_0.index t (2 : Fin 3) * 128 + 1 * f.val = f.val; omega

theorem blk1_apply (c : Dev nD) (t : Fin cfg0.N) (f : Fin 128) (h : Fin 32) :
    (iblk m c 1 t : Vec F S128x32 .f32) (ix2 f h) = (m ((c : Thread nD τ).loc main_arg2) : Vec F S128x32 .f32) (ix2 f h) := by
  have hidx : ∀ t : Fin cfg0.N, win0_1.index t (0 : Fin 2) = 0 ∧ win0_1.index t (1 : Fin 2) = 0 :=
    (by decide +kernel : ∀ t : Fin grid0.N, _)
  obtain ⟨e0, e1⟩ := hidx t
  show V m c main_arg2 (((cfg0.win 1).blk t).view.emb (ix2 f h)) = _
  rw [V_main_arg2]
  refine congrArg _ ?_
  funext a; apply Fin.ext
  match a with
  | ⟨0, _⟩ => show win0_1.index t (0 : Fin 2) * 128 + 1 * f.val = f.val; omega
  | ⟨1, _⟩ => show win0_1.index t (1 : Fin 2) * 32 + 1 * h.val = h.val; omega

/-- The one-row matrix the layer bias reaches the call as: the bias vector with a unit axis in front. -/
private theorem V_main_v0_eq (c : Dev nD) :
    (V m c main_v0 : S1x32.Idx → Elt F .f32)
      = shapeCast S1x32 (m ((c : Thread nD τ).loc main_arg3) : S32.Idx → Elt F .f32) shapeCasts_S32_S1x32 := by
  dsimp only [Gen.V, Gen.hostOps0]
  after_results
  rfl

theorem blk2_apply (c : Dev nD) (t : Fin cfg0.N) (h : Fin 32) :
    (iblk m c 2 t : Vec F S1x32 .f32) (ix2 (0 : Fin 1) h) = (m ((c : Thread nD τ).loc main_arg3) : Vec F S32 .f32) (ix1 h) := by
  have hidx : ∀ t : Fin cfg0.N, win0_2.index t (0 : Fin 2) = 0 ∧ win0_2.index t (1 : Fin 2) = 0 :=
    (by decide +kernel : ∀ t : Fin grid0.N, _)
  obtain ⟨e0, e1⟩ := hidx t
  show V m c main_v0 (((cfg0.win 2).blk t).view.emb (ix2 (0 : Fin 1) h)) = _
  have hi : ((cfg0.win 2).blk t).view.emb (ix2 (0 : Fin 1) h) = (ix2 (0 : Fin 1) h : S1x32.Idx) := by
    funext a; apply Fin.ext
    match a with
    | ⟨0, _⟩ => show win0_2.index t (0 : Fin 2) * 1 + 1 * (0 : Fin 1).val = (0 : Fin 1).val; omega
    | ⟨1, _⟩ => show win0_2.index t (1 : Fin 2) * 32 + 1 * h.val = h.val; omega
  rw [hi]
  refine (congrFun (V_main_v0_eq m c) _).trans ?_
  exact shapeCast_a_1a_apply _ _ _ _

theorem blk3_apply (c : Dev nD) (t : Fin cfg0.N) (b : Fin 16) (r : Fin 64) (k : Fin 1024) :
    (iblk m c 3 t : Vec F S16x64x1024 .f32) (ix3 b r k)
      = (m ((c : Thread nD τ).loc main_arg1) : Vec F S16x1024x1024 .f32) (ix3 b (⟨64 * t.val + r.val, (by have := lt_of_lt_of_eq t.isLt (show cfg0.N = 16 from N_0); omega)⟩ : Fin 1024) k) := by
  have hidx : ∀ t : Fin cfg0.N, win0_3.index t (0 : Fin 3) = 0 ∧ win0_3.index t (1 : Fin 3) = t.val ∧ win0_3.index t (2 : Fin 3) = 0 :=
    (by decide +kernel : ∀ t : Fin grid0.N, _)
  obtain ⟨e0, e1, e2⟩ := hidx t
  show V m c main_arg1 (((cfg0.win 3).blk t).view.emb (ix3 b r k)) = _
  rw [V_main_arg1]
  refine congrArg _ ?_
  funext a; apply Fin.ext
  match a with
  | ⟨0, _⟩ => show win0_3.index t (0 : Fin 3) * 16 + 1 * b.val = b.val; omega
  | ⟨1, _⟩ => show win0_3.index t (1 : Fin 3) * 64 + 1 * r.val = 64 * t.val + r.val; omega
  | ⟨2, _⟩ => show win0_3.index t (2 : Fin 3) * 1024 + 1 * k.val = k.val; omega

theorem blk4_apply (c : Dev nD) (t : Fin cfg0.N) (r : Fin 2048) (o : Fin 256) :
    (iblk m c 4 t : Vec F S2048x256 .f32) (ix2 r o)
      = (m ((c : Thread nD τ).loc main_arg4) : Vec F S32768x256 .f32) (ix2 (⟨2048 * t.val + r.val, (by have := lt_of_lt_of_eq t.isLt (show cfg0.N = 16 from N_0); omega)⟩ : Fin 32768) o) := by
  have hidx : ∀ t : Fin cfg0.N, win0_4.index t (0 : Fin 2) = t.val ∧ win0_4.index t (1 : Fin 2) = 0 :=
    (by decide +kernel : ∀ t : Fin grid0.N, _)
  obtain ⟨e0, e1⟩ := hidx t
  show V m c main_arg4 (((cfg0.win 4).blk t).view.emb (ix2 r o)) = _
  rw [V_main_arg4]
  refine congrArg _ ?_
  funext a; apply Fin.ext
  match a with
  | ⟨0, _⟩ => show win0_4.index t (0 : Fin 2) * 2048 + 1 * r.val = 2048 * t.val + r.val; omega
  | ⟨1, _⟩ => show win0_4.index t (1 : Fin 2) * 256 + 1 * o.val = o.val; omega

/-- The one-row matrix the dense bias reaches the call as: the bias vector with a unit axis in front. -/
private theorem V_main_v1_eq (c : Dev nD) :
    (V m c main_v1 : S1x256.Idx → Elt F .f32)
      = shapeCast S1x256 (m ((c : Thread nD τ).loc main_arg5) : S256.Idx → Elt F .f32) shapeCasts_S256_S1x256 := by
  dsimp only [Gen.V, Gen.hostOps0]
  after_results
  rfl

theorem blk5_apply (c : Dev nD) (t : Fin cfg0.N) (o : Fin 256) :
    (iblk m c 5 t : Vec F S1x256 .f32) (ix2 (0 : Fin 1) o) = (m ((c : Thread nD τ).loc main_arg5) : Vec F S256 .f32) (ix1 o) := by
  have hidx : ∀ t : Fin cfg0.N, win0_5.index t (0 : Fin 2) = 0 ∧ win0_5.index t (1 : Fin 2) = 0 :=
    (by decide +kernel : ∀ t : Fin grid0.N, _)
  obtain ⟨e0, e1⟩ := hidx t
  show V m c main_v1 (((cfg0.win 5).blk t).view.emb (ix2 (0 : Fin 1) o)) = _
  have hi : ((cfg0.win 5).blk t).view.emb (ix2 (0 : Fin 1) o) = (ix2 (0 : Fin 1) o : S1x256.Idx) := by
    funext a; apply Fin.ext
    match a with
    | ⟨0, _⟩ => show win0_5.index t (0 : Fin 2) * 1 + 1 * (0 : Fin 1).val = (0 : Fin 1).val; omega
    | ⟨1, _⟩ => show win0_5.index t (1 : Fin 2) * 256 + 1 * o.val = o.val; omega
  rw [hi]
  refine (congrFun (V_main_v1_eq m c) _).trans ?_
  exact shapeCast_a_1a_apply _ _ _ _

end Cert.KernelIdeal.Hand

end
-- ==== Proof.Algebra.lean ====
/-
  The kernel's arrangement of the dense layer's sum equals the reference's.  The flattened index j < 32768 is
  2048 n + 128 g + l with n, g < 16 and l < 128; its node j / 32 is 64 n + 4 g + l / 32 and its channel j % 32 is
  l % 32.  So the sum over j splits into the sixteen chunks' contributions, and the running block (bias added after
  chunk 0, each later chunk added on the right) ends at the total.  Addition on the extended reals is commutative and
  associative, which is all this uses.
-/
import proofs.«148299_g69045894250503_cont_sun_m_1325_18_alg».proof.Proof.Spec
import Mathlib.Algebra.BigOperators.Fin
import Mathlib.Algebra.BigOperators.Group.Finset.Basic
import Mathlib.Data.Fintype.BigOperators
import Mathlib.Logic.Equiv.Fin.Basic

noncomputable section

namespace Cert.Spec

/-- b i + k < a b for i < a and k < b: the bound of a two-digit index. -/
private theorem split_lt {a b i k : ℕ} (hi : i < a) (hk : k < b) : b * i + k < a * b := by
  have h1 : b * (i + 1) ≤ b * a := Nat.mul_le_mul_left b hi
  rw [Nat.mul_succ, Nat.mul_comm b a] at h1
  omega

/-- A sum over a b indices is the sum over the high digit i < a of the sums over the low digit k < b, the index
    being b i + k. -/
private theorem sum_split (a b : ℕ) (f : Fin (a * b) → EReal) :
    ∑ j : Fin (a * b), f j = ∑ i : Fin a, ∑ k : Fin b, f ⟨b * i.val + k.val, split_lt i.2 k.2⟩ := by
  rw [← finProdFinEquiv.sum_comp f, Fintype.sum_prod_type]
  refine Finset.sum_congr rfl fun i _ => Finset.sum_congr rfl fun k _ => ?_
  exact congrArg f (Fin.ext (Nat.add_comm _ _))

/-- Equal coordinates give equal entries. -/
private theorem entry_congr (A : Fin 1024 → Fin 32 → EReal) {i i' h h' : ℕ} (hi : i < 1024) (hi' : i' < 1024)
    (hh : h < 32) (hh' : h' < 32) (e1 : i = i') (e2 : h = h') : A ⟨i, hi⟩ ⟨h, hh⟩ = A ⟨i', hi'⟩ ⟨h', hh'⟩ := by
  subst e1 e2; rfl

/-- The sum over (chunk n, group g, lane l) in the kernel's arrangement is the sum over the flattened index
    j = 2048 n + 128 g + l, whose node is j / 32 = 64 n + 4 g + l / 32 and whose channel is j % 32 = l % 32. -/
private theorem regroup (A : Fin 1024 → Fin 32 → EReal) (u : Fin 32768 → EReal) :
    ∑ n : Fin 16, ∑ g : Fin 16, ∑ l : Fin 128,
        A ⟨64 * n.val + (4 * g.val + l.val / 32), by omega⟩ ⟨l.val % 32, Nat.mod_lt _ (by decide)⟩
          * u ⟨2048 * n.val + (128 * g.val + l.val), by omega⟩
      = ∑ j : Fin 32768, A ⟨j.val / 32, by omega⟩ ⟨j.val % 32, Nat.mod_lt _ (by decide)⟩ * u j := by
  symm
  refine (sum_split 16 2048
    (fun j : Fin 32768 => A ⟨j.val / 32, by omega⟩ ⟨j.val % 32, Nat.mod_lt _ (by decide)⟩ * u j)).trans ?_
  refine Finset.sum_congr rfl fun n _ => ?_
  refine (sum_split 16 128
    (fun r : Fin 2048 => A ⟨(2048 * n.val + r.val) / 32, by omega⟩ ⟨(2048 * n.val + r.val) % 32, Nat.mod_lt _ (by decide)⟩
      * u ⟨2048 * n.val + r.val, by omega⟩)).trans ?_
  refine Finset.sum_congr rfl fun g _ => Finset.sum_congr rfl fun l _ => ?_
  exact congrArg (· * u ⟨2048 * n.val + (128 * g.val + l.val), by omega⟩)
    (entry_congr A _ _ _ _
      (show (2048 * n.val + (128 * g.val + l.val)) / 32 = 64 * n.val + (4 * g.val + l.val / 32) by omega)
      (show (2048 * n.val + (128 * g.val + l.val)) % 32 = l.val % 32 by omega))

/-- A sum over k < 16 of a function of the bounded index is the sum over Fin 16. -/
private theorem sum_dite_range (p : Fin 16 → EReal) :
    (∑ k ∈ Finset.range 16, if hk : k < 16 then p ⟨k, hk⟩ else 0) = ∑ n : Fin 16, p n := by
  rw [Finset.sum_range]
  refine Finset.sum_congr rfl fun n _ => ?_
  rw [dif_pos n.2]

/-- The block after chunk n is the sum of the contributions of chunks 0 .. n, plus the bias. -/
private theorem blockAfter_eq (net : Fin 16 → Fin 1024 → Fin 1024 → EReal) (S : Fin 16 → Fin 1024 → Fin 32 → EReal)
    (gb : Fin 32 → EReal) (fw : Fin 32768 → Fin 256 → EReal) (fb : Fin 256 → EReal) (b : Fin 16) (o : Fin 256) :
    ∀ (n : ℕ) (h : n < 16), blockAfter net S gb fw fb n h b o
      = (∑ k ∈ Finset.range (n + 1), if hk : k < 16 then point net S gb fw ⟨k, hk⟩ b o else 0) + fb o
  | 0, h => by
      rw [Finset.sum_range_one, dif_pos h]
      rfl
  | n + 1, h => by
      rw [Finset.sum_range_succ _ (n + 1), dif_pos h, add_right_comm,
        ← blockAfter_eq net S gb fw fb b o n (Nat.lt_of_succ_lt h)]
      rfl

/-- A chunk's contribution, written over the whole layer's activation and weight rows. -/
private theorem point_eq (net : Fin 16 → Fin 1024 → Fin 1024 → EReal) (S : Fin 16 → Fin 1024 → Fin 32 → EReal)
    (gb : Fin 32 → EReal) (fw : Fin 32768 → Fin 256 → EReal) (n : Fin 16) (b : Fin 16) (o : Fin 256) :
    point net S gb fw n b o
      = ∑ g : Fin 16, ∑ l : Fin 128,
          act net S gb b ⟨64 * n.val + (4 * g.val + l.val / 32), by omega⟩ ⟨l.val % 32, Nat.mod_lt _ (by decide)⟩
            * fw ⟨2048 * n.val + (128 * g.val + l.val), by omega⟩ o :=
  rfl

theorem blockAfter_last (net : Fin 16 → Fin 1024 → Fin 1024 → EReal) (S : Fin 16 → Fin 1024 → Fin 32 → EReal) (gb : Fin 32 → EReal)
    (fw : Fin 32768 → Fin 256 → EReal) (fb : Fin 256 → EReal) (b : Fin 16) (o : Fin 256) :
    blockAfter net S gb fw fb 15 (by decide) b o = total net S gb fw fb b o := by
  refine (blockAfter_eq net S gb fw fb b o 15 (by decide)).trans ?_
  refine congrArg (· + fb o) ?_
  refine (sum_dite_range (fun n => point net S gb fw n b o)).trans ?_
  refine (Finset.sum_congr rfl fun n _ => point_eq net S gb fw n b o).trans ?_
  exact regroup (act net S gb b) (fun j => fw j o)

end Cert.Spec

end
-- ==== Proof.IdealFinal.lean ====
/-
  The idealized kernel's result.

  By induction on the grid point, the output block after point n is the specification's `blockAfter` of the argument
  arrays, and the support scratch holds x · W from point 0 on: point 0 stores the chunk's contribution plus the bias
  over its own support; a later point adds its chunk's contribution to what the point before left.  The windows'
  blocks are read back to the argument arrays (the adjacency's rows 64 n .. 64 n + 63, the dense weight's rows
  2048 n .. 2048 n + 2047, the others whole).  The output window's one block is the whole result array and is written
  back after the last point only, so the result array ends at the block after point 15, which is the total.
-/
import proofs.«148299_g69045894250503_cont_sun_m_1325_18_alg».proof.Proof.IdealValue
import proofs.«148299_g69045894250503_cont_sun_m_1325_18_alg».proof.Proof.Blocks
import proofs.«148299_g69045894250503_cont_sun_m_1325_18_alg».proof.Proof.Algebra

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The argument arrays at coordinates -/

abbrev adj (c : Dev nD) : Fin 16 → Fin 1024 → Fin 1024 → EReal := fun b n k => ((m ((c : Thread nD τ).loc main_arg1)) : Vec Ideal S16x1024x1024 .f32) (ix3 b n k)
abbrev sup (c : Dev nD) : Fin 16 → Fin 1024 → Fin 32 → EReal :=
  Cert.Spec.support (fun b n f => ((m ((c : Thread nD τ).loc main_arg0)) : Vec Ideal S16x1024x128 .f32) (ix3 b n f)) (fun f h => ((m ((c : Thread nD τ).loc main_arg2)) : Vec Ideal S128x32 .f32) (ix2 f h))
abbrev gbias (c : Dev nD) : Fin 32 → EReal := fun h => ((m ((c : Thread nD τ).loc main_arg3)) : Vec Ideal S32 .f32) (ix1 h)
abbrev dense (c : Dev nD) : Fin 32768 → Fin 256 → EReal := fun j o => ((m ((c : Thread nD τ).loc main_arg4)) : Vec Ideal S32768x256 .f32) (ix2 j o)
abbrev obias (c : Dev nD) : Fin 256 → EReal := fun o => ((m ((c : Thread nD τ).loc main_arg5)) : Vec Ideal S256 .f32) (ix1 o)

/-- A point's contribution, from its windows' blocks and a support array that is x · W, is the specification's. -/
theorem pointOf_eq_point (c : Dev nD) (t : Fin cfg0.N) (S : Vec Ideal S16x1024x32 .bf16)
    (hS : ∀ (b : Fin 16) (k : Fin 1024) (h : Fin 32), S (ix3 b k h) = sup m c b k h) (b : Fin 16) (o : Fin 256) :
    pointOf (iblk m c 2 t) (iblk m c 3 t) (iblk m c 4 t) S b o
      = Cert.Spec.point (adj m c) (sup m c) (gbias m c) (dense m c) ⟨t.val, lt16 t.isLt⟩ b o := by
  have hA : Cert.Spec.act (fun b r k => (iblk m c 3 t : Vec Ideal S16x64x1024 .f32) (ix3 b r k)) (fun b k h => S (ix3 b k h)) (fun h => (iblk m c 2 t : Vec Ideal S1x32 .f32) (ix2 (0 : Fin 1) h))
      = Cert.Spec.act (Cert.Spec.netChunk (adj m c) ⟨t.val, lt16 t.isLt⟩) (sup m c) (gbias m c) := by
    funext b r h
    unfold Cert.Spec.act Cert.Spec.netChunk
    simp only [blk3_apply m c t, blk2_apply m c t, hS]
  have hF : (fun r o => (iblk m c 4 t : Vec Ideal S2048x256 .f32) (ix2 r o)) = Cert.Spec.fwChunk (dense m c) ⟨t.val, lt16 t.isLt⟩ := by
    funext r o
    exact blk4_apply m c t r o
  unfold pointOf Cert.Spec.point
  rw [hA, hF]

/-- The support computed from the first point's blocks is x · W of the argument arrays. -/
theorem supportFn_blocks (c : Dev nD) (t : Fin cfg0.N) (b : Fin 16) (k : Fin 1024) (h : Fin 32) :
    supportFn (iblk m c 0 t) (iblk m c 1 t) (ix3 b k h) = sup m c b k h := by
  rw [supportFn_apply]
  unfold sup Cert.Spec.support
  simp only [blk0_apply m c t, blk1_apply m c t]

/-! ## What is carried, point by point -/

theorem carried_eq (c : Dev nD) : ∀ (n : ℕ) (hn : n < cfg0.N),
    (∀ (b : Fin 16) (o : Fin 256), (carried m c n hn).1 (ix2 b o)
        = Cert.Spec.blockAfter (adj m c) (sup m c) (gbias m c) (dense m c) (obias m c) n (lt16 hn) b o)
    ∧ (∀ (b : Fin 16) (k : Fin 1024) (h : Fin 32), (carried m c n hn).2 (ix3 b k h) = sup m c b k h)
  | 0, hn => by
    have hc0 : cond0_0 (grid0.coords ⟨0, hn⟩) := (hcond0_0 ⟨0, hn⟩).mpr (Nat.zero_mod _)
    have hc1 : cond0_1 (grid0.coords ⟨0, hn⟩) := (hcond0_1 ⟨0, hn⟩).mpr (Nat.zero_mod _)
    have hc2 : ¬cond0_2 (grid0.coords ⟨0, hn⟩) := fun h => absurd ((hcond0_2 ⟨0, hn⟩).mp h) (Nat.not_succ_le_zero 0)
    have e := carried_first m c ⟨0, hn⟩ rfl hc0 hc1 hc2
    refine ⟨fun b o => ?_, fun b k h => ?_⟩
    · refine (congrFun (congrArg Prod.fst e) (ix2 b o)).trans ?_
      dsimp only
      rw [outFirst_apply, pointOf_eq_point m c ⟨0, hn⟩ _ (supportFn_blocks m c ⟨0, hn⟩) b o, blk5_apply m c ⟨0, hn⟩ o]
      rfl
    · refine (congrFun (congrArg Prod.snd e) (ix3 b k h)).trans ?_
      dsimp only
      rw [supFirst_eq]
      exact supportFn_blocks m c ⟨0, hn⟩ b k h
  | n + 1, hn => by
    have ih := carried_eq c n (Nat.lt_of_succ_lt hn)
    have hN := lt16 hn
    have hc0 : ¬cond0_0 (grid0.coords ⟨n + 1, hn⟩) := fun h => by have := (hcond0_0 ⟨n + 1, hn⟩).mp h; dsimp only at this; omega
    have hc1 : ¬cond0_1 (grid0.coords ⟨n + 1, hn⟩) := fun h => by have := (hcond0_1 ⟨n + 1, hn⟩).mp h; dsimp only at this; omega
    have hc2 : cond0_2 (grid0.coords ⟨n + 1, hn⟩) := (hcond0_2 ⟨n + 1, hn⟩).mpr (Nat.succ_le_succ (Nat.zero_le n))
    have e : carried m c (n + 1) hn
        = (outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) hc0 hc1 hc2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (carried m c n (Nat.lt_of_succ_lt hn)).1 (carried m c n (Nat.lt_of_succ_lt hn)).2,
           (carried m c n (Nat.lt_of_succ_lt hn)).2) := rfl
    refine ⟨fun b o => ?_, fun b k h => ?_⟩
    · refine (congrFun (congrArg Prod.fst e) (ix2 b o)).trans ?_
      dsimp only
      rw [outLater_apply, pointOf_eq_point m c ⟨n + 1, hn⟩ _ ih.2 b o]
      exact congrArg (· + _) (ih.1 b o)
    · refine (congrFun (congrArg Prod.snd e) (ix3 b k h)).trans ?_
      exact ih.2 b k h

/-! ## The result array -/

theorem lt15 : 15 < cfg0.N := by rw [show cfg0.N = 16 from N_0]; decide

/-- The output block after the last point, as contents of the result array (its one block is the array). -/
abbrev result (c : Dev nD) : Buf (Elt Ideal) ((c : Thread nD τ).loc main_v2) := (carried m c 15 lt15).1

/-- The one write-back, after point 15, writes it. -/
theorem flushed_eq (c : Dev nD) (t : Fin cfg0.N) (hf : (cfg0.win 6).flush t = true) :
    (dats m 0 c).flushed 6 t = ((cfg0.win 6).blk t).view.read (Elt Ideal) (result m c) := by
  have h15 : t.val = 15 := by have := (flush0_6 t).mp hf; have := lt16 t.isLt; omega
  obtain rfl : t = t0_15 := Fin.ext h15
  show (cfg0.win 6).cut (grid0.coords t0_15) ((dats m 0 c).after 6 t0_15) = _
  rw [after0_6]
  have hz' : (fun a => win0_6.index t0_15 a * main_v2.ty.shape.size a) = fun _ => 0 := funext fun a => by fin_cases a <;> decide
  exact (Memref.read_access_unit_zero (Elt Ideal) main_v2 hz' (fun a => by rw [congrFun hz' a]; simp) (result m c)).symm

theorem final_o (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v2).slice (win0_6.rect t0_15)).set
      rw [View.set_slice_whole, Rect.mem_set_unit]
      intro a
      have h0 : (i 0 : Nat) < 16 := (i 0).isLt
      have h1 : (i 1 : Nat) < 256 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 16 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 256 from by decide +kernel]; omega⟩

/-- The result array, at a sample and an output, is the specification's total of the argument arrays. -/
theorem result_apply (c : Dev nD) (b : Fin 16) (o : Fin 256) :
    (result m c : Vec Ideal S16x256 .f32) (ix2 b o) = Cert.Spec.total (adj m c) (sup m c) (gbias m c) (dense m c) (obias m c) b o :=
  ((carried_eq m c 15 lt15).1 b o).trans (Cert.Spec.blockAfter_last _ _ _ _ _ b o)

/-- The run, read: the result array at `result`, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_o m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Hand

end
-- ==== Proof.RefValue.lean ====
/-
  The reference's result, read at an index, is the specification's total: two batched products give the activations'
  argument, the bias is broadcast over samples and nodes, the reshape flattens (node, channel) to 32 node + channel, the
  maximum with zero follows, and the last product with the dense weight plus the broadcast output bias closes it.
-/
import proofs.«148299_g69045894250503_cont_sun_m_1325_18_alg».proof.Proof.Gen.ReferenceIdeal.Read
import proofs.«148299_g69045894250503_cont_sun_m_1325_18_alg».proof.Proof.Spec
import proofs.«148299_g69045894250503_cont_sun_m_1325_18_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Idealize.SL.Sem

/-- The first product at coordinates (b, n, h) is the support: the left operand is read at (b, n, f), the right at
    (f, h). -/
private theorem support_apply (x0 : (⟨S16x1024x128, .f32⟩ : BufTy).Contents (Elt Ideal))
    (x2 : (⟨S128x32, .f32⟩ : BufTy).Contents (Elt Ideal)) (b : Fin 16) (n : Fin 1024) (h : Fin 32) :
    Cert.ReferenceIdeal.Read.val_main_v0 x0 x2 (ix3 b n h)
      = Cert.Spec.support (fun b n f => x0 (ix3 b n f)) (fun f h => x2 (ix2 f h)) b n h := by
  rw [Cert.ReferenceIdeal.Read.val_main_v0_apply]
  unfold Cert.Spec.support
  refine Finset.sum_congr rfl fun k _ => ?_
  have el : Cert.ReferenceIdeal.Read.lidx_main_v0 (ix3 b n h) k = ix3 b n k :=
    funext fun a => Fin.ext (by match a with | ⟨0, _⟩ => rfl | ⟨1, _⟩ => rfl | ⟨2, _⟩ => rfl)
  have er : Cert.ReferenceIdeal.Read.ridx_main_v0 (ix3 b n h) k = ix2 k h :=
    funext fun a => Fin.ext (by match a with | ⟨0, _⟩ => rfl | ⟨1, _⟩ => rfl)
  rw [el, er]

/-- The argument of the maximum at coordinates (b, n, h): the second product, batched over b and contracting the
    node axis of the support, plus the bias of channel h (both broadcasts read the bias at h). -/
private theorem preact_apply (x0 : (⟨S16x1024x128, .f32⟩ : BufTy).Contents (Elt Ideal))
    (x1 : (⟨S16x1024x1024, .f32⟩ : BufTy).Contents (Elt Ideal)) (x2 : (⟨S128x32, .f32⟩ : BufTy).Contents (Elt Ideal))
    (x3 : (⟨S32, .f32⟩ : BufTy).Contents (Elt Ideal)) (b : Fin 16) (n : Fin 1024) (h : Fin 32) :
    Cert.ReferenceIdeal.Read.val_main_v4 x0 x1 x2 x3 (ix3 b n h)
      = (∑ m : Fin 1024, x1 (ix3 b n m)
            * Cert.Spec.support (fun b n f => x0 (ix3 b n f)) (fun f h => x2 (ix2 f h)) b m h) + x3 (ix1 h) := by
  rw [Cert.ReferenceIdeal.Read.val_main_v4_apply, Cert.ReferenceIdeal.Read.val_main_v1_apply,
    Cert.ReferenceIdeal.Read.val_main_v3_apply, Cert.ReferenceIdeal.Read.val_main_v2_apply, Ideal.addf_def]
  have eb : Cert.ReferenceIdeal.Read.idx_main_v2 (Cert.ReferenceIdeal.Read.idx_main_v3 (ix3 b n h)) = ix1 h :=
    funext fun a => Fin.ext (by match a with | ⟨0, _⟩ => rfl)
  rw [eb]
  refine congrArg (fun t => t + x3 (ix1 h)) (Finset.sum_congr rfl fun m _ => ?_)
  have el : Cert.ReferenceIdeal.Read.lidx_main_v1 (ix3 b n h) m = ix3 b n m :=
    funext fun a => Fin.ext (by match a with | ⟨0, _⟩ => rfl | ⟨1, _⟩ => rfl | ⟨2, _⟩ => rfl)
  have er : Cert.ReferenceIdeal.Read.ridx_main_v1 (ix3 b n h) m = ix3 b m h :=
    funext fun a => Fin.ext (by match a with | ⟨0, _⟩ => rfl | ⟨1, _⟩ => rfl | ⟨2, _⟩ => rfl)
  rw [el, er, support_apply]

/-- The reshape reads flat position j of sample b at node j / 32, channel j % 32: the row-major position
    b · 32768 + j splits as (b · 1024 + j / 32) · 32 + j % 32. -/
private theorem reshape_idx (b : Fin 16) (j : Fin 32768) :
    Cert.ReferenceIdeal.Read.idx_main_v5 (ix2 b j)
      = ix3 b (⟨j.val / 32, by omega⟩ : Fin 1024) (⟨j.val % 32, Nat.mod_lt _ (by decide)⟩ : Fin 32) := by
  have hb : b.val < 16 := b.isLt
  have hj : j.val < 32768 := j.isLt
  refine funext fun a => Fin.ext ?_
  match a with
  | ⟨0, _⟩ => show (b.val * 32768 + j.val) / 32768 = b.val; omega
  | ⟨1, _⟩ => show (b.val * 32768 + j.val) / 32 % 1024 = j.val / 32; omega
  | ⟨2, _⟩ => show (b.val * 32768 + j.val) % 32 = j.val % 32; omega

/-- The activation at flat position j of sample b: the maximum of the reshaped argument with the broadcast zero. -/
private theorem act_apply (x0 : (⟨S16x1024x128, .f32⟩ : BufTy).Contents (Elt Ideal))
    (x1 : (⟨S16x1024x1024, .f32⟩ : BufTy).Contents (Elt Ideal)) (x2 : (⟨S128x32, .f32⟩ : BufTy).Contents (Elt Ideal))
    (x3 : (⟨S32, .f32⟩ : BufTy).Contents (Elt Ideal)) (b : Fin 16) (j : Fin 32768) :
    Cert.ReferenceIdeal.Read.val_main_v6 x0 x1 x2 x3 (ix2 b j)
      = Cert.Spec.act (fun b n k => x1 (ix3 b n k))
          (Cert.Spec.support (fun b n f => x0 (ix3 b n f)) (fun f h => x2 (ix2 f h))) (fun h => x3 (ix1 h)) b
          ⟨j.val / 32, by omega⟩ ⟨j.val % 32, Nat.mod_lt _ (by decide)⟩ := by
  rw [Cert.ReferenceIdeal.Read.val_main_v6_apply, Cert.ReferenceIdeal.Read.val_main_v5_apply,
    Cert.ReferenceIdeal.Read.val_main_call0_v0_apply, Cert.ReferenceIdeal.Read.val_main_call0_cst_apply,
    Ideal.maximumf_def, Ideal.ofBits_def, Ideal.ofBits_zero_f32, reshape_idx, preact_apply]
  rfl

theorem reference_apply (x0 : (⟨S16x1024x128, .f32⟩ : BufTy).Contents (Elt Ideal)) (x1 : (⟨S16x1024x1024, .f32⟩ : BufTy).Contents (Elt Ideal))
    (x2 : (⟨S128x32, .f32⟩ : BufTy).Contents (Elt Ideal)) (x3 : (⟨S32, .f32⟩ : BufTy).Contents (Elt Ideal))
    (x4 : (⟨S32768x256, .f32⟩ : BufTy).Contents (Elt Ideal)) (x5 : (⟨S256, .f32⟩ : BufTy).Contents (Elt Ideal)) (b : Fin 16) (o : Fin 256) :
    Cert.ReferenceIdeal.Read.val_main_v10 x0 x1 x2 x3 x4 x5 (ix2 b o)
      = Cert.Spec.total (fun b n k => x1 (ix3 b n k)) (Cert.Spec.support (fun b n f => x0 (ix3 b n f)) (fun f h => x2 (ix2 f h)))
          (fun h => x3 (ix1 h)) (fun j o => x4 (ix2 j o)) (fun o => x5 (ix1 o)) b o := by
  rw [Cert.ReferenceIdeal.Read.val_main_v10_apply, Cert.ReferenceIdeal.Read.val_main_v7_apply,
    Cert.ReferenceIdeal.Read.val_main_v9_apply, Cert.ReferenceIdeal.Read.val_main_v8_apply, Ideal.addf_def]
  have eb : Cert.ReferenceIdeal.Read.idx_main_v8 (Cert.ReferenceIdeal.Read.idx_main_v9 (ix2 b o)) = ix1 o :=
    funext fun a => Fin.ext (by match a with | ⟨0, _⟩ => rfl)
  rw [eb]
  unfold Cert.Spec.total
  refine congrArg (fun t => t + x5 (ix1 o)) (Finset.sum_congr rfl fun j _ => ?_)
  have el : Cert.ReferenceIdeal.Read.lidx_main_v7 (ix2 b o) j = ix2 b j :=
    funext fun a => Fin.ext (by match a with | ⟨0, _⟩ => rfl | ⟨1, _⟩ => rfl)
  have er : Cert.ReferenceIdeal.Read.ridx_main_v7 (ix2 b o) j = ix2 j o :=
    funext fun a => Fin.ext (by match a with | ⟨0, _⟩ => rfl | ⟨1, _⟩ => rfl)
  rw [el, er, act_apply]

end Cert.ReferenceIdeal.RefValue

end
-- ==== Proof.lean ====
/-
  A fused graph-convolution and dense layer: for 16 samples of 1024 nodes, S = x · W (32 channels per node),
  a = max (A · S + β) 0, and y = flatten(a) · U + γ (256 outputs).

  The reference computes y with three whole matrix products.  The kernel visits the nodes in sixteen chunks of 64 on a
  one-axis grid: at the first point it computes S into a scratch buffer that it keeps for all later points; at every
  point it computes the chunk's activations, packs four nodes to a row of 128 lanes, and multiplies sixteen such row
  groups with the matching 128 rows of U; it initialises the output block with that sum plus γ at the first point and
  adds the sum at every later point.  Over the extended reals both are the same sum of products, regrouped: the
  flattened index j < 32768 is 2048 n + 128 g + l for chunk n, row group g and lane l, with node j / 32 and channel
  j % 32.  Only commutativity and associativity of addition are used, so the inputs' finiteness is never opened.

  The frames of the two kernel programs come from one symbolic run of the body per kind of grid point (the first, and
  any later one), with the support scratch and the output block carried from point to point; the reference's frame is
  its run with the result dropped.  The idealization rewrote nothing, so there is nothing to preserve.
-/
import proofs.«148299_g69045894250503_cont_sun_m_1325_18_alg».proof.Defs
import proofs.«148299_g69045894250503_cont_sun_m_1325_18_alg».proof.Proof.Gen.Kernel
import proofs.«148299_g69045894250503_cont_sun_m_1325_18_alg».proof.Proof.Gen.KernelIdeal
import proofs.«148299_g69045894250503_cont_sun_m_1325_18_alg».proof.Proof.Gen.ReferenceIdeal
import proofs.«148299_g69045894250503_cont_sun_m_1325_18_alg».proof.Proof.Gen.Pre_finite_inputs
import proofs.«148299_g69045894250503_cont_sun_m_1325_18_alg».proof.Proof.Gen.ReferenceIdeal.Run
import proofs.«148299_g69045894250503_cont_sun_m_1325_18_alg».proof.Proof.Gen.ReferenceIdeal.Read
import proofs.«148299_g69045894250503_cont_sun_m_1325_18_alg».proof.Proof.BitsFrame
import proofs.«148299_g69045894250503_cont_sun_m_1325_18_alg».proof.Proof.IdealFinal
import proofs.«148299_g69045894250503_cont_sun_m_1325_18_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the result array at the specification's total of the (agreeing) argument arrays. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq]
  funext i
  obtain ⟨b, o, rfl⟩ : ∃ (b : Fin 16) (o : Fin 256), i = ix2 b o := ⟨i 0, i 1, eq_ix2 i⟩
  rw [Cert.ReferenceIdeal.RefValue.reference_apply]
  rw [(hagree c).1, (hagree c).2.1, (hagree c).2.2.1, (hagree c).2.2.2.1, (hagree c).2.2.2.2.1, (hagree c).2.2.2.2.2]
  exact (Cert.KernelIdeal.Hand.result_apply m c b o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
